-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S2000000x4x4 : Shape := ⟨3, ![2000000, 4, 4]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S2000000x4x4 : S_.BroadcastsInDim S2000000x4x4 (![] : Fin 0 → Fin S2000000x4x4.rank)
  reducesTo_S2000000x4x4_S_d0_1_2 : S2000000x4x4.ReducesTo [0, 1, 2] S_

variable [Facts]

def fn {F : FTy → Type} [FloatOps F] (main_arg0 : FVec F S2000000x3 .f32) (main_arg1 : FVec F S2000000x3 .f32) (main_arg2 : FVec F S2000000x4x4 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x4x4 .f32 := Host.absf main_arg2
  let main_cst_2 : FVec F S_ .f32 := constant S_ .f32 0x7F800000#32
  let main_v10 : FVec F S2000000x4x4 .f32 := broadcastInDim S2000000x4x4 ![] bcast_S_S2000000x4x4 main_cst_2
  let main_v11 : IVec S2000000x4x4 1 := cmpf .olt main_v9 main_v10
  let main_c_3 : IVec S_ 1 := constantI S_ 1 1#1
  let main_v12 : IVec S_ 1 := (fun x v => Host.reduce IntOp.andi x v reducesTo_S2000000x4x4_S_d0_1_2 h_S_) main_v11 main_c_3
  let main_v13 : IVec S_ 1 := andi main_v8 main_v12
  main_v13
-- ==== Kernel.lean ====
abbrev S2000000x3 : Shape := ⟨2, ![2000000, 3]⟩
abbrev S2000000x4x4 : Shape := ⟨3, ![2000000, 4, 4]⟩
abbrev S2000000x16 : Shape := ⟨2, ![2000000, 16]⟩
abbrev S2000x3 : Shape := ⟨2, ![2000, 3]⟩
abbrev S2000x16 : Shape := ⟨2, ![2000, 16]⟩
abbrev S2000x1 : Shape := ⟨2, ![2000, 1]⟩
abbrev S2000 : Shape := ⟨1, ![2000]⟩
abbrev S2000x4 : Shape := ⟨2, ![2000, 4]⟩

abbrev nBuf : Space → Nat
  | .hbm => 6
  | .vmem => 8
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000x4x4, .f32⟩
  | .hbm, ⟨3, _⟩ => ⟨S2000000x16, .f32⟩
  | .hbm, ⟨4, _⟩ => ⟨S2000000x16, .f32⟩
  | .hbm, ⟨5, _⟩ => ⟨S2000000x4x4, .f32⟩
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2000000x4x4_S2000000x16 : S2000000x4x4.ShapeCasts S2000000x16
  inb_S2000x3_S2000x3_0_0 : ∀ a, (![0, 0] : Fin 2 → Nat) a + S2000x3.size a ≤ S2000x3.size a
  h_S2000x3 : 0 < S2000x3.numel
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  slices_S2000x3_o0_0_S2000x1 : S2000x3.Slices ![0, 0] S2000x1
  shapeCasts_S2000x1_S2000 : S2000x1.ShapeCasts S2000
  slices_S2000x3_o0_1_S2000x1 : S2000x3.Slices ![0, 1] S2000x1
  slices_S2000x3_o0_2_S2000x1 : S2000x3.Slices ![0, 2] S2000x1
  slices_S2000x16_o0_12_S2000x4 : S2000x16.Slices ![0, 12] S2000x4
  shapeCasts_S2000_S2000x1 : S2000.ShapeCasts S2000x1
  concatenates_S2000x1_S2000x1_S2000x1_S2000x1_S2000x1_S2000x1_S2000x1_S2000x1_S2000x1_S2000x1_S2000x1_S2000x1_S2000x4_S2000x16_d1 : Shape.Concatenates [S2000x1, S2000x1, S2000x1, S2000x1, S2000x1, S2000x1, S2000x1, S2000x1, S2000x1, S2000x1, S2000x1, S2000x1, S2000x4] S2000x16 1
  shapeCasts_S2000000x16_S2000000x4x4 : S2000000x16.ShapeCasts S2000000x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S2000000x3.size a
  hwx0_0 : ∀ i : grid0.Coords, EltTy.bits .f32 = 32 ∨ (Rect.block (s := S2000000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S2000000x3.size a
  hwx0_1 : ∀ i : grid0.Coords, EltTy.bits .f32 = 32 ∨ (Rect.block (s := S2000000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S2000000x16.size a
  hwx0_2 : ∀ i : grid0.Coords, EltTy.bits .f32 = 32 ∨ (Rect.block (s := S2000000x16) S2000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S2000000x16.size a
  hwx0_3 : ∀ i : grid0.Coords, EltTy.bits .f32 = 32 ∨ (Rect.block (s := S2000000x16) S2000x16.size (cc0_transform_3 i) (hinb0_3 i)).WholeWords (EltTy.packing .f32)

variable [Facts₀]

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000x4x4 : Shape := ⟨3, ![2000000, 4, 4]⟩
abbrev S3 : Shape := ⟨1, ![3]⟩
abbrev S2000000x1 : Shape := ⟨2, ![2000000, 1]⟩
abbrev S2000000 : Shape := ⟨1, ![2000000]⟩
abbrev S_ : Shape := ⟨0, ![]⟩
abbrev S2000000x9 : Shape := ⟨2, ![2000000, 9]⟩
abbrev S2000000x3x3 : Shape := ⟨3, ![2000000, 3, 3]⟩
abbrev S2000000x1x1 : Shape := ⟨3, ![2000000, 1, 1]⟩
abbrev S2000000x1x3 : Shape := ⟨3, ![2000000, 1, 3]⟩
abbrev S1 : Shape := ⟨1, ![1]⟩
abbrev S2 : Shape := ⟨1, ![2]⟩
abbrev S1x3 : Shape := ⟨2, ![1, 3]⟩

abbrev nBuf : Space → Nat
  | .hbm => 118
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000x4x4, .f32⟩
  | .hbm, ⟨3, _⟩ => ⟨S3, .f32⟩
  | .hbm, ⟨4, _⟩ => ⟨S2000000x1, .f32⟩
  | .hbm, ⟨5, _⟩ => ⟨S2000000, .f32⟩
  | .hbm, ⟨6, _⟩ => ⟨S2000000, .f32⟩
  | .hbm, ⟨7, _⟩ => ⟨S2000000x1, .f32⟩
  | .hbm, ⟨8, _⟩ => ⟨S2000000, .f32⟩
  | .hbm, ⟨9, _⟩ => ⟨S2000000, .f32⟩
  | .hbm, ⟨10, _⟩ => ⟨S2000000x1, .f32⟩
  | .hbm, ⟨11, _⟩ => ⟨S2000000, .f32⟩
  | .hbm, ⟨12, _⟩ => ⟨S2000000, .f32⟩
  | .hbm, ⟨13, _⟩ => ⟨S2000000x1, .f32⟩
  | .hbm, ⟨14, _⟩ => ⟨S2000000, .f32⟩
  | .hbm, ⟨15, _⟩ => ⟨S2000000, .f32⟩
  | .hbm, ⟨16, _⟩ => ⟨S2000000x1, .f32⟩
  | .hbm, ⟨17, _⟩ => ⟨S2000000, .f32⟩
  | .hbm, ⟨18, _⟩ => ⟨S2000000, .f32⟩
  | .hbm, ⟨19, _⟩ => ⟨S2000000x1, .f32⟩
  | .hbm, ⟨20, _⟩ => ⟨S2000000, .f32⟩
  | .hbm, ⟨21, _⟩ => ⟨S2000000, .f32⟩
  | .hbm, ⟨22, _⟩ => ⟨S_, .f32⟩
  | .hbm, ⟨23, _⟩ => ⟨S2000000, .f32⟩
  | .hbm, ⟨24, _⟩ => ⟨S_, .f32⟩
  | .hbm, ⟨25, _⟩ => ⟨S2000000, .f32⟩
  | .hbm, ⟨26, _⟩ => ⟨S2000000, .f32⟩
  | .hbm, ⟨27, _⟩ => ⟨S2000000x1, .f32⟩
  | .hbm, ⟨28, _⟩ => ⟨S2000000x1, .f32⟩
  | .hbm, ⟨29, _⟩ => ⟨S2000000x1, .f32⟩
  | .hbm, ⟨30, _⟩ => ⟨S2000000x1, .f32⟩
  | .hbm, ⟨31, _⟩ => ⟨S2000000x1, .f32⟩
  | .hbm, ⟨32, _⟩ => ⟨S2000000x1, .f32⟩
  | .hbm, ⟨33, _⟩ => ⟨S2000000x1, .f32⟩
  | .hbm, ⟨34, _⟩ => ⟨S2000000x1, .f32⟩
  | .hbm, ⟨35, _⟩ => ⟨S2000000x1, .f32⟩
  | .hbm, ⟨36, _⟩ => ⟨S2000000x9, .f32⟩
  | .hbm, ⟨37, _⟩ => ⟨S2000000x3x3, .f32⟩
  | .hbm, ⟨38, _⟩ => ⟨S2000000, .f32⟩
  | .hbm, ⟨39, _⟩ => ⟨S2000000x1, .f32⟩
  | .hbm, ⟨40, _⟩ => ⟨S2000000x1, .f32⟩
  | .hbm, ⟨41, _⟩ => ⟨S2000000x1, .f32⟩
  | .hbm, ⟨42, _⟩ => ⟨S2000000x1, .f32⟩
  | .hbm, ⟨43, _⟩ => ⟨S2000000x1, .f32⟩
  | .hbm, ⟨44, _⟩ => ⟨S2000000x1, .f32⟩
  | .hbm, ⟨45, _⟩ => ⟨S2000000x1, .f32⟩
  | .hbm, ⟨46, _⟩ => ⟨S2000000x1, .f32⟩
  | .hbm, ⟨47, _⟩ => ⟨S2000000x1, .f32⟩
  | .hbm, ⟨48, _⟩ => ⟨S2000000x9, .f32⟩
  | .hbm, ⟨49, _⟩ => ⟨S2000000x3x3, .f32⟩
  | .hbm, ⟨50, _⟩ => ⟨S2000000, .f32⟩
  | .hbm, ⟨51, _⟩ => ⟨S2000000x1, .f32⟩
  | .hbm, ⟨52, _⟩ => ⟨S2000000x1, .f32⟩
  | .hbm, ⟨53, _⟩ => ⟨S2000000x1, .f32⟩
  | .hbm, ⟨54, _⟩ => ⟨S2000000x1, .f32⟩
  | .hbm, ⟨55, _⟩ => ⟨S2000000x1, .f32⟩
  | .hbm, ⟨56, _⟩ => ⟨S2000000x1, .f32⟩
  | .hbm, ⟨57, _⟩ => ⟨S2000000x1, .f32⟩
  | .hbm, ⟨58, _⟩ => ⟨S2000000x1, .f32⟩
  | .hbm, ⟨59, _⟩ => ⟨S2000000x1, .f32⟩
  | .hbm, ⟨60, _⟩ => ⟨S2000000x9, .f32⟩
  | .hbm, ⟨61, _⟩ => ⟨S2000000x3x3, .f32⟩
  | .hbm, ⟨62, _⟩ => ⟨S2000000x3x3, .f32⟩
  | .hbm, ⟨63, _⟩ => ⟨S2000000x3x3, .f32⟩
  | .hbm, ⟨64, _⟩ => ⟨S2000000x1x1, .f32⟩
  | .hbm, ⟨65, _⟩ => ⟨S2000000, .f32⟩
  | .hbm, ⟨66, _⟩ => ⟨S2000000x1x1, .f32⟩
  | .hbm, ⟨67, _⟩ => ⟨S2000000, .f32⟩
  | .hbm, ⟨68, _⟩ => ⟨S2000000, .f32⟩
  | .hbm, ⟨69, _⟩ => ⟨S2000000x1x1, .f32⟩
  | .hbm, ⟨70, _⟩ => ⟨S2000000, .f32⟩
  | .hbm, ⟨71, _⟩ => ⟨S2000000x1, .f32⟩
  | .hbm, ⟨72, _⟩ => ⟨S2000000x1, .f32⟩
  | .hbm, ⟨73, _⟩ => ⟨S2000000x1, .f32⟩
  | .hbm, ⟨74, _⟩ => ⟨S2000000x3, .f32⟩
  | .hbm, ⟨75, _⟩ => ⟨S2000000x1x1, .f32⟩
  | .hbm, ⟨76, _⟩ => ⟨S2000000, .f32⟩
  | .hbm, ⟨77, _⟩ => ⟨S2000000, .f32⟩
  | .hbm, ⟨78, _⟩ => ⟨S2000000x1x1, .f32⟩
  | .hbm, ⟨79, _⟩ => ⟨S2000000, .f32⟩
  | .hbm, ⟨80, _⟩ => ⟨S2000000x1x1, .f32⟩
  | .hbm, ⟨81, _⟩ => ⟨S2000000, .f32⟩
  | .hbm, ⟨82, _⟩ => ⟨S2000000, .f32⟩
  | .hbm, ⟨83, _⟩ => ⟨S2000000x1, .f32⟩
  | .hbm, ⟨84, _⟩ => ⟨S2000000x1, .f32⟩
  | .hbm, ⟨85, _⟩ => ⟨S2000000x1, .f32⟩
  | .hbm, ⟨86, _⟩ => ⟨S2000000x3, .f32⟩
  | .hbm, ⟨87, _⟩ => ⟨S2000000x1x1, .f32⟩
  | .hbm, ⟨88, _⟩ => ⟨S2000000, .f32⟩
  | .hbm, ⟨89, _⟩ => ⟨S2000000, .f32⟩
  | .hbm, ⟨90, _⟩ => ⟨S2000000x1x1, .f32⟩
  | .hbm, ⟨91, _⟩ => ⟨S2000000, .f32⟩
  | .hbm, ⟨92, _⟩ => ⟨S2000000, .f32⟩
  | .hbm, ⟨93, _⟩ => ⟨S2000000x1x1, .f32⟩
  | .hbm, ⟨94, _⟩ => ⟨S2000000, .f32⟩
  | .hbm, ⟨95, _⟩ => ⟨S2000000x1, .f32⟩
  | .hbm, ⟨96, _⟩ => ⟨S2000000x1, .f32⟩
  | .hbm, ⟨97, _⟩ => ⟨S2000000x1, .f32⟩
  | .hbm, ⟨98, _⟩ => ⟨S2000000x3, .f32⟩
  | .hbm, ⟨99, _⟩ => ⟨S2000000x1x3, .f32⟩
  | .hbm, ⟨100, _⟩ => ⟨S2000000x1x3, .f32⟩
  | .hbm, ⟨101, _⟩ => ⟨S2000000x1x3, .f32⟩
  | .hbm, ⟨102, _⟩ => ⟨S2000000x3x3, .f32⟩
  | .hbm, ⟨103, _⟩ => ⟨S_, .i32⟩
  | .hbm, ⟨104, _⟩ => ⟨S1, .i32⟩
  | .hbm, ⟨105, _⟩ => ⟨S_, .i32⟩
  | .hbm, ⟨106, _⟩ => ⟨S1, .i32⟩
  | .hbm, ⟨107, _⟩ => ⟨S2, .i32⟩
  | .hbm, ⟨108, _⟩ => ⟨S2000000x4x4, .f32⟩
  | .hbm, ⟨109, _⟩ => ⟨S1x3, .f32⟩
  | .hbm, ⟨110, _⟩ => ⟨S2000000x3, .f32⟩
  | .hbm, ⟨111, _⟩ => ⟨S2000000x3, .f32⟩
  | .hbm, ⟨112, _⟩ => ⟨S_, .i32⟩
  | .hbm, ⟨113, _⟩ => ⟨S1, .i32⟩
  | .hbm, ⟨114, _⟩ => ⟨S_, .i32⟩
  | .hbm, ⟨115, _⟩ => ⟨S1, .i32⟩
  | .hbm, ⟨116, _⟩ => ⟨S2, .i32⟩
  | .hbm, ⟨117, _⟩ => ⟨S2000000x4x4, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_c : Ref sig .tc := ⟨.hbm, 103, rfl⟩
abbrev main_v97 : Ref sig .tc := ⟨.hbm, 104, rfl⟩
abbrev main_c_2 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_c_3 : Ref sig .tc := ⟨.hbm, 112, rfl⟩
abbrev main_v104 : Ref sig .tc := ⟨.hbm, 113, rfl⟩
abbrev main_c_4 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩

abbrev nD : Nat := 1
abbrev τ : Topo := Topo.v7x

variable {F : FTy → Type} [FloatOps F]

class Facts₀ : Prop where
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x1_S2000000x1_S2000000x9_d1 : Shape.Concatenates [S2000000x1, S2000000x1, S2000000x1, S2000000x1, S2000000x1, S2000000x1, S2000000x1, S2000000x1, S2000000x1] S2000000x9 1
  shapeCasts_S2000000x9_S2000000x3x3 : S2000000x9.ShapeCasts S2000000x3x3
  slices_S2000000x3x3_S2000000x1x1_0_0_0 : S2000000x3x3.Slices ![0, 0, 0] S2000000x1x1
  shapeCasts_S2000000x1x1_S2000000 : S2000000x1x1.ShapeCasts S2000000
  slices_S2000000x3x3_S2000000x1x1_0_1_0 : S2000000x3x3.Slices ![0, 1, 0] S2000000x1x1
  slices_S2000000x3x3_S2000000x1x1_0_2_0 : S2000000x3x3.Slices ![0, 2, 0] S2000000x1x1
  concatenates_S2000000x1_S2000000x1_S2000000x1_S2000000x3_d1 : Shape.Concatenates [S2000000x1, S2000000x1, S2000000x1] S2000000x3 1
  slices_S2000000x3x3_S2000000x1x1_0_0_1 : S2000000x3x3.Slices ![0, 0, 1] S2000000x1x1
  slices_S2000000x3x3_S2000000x1x1_0_1_1 : S2000000x3x3.Slices ![0, 1, 1] S2000000x1x1
  slices_S2000000x3x3_S2000000x1x1_0_2_1 : S2000000x3x3.Slices ![0, 2, 1] S2000000x1x1
  slices_S2000000x3x3_S2000000x1x1_0_0_2 : S2000000x3x3.Slices ![0, 0, 2] S2000000x1x1
  slices_S2000000x3x3_S2000000x1x1_0_1_2 : S2000000x3x3.Slices ![0, 1, 2] S2000000x1x1
  slices_S2000000x3x3_S2000000x1x1_0_2_2 : S2000000x3x3.Slices ![0, 2, 2] S2000000x1x1
  bcast_S2000000x3_S2000000x1x3_0_2 : S2000000x3.BroadcastsInDim S2000000x1x3 (![0, 2] : Fin 2 → Fin S2000000x1x3.rank)
  concatenates_S2000000x1x3_S2000000x1x3_S2000000x1x3_S2000000x3x3_d1 : Shape.Concatenates [S2000000x1x3, S2000000x1x3, S2000000x1x3] S2000000x3x3 1
  bcast_S_S1 : S_.BroadcastsInDim S1 (![] : Fin 0 → Fin S1.rank)
  concatenates_S1_S1_S2_d0 : Shape.Concatenates [S1, S1] S2 0
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  dot_S2000000x3x3_S2000000x3x3_S2000000x3x3_1_2_2_1_0_0_wf : DotDims.WF S2000000x3x3 S2000000x3x3 S2000000x3x3 [1] [2] [2] [1] [0] [0]
  dot_S2000000x3x3_S2000000x3x3_S2000000x3x3_1_1_2_2_0_0_wf : DotDims.WF S2000000x3x3 S2000000x3x3 S2000000x3x3 [1] [1] [2] [2] [0] [0]
  scatter_S2000000x4x4_S2_S2000000x3x3_012_n_12_0_wf : ScatterDims.WF S2000000x4x4 S2 S2000000x3x3 [0, 1, 2] [] [1, 2] 0
  scatter_S2000000x4x4_S2_S2000000x3_01_2_12_0_wf : ScatterDims.WF S2000000x4x4 S2 S2000000x3 [0, 1] [2] [1, 2] 0

variable [Facts₀]

def dot_S2000000x3x3_S2000000x3x3_S2000000x3x3_1_2_2_1_0_0 : DotDims S2000000x3x3 S2000000x3x3 S2000000x3x3 where
  lhsContracting := [1]
  rhsContracting := [2]
  lhsNonContracting := [2]
  rhsNonContracting := [1]
  lhsBatch := [0]
  rhsBatch := [0]
  wf := dot_S2000000x3x3_S2000000x3x3_S2000000x3x3_1_2_2_1_0_0_wf
def dot_S2000000x3x3_S2000000x3x3_S2000000x3x3_1_1_2_2_0_0 : DotDims S2000000x3x3 S2000000x3x3 S2000000x3x3 where
  lhsContracting := [1]
  rhsContracting := [1]
  lhsNonContracting := [2]
  rhsNonContracting := [2]
  lhsBatch := [0]
  rhsBatch := [0]
  wf := dot_S2000000x3x3_S2000000x3x3_S2000000x3x3_1_1_2_2_0_0_wf
def scatter_S2000000x4x4_S2_S2000000x3x3_012_n_12_0 : ScatterDims S2000000x4x4 S2 S2000000x3x3 where
  updateWindowDims := [0, 1, 2]
  insertedWindowDims := []
  scatterDimsToOperandDims := [1, 2]
  indexVectorDim := 0
  wf := scatter_S2000000x4x4_S2_S2000000x3x3_012_n_12_0_wf
def scatter_S2000000x4x4_S2_S2000000x3_01_2_12_0 : ScatterDims S2000000x4x4 S2 S2000000x3 where
  updateWindowDims := [0, 1]
  insertedWindowDims := [2]
  scatterDimsToOperandDims := [1, 2]
  indexVectorDim := 0
  wf := scatter_S2000000x4x4_S2_S2000000x3_01_2_12_0_wf

class Facts : Prop extends Facts₀ where

variable [Facts]
-- ==== Proof.Spec.lean ====
/-
  The result of both programs as ONE function of the three argument arrays, over the extended reals.

  For camera `n` with Euler angles `(x, y, z) = r[n, :]` the output is the 4×4 matrix whose upper-left 3×3 block is the
  sign-and-transpose fix-up of `Rx(x)·Ry(y)·Rz(z)`, written out entry by entry (`rotEntry`), whose upper-right column is
  the translation `t[n, a]` times the scale `(3840, 2160, 1)`, and whose last row is the last row of `c2w_init[n]`.
  The entries are written with the subtraction from zero that stands for a negation, so that the product form
  `(0 - cos x)·sin z - (sin x·sin y)·cos z` is literally one side's arithmetic.
-/
import Idealize.ShloMosaic.PureOps.Ideal
import Idealize.ShloMosaic.Lib.ValueIdx

noncomputable section

namespace Cert.Euler

open Idealize.ShloMosaic Idealize.ShloMosaic.ValueIdx

/-- The angle and translation arrays: one row of three per camera. -/
abbrev SN3 : Shape := ⟨2, ![2000000, 3]⟩
/-- The pose arrays: one 4×4 matrix per camera. -/
abbrev SN44 : Shape := ⟨3, ![2000000, 4, 4]⟩

/-- Entry `(a, b)` of the fixed-up rotation for angles `x, y, z`. -/
def rotEntry (x y z : EReal) : Fin 3 → Fin 3 → EReal
  | 0, 0 => Ideal.cos y * Ideal.cos z
  | 0, 1 => (0 - Ideal.cos x) * Ideal.sin z - Ideal.sin x * Ideal.sin y * Ideal.cos z
  | 0, 2 => Ideal.sin x * Ideal.sin z - Ideal.cos x * Ideal.sin y * Ideal.cos z
  | 1, 0 => Ideal.cos y * Ideal.sin z
  | 1, 1 => Ideal.cos x * Ideal.cos z - Ideal.sin x * Ideal.sin y * Ideal.sin z
  | 1, 2 => (0 - Ideal.sin x) * Ideal.cos z - Ideal.cos x * Ideal.sin y * Ideal.sin z
  | 2, 0 => 0 - Ideal.sin y
  | 2, 1 => Ideal.sin x * Ideal.cos y
  | 2, 2 => Ideal.cos x * Ideal.cos y

/-- The binary words of the translation's scale: 3840, 2160, 1. -/
def scaleWord : Fin 3 → BitVec 32
  | 0 => 0x45700000#32
  | 1 => 0x45070000#32
  | 2 => 0x3F800000#32

/-- The output at camera `n`, row `a`, column `b`. -/
def Gat (r t : SN3.Idx → EReal) (c : SN44.Idx → EReal) (n : Fin 2000000) (a b : Fin 4) : EReal :=
  if h1 : a.val < 3 then
    if h2 : b.val < 3 then
      rotEntry (r (ix2 n (0 : Fin 3))) (r (ix2 n (1 : Fin 3))) (r (ix2 n (2 : Fin 3))) ⟨a.val, h1⟩ ⟨b.val, h2⟩
    else t (ix2 n (⟨a.val, h1⟩ : Fin 3)) * Ideal.ofBits .f32 (scaleWord ⟨a.val, h1⟩)
  else c (ix3 n a b)

/-- The whole output array. -/
def G (r t : SN3.Idx → EReal) (c : SN44.Idx → EReal) : SN44.Idx → EReal :=
  fun i => Gat r t c (i 0) (i 1) (i 2)

theorem G_ix3 (r t : SN3.Idx → EReal) (c : SN44.Idx → EReal) (n : Fin 2000000) (a b : Fin 4) :
    G r t c (ix3 n a b) = Gat r t c n a b := rfl

end Cert.Euler

end
-- ==== Proof.KernelReshape.lean ====
/-
  A pose array viewed flat and back: `[N, 4, 4]` and `[N, 16]` hold the same numbers, entry `(n, a, b)` at `(n, 4a + b)`.
-/
import Idealize.ShloMosaic.Lib.ValueIdx
import Idealize.ShloMosaic.Lib.Pipeline.Value

noncomputable section

namespace Cert.Euler

open Idealize.ShloMosaic Idealize.ShloMosaic.ValueIdx

variable {α : Type}

/-- The flat array read as matrices. -/
theorem unflatten_apply (v : (⟨2, ![2000000, 16]⟩ : Shape).Idx → α)
    (h : (⟨2, ![2000000, 16]⟩ : Shape).ShapeCasts ⟨3, ![2000000, 4, 4]⟩) (n : Fin 2000000) (a b : Fin 4) :
    shapeCast (⟨3, ![2000000, 4, 4]⟩ : Shape) v h (ix3 n a b) = v (ix2 n (⟨4 * a.val + b.val, by omega⟩ : Fin 16)) := by
  refine shapeCast_apply v h (ix3 n a b) (ix2 n (⟨4 * a.val + b.val, by omega⟩ : Fin 16)) ?_
  rw [Shape.rowMajor_val_two, Shape.rowMajor_val_three]
  show n.val * 16 + (4 * a.val + b.val) = (n.val * 4 + a.val) * 4 + b.val
  omega

/-- The matrices read flat. -/
theorem flatten_apply (c : (⟨3, ![2000000, 4, 4]⟩ : Shape).Idx → α)
    (h : (⟨3, ![2000000, 4, 4]⟩ : Shape).ShapeCasts ⟨2, ![2000000, 16]⟩) (n : Fin 2000000) (q : Fin 16) :
    shapeCast (⟨2, ![2000000, 16]⟩ : Shape) c h (ix2 n q) = c (ix3 n (⟨q.val / 4, by omega⟩ : Fin 4) (⟨q.val % 4, by omega⟩ : Fin 4)) := by
  refine shapeCast_apply c h (ix2 n q) (ix3 n (⟨q.val / 4, by omega⟩ : Fin 4) (⟨q.val % 4, by omega⟩ : Fin 4)) ?_
  rw [Shape.rowMajor_val_two, Shape.rowMajor_val_three]
  show (n.val * 4 + q.val / 4) * 4 + q.val % 4 = n.val * 16 + q.val
  omega

end Cert.Euler

end
-- ==== Proof.KernelValue.lean ====
/-
  The kernel program's run at the extended reals: the result array ends at the specification of the three arguments.
-/
import proofs.«132078_j45844480918144_1_alg».proof.Proof.Gen.KernelIdeal.Frame
import proofs.«132078_j45844480918144_1_alg».proof.Proof.Spec
import proofs.«132078_j45844480918144_1_alg».proof.Proof.KernelReshape
import Idealize.ShloMosaic.Lib.ValueIdx
import Idealize.ShloMosaic.Lib.Pipeline.Value
import Idealize.ShloMosaic.Lib.StableHlo.Run
import Idealize.ShloMosaic.Lib.IdealHost

noncomputable section

namespace Cert.KernelIdeal.KValue

open Cert.KernelIdeal Cert.KernelIdeal.Gen Idealize.ShloMosaic Idealize.ShloMosaic.TcCoe Idealize.SL.Sem Idealize.ShloMosaic.ValueIdx

/-! ## One output row

Row `n` of the flat [N,16] result as a function of that row's three angles, three translations, and the entry the
input pose holds at the same place: column `q = 4a + b` is entry `(a, b)` of the 4×4 matrix. -/

/-- Column `q` of a row: the nine rotation entries and three scaled translations in their places, the pose's own
    entry in the last four. -/
def rowVal (x y z t0 t1 t2 keep : EReal) : Fin 16 → EReal
  | ⟨0, _⟩ => Ideal.cos y * Ideal.cos z
  | ⟨1, _⟩ => (0 - Ideal.cos x) * Ideal.sin z - Ideal.sin x * Ideal.sin y * Ideal.cos z
  | ⟨2, _⟩ => Ideal.sin x * Ideal.sin z - Ideal.cos x * Ideal.sin y * Ideal.cos z
  | ⟨3, _⟩ => t0 * Ideal.ofBits .f32 0x45700000#32
  | ⟨4, _⟩ => Ideal.cos y * Ideal.sin z
  | ⟨5, _⟩ => Ideal.cos x * Ideal.cos z - Ideal.sin x * Ideal.sin y * Ideal.sin z
  | ⟨6, _⟩ => (0 - Ideal.sin x) * Ideal.cos z - Ideal.cos x * Ideal.sin y * Ideal.sin z
  | ⟨7, _⟩ => t1 * Ideal.ofBits .f32 0x45070000#32
  | ⟨8, _⟩ => 0 - Ideal.sin y
  | ⟨9, _⟩ => Ideal.sin x * Ideal.cos y
  | ⟨10, _⟩ => Ideal.cos x * Ideal.cos y
  | ⟨11, _⟩ => t2 * Ideal.ofBits .f32 0x3F800000#32
  | ⟨_ + 12, _⟩ => keep

/-! ## Layout operations of the body, read at an index -/

theorem hz2 : (![0, 0] : Fin 2 → Nat) = fun _ => 0 := funext fun a => by fin_cases a <;> rfl

/-- A vector of 2000 viewed as a column [2000,1] reads its row. -/
theorem column_cast {α : Type} (v : S2000.Idx → α) (h : S2000.ShapeCasts S2000x1) (p : Fin 2000) (z : Fin 1) :
    shapeCast S2000x1 v h (ix2 p z) = v (ix1 p) := by
  refine shapeCast_apply v h (ix2 p z) (ix1 p) ?_
  have e1 := Shape.rowMajor_val_one (d := ![2000]) (ix1 p)
  have e2 := Shape.rowMajor_val_two (d := ![2000, 1]) (ix2 p z)
  have hz := z.isLt
  rw [e1, e2]
  show p.val = p.val * 1 + z.val
  omega

/-- Column `k` of a [2000,3] block, sliced out and flattened, reads the block at `(p, k)`. -/
theorem slice_column {α : Type} (off : Fin 2 → Nat) (v : S2000x3.Idx → α) (hs : S2000x3.Slices off S2000x1)
    (hc : S2000x1.ShapeCasts S2000) (k : Fin 3) (h0 : off 0 = 0) (h1 : off 1 = k.val) (p : Fin 2000) :
    shapeCast S2000 (extractStridedSlice S2000x1 off v hs) hc (ix1 p) = v (ix2 p k) := by
  refine (shapeCast_apply _ hc (ix1 p) (ix2 p (0 : Fin 1)) ?_).trans ?_
  · have e1 := Shape.rowMajor_val_one (d := ![2000]) (ix1 p)
    have e2 := Shape.rowMajor_val_two (d := ![2000, 1]) (ix2 p (0 : Fin 1))
    rw [e1, e2]
    show p.val * 1 + 0 = p.val
    omega
  · refine extractStridedSlice_apply off v hs (ix2 p (0 : Fin 1)) (ix2 p k) fun a => ?_
    match a with
    | ⟨0, _⟩ => show p.val = off 0 + p.val; omega
    | ⟨1, _⟩ => show k.val = off 1 + 0; omega

/-! ## The body's payloads at a row

`x, y, z` are the three angles of row `p` of the first block, read through the column slices; each payload is the
extended reals' arithmetic on their sines and cosines. -/

section Payloads
variable (v0 v1 : Vec Ideal S2000x3 .f32) (p : Fin 2000)

theorem angle_x : k0_pay3 v0 (ix1 p) = v0 (ix2 p (0 : Fin 3)) := by
  unfold k0_pay3; exact slice_column _ v0 _ _ 0 rfl rfl p
theorem angle_y : k0_pay4 v0 (ix1 p) = v0 (ix2 p (1 : Fin 3)) := by
  unfold k0_pay4; exact slice_column _ v0 _ _ 1 rfl rfl p
theorem angle_z : k0_pay5 v0 (ix1 p) = v0 (ix2 p (2 : Fin 3)) := by
  unfold k0_pay5; exact slice_column _ v0 _ _ 2 rfl rfl p

theorem cos_x : k0_pay6 v0 (ix1 p) = Ideal.cos (v0 (ix2 p (0 : Fin 3))) := congrArg Ideal.cos (angle_x v0 p)
theorem sin_x : k0_pay7 v0 (ix1 p) = Ideal.sin (v0 (ix2 p (0 : Fin 3))) := congrArg Ideal.sin (angle_x v0 p)
theorem cos_y : k0_pay8 v0 (ix1 p) = Ideal.cos (v0 (ix2 p (1 : Fin 3))) := congrArg Ideal.cos (angle_y v0 p)
theorem sin_y : k0_pay9 v0 (ix1 p) = Ideal.sin (v0 (ix2 p (1 : Fin 3))) := congrArg Ideal.sin (angle_y v0 p)
theorem cos_z : k0_pay10 v0 (ix1 p) = Ideal.cos (v0 (ix2 p (2 : Fin 3))) := congrArg Ideal.cos (angle_z v0 p)
theorem sin_z : k0_pay11 v0 (ix1 p) = Ideal.sin (v0 (ix2 p (2 : Fin 3))) := congrArg Ideal.sin (angle_z v0 p)

theorem entry00 : k0_pay12 v0 (ix1 p) = Ideal.cos (v0 (ix2 p (1 : Fin 3))) * Ideal.cos (v0 (ix2 p (2 : Fin 3))) := by
  show k0_pay8 v0 (ix1 p) * k0_pay10 v0 (ix1 p) = _
  rw [cos_y, cos_z]

theorem entry01 : k0_pay13 v0 (ix1 p)
    = (0 - Ideal.cos (v0 (ix2 p (0 : Fin 3)))) * Ideal.sin (v0 (ix2 p (2 : Fin 3)))
      - Ideal.sin (v0 (ix2 p (0 : Fin 3))) * Ideal.sin (v0 (ix2 p (1 : Fin 3))) * Ideal.cos (v0 (ix2 p (2 : Fin 3))) := by
  show (Ideal.ofBits .f32 0x00000000#32 - k0_pay6 v0 (ix1 p)) * k0_pay11 v0 (ix1 p)
      - k0_pay7 v0 (ix1 p) * k0_pay9 v0 (ix1 p) * k0_pay10 v0 (ix1 p) = _
  rw [Ideal.ofBits_zero_f32, cos_x, sin_x, sin_y, cos_z, sin_z]

theorem entry02 : k0_pay14 v0 (ix1 p)
    = Ideal.sin (v0 (ix2 p (0 : Fin 3))) * Ideal.sin (v0 (ix2 p (2 : Fin 3)))
      - Ideal.cos (v0 (ix2 p (0 : Fin 3))) * Ideal.sin (v0 (ix2 p (1 : Fin 3))) * Ideal.cos (v0 (ix2 p (2 : Fin 3))) := by
  show k0_pay7 v0 (ix1 p) * k0_pay11 v0 (ix1 p) - k0_pay6 v0 (ix1 p) * k0_pay9 v0 (ix1 p) * k0_pay10 v0 (ix1 p) = _
  rw [cos_x, sin_x, sin_y, cos_z, sin_z]

theorem entry10 : k0_pay15 v0 (ix1 p) = Ideal.cos (v0 (ix2 p (1 : Fin 3))) * Ideal.sin (v0 (ix2 p (2 : Fin 3))) := by
  show k0_pay8 v0 (ix1 p) * k0_pay11 v0 (ix1 p) = _
  rw [cos_y, sin_z]

theorem entry11 : k0_pay16 v0 (ix1 p)
    = Ideal.cos (v0 (ix2 p (0 : Fin 3))) * Ideal.cos (v0 (ix2 p (2 : Fin 3)))
      - Ideal.sin (v0 (ix2 p (0 : Fin 3))) * Ideal.sin (v0 (ix2 p (1 : Fin 3))) * Ideal.sin (v0 (ix2 p (2 : Fin 3))) := by
  show k0_pay6 v0 (ix1 p) * k0_pay10 v0 (ix1 p) - k0_pay7 v0 (ix1 p) * k0_pay9 v0 (ix1 p) * k0_pay11 v0 (ix1 p) = _
  rw [cos_x, sin_x, sin_y, cos_z, sin_z]

theorem entry12 : k0_pay17 v0 (ix1 p)
    = (0 - Ideal.sin (v0 (ix2 p (0 : Fin 3)))) * Ideal.cos (v0 (ix2 p (2 : Fin 3)))
      - Ideal.cos (v0 (ix2 p (0 : Fin 3))) * Ideal.sin (v0 (ix2 p (1 : Fin 3))) * Ideal.sin (v0 (ix2 p (2 : Fin 3))) := by
  show (Ideal.ofBits .f32 0x00000000#32 - k0_pay7 v0 (ix1 p)) * k0_pay10 v0 (ix1 p)
      - k0_pay6 v0 (ix1 p) * k0_pay9 v0 (ix1 p) * k0_pay11 v0 (ix1 p) = _
  rw [Ideal.ofBits_zero_f32, cos_x, sin_x, sin_y, cos_z, sin_z]

theorem entry20 : k0_pay18 v0 (ix1 p) = 0 - Ideal.sin (v0 (ix2 p (1 : Fin 3))) := by
  show Ideal.ofBits .f32 0x00000000#32 - k0_pay9 v0 (ix1 p) = _
  rw [Ideal.ofBits_zero_f32, sin_y]

theorem entry21 : k0_pay19 v0 (ix1 p) = Ideal.sin (v0 (ix2 p (0 : Fin 3))) * Ideal.cos (v0 (ix2 p (1 : Fin 3))) := by
  show k0_pay7 v0 (ix1 p) * k0_pay8 v0 (ix1 p) = _
  rw [sin_x, cos_y]

theorem entry22 : k0_pay20 v0 (ix1 p) = Ideal.cos (v0 (ix2 p (0 : Fin 3))) * Ideal.cos (v0 (ix2 p (1 : Fin 3))) := by
  show k0_pay6 v0 (ix1 p) * k0_pay8 v0 (ix1 p) = _
  rw [cos_x, cos_y]

/-- The first translation, scaled. -/
theorem shift0 : k0_pay21 v1 (ix1 p) = v1 (ix2 p (0 : Fin 3)) * Ideal.ofBits .f32 0x45700000#32 := by
  unfold k0_pay21
  exact congrArg (· * Ideal.ofBits .f32 0x45700000#32) (slice_column _ v1 _ _ 0 rfl rfl p)

/-- The second translation, not yet scaled. -/
theorem shift1 : k0_pay22 v1 (ix1 p) = v1 (ix2 p (1 : Fin 3)) := by
  unfold k0_pay22; exact slice_column _ v1 _ _ 1 rfl rfl p

end Payloads

/-! ## The stored block at an index

The body stores ONE value, the concatenation along the columns of thirteen pieces: twelve single columns and the last
four columns of the pose block. -/

/-- A concatenation along the columns of a [2000,16] block reads, at column `q`, the piece that holds that column (piece
    `k`, of width `w`, after `pre` earlier columns), at that piece's own column `q'`. -/
theorem concat_column {α : Type} (xs : List ((s : Shape) × (s.Idx → α))) (h : Shape.Concatenates (xs.map (·.1)) S2000x16 1)
    (p : Fin 2000) (q : Fin 16) (k : Nat) (hk : k < xs.length) (w : Nat) (x₁ : (⟨2, ![2000, w]⟩ : Shape).Idx → α)
    (hxk : xs[k] = ⟨⟨2, ![2000, w]⟩, x₁⟩) (pre : Nat)
    (hpre : (((xs.take k).map (·.1)).map fun s => if h : s.rank = S2000x16.rank then s.size ((1 : Fin S2000x16.rank).cast h.symm) else 0).sum = pre)
    (q' : Fin w) (hq : pre + q'.val = q.val) :
    concatenate S2000x16 1 xs h (ix2 p q) = x₁ (ix2 p q') := by
  refine concatenate_apply_piece 1 xs h (ix2 p q) k hk _ x₁ hxk rfl pre hpre (ix2 p q') (fun b hb => ?_) hq
  match b with
  | ⟨0, _⟩ => rfl
  | ⟨1, _⟩ => exact absurd rfl hb

/-- WHAT THE BODY LEAVES in the output block, entry by entry: row `p`, column `q` is `rowVal` of row `p` of the
    three input blocks. -/
theorem stored_row (x0 x1 : Vec Ideal S2000x3 .f32) (x2 : Vec Ideal S2000x16 .f32) (p : Fin 2000) (q : Fin 16) :
    out0_3 x0 x1 x2 (ix2 p q)
      = rowVal (x0 (ix2 p (0 : Fin 3))) (x0 (ix2 p (1 : Fin 3))) (x0 (ix2 p (2 : Fin 3)))
          (x1 (ix2 p (0 : Fin 3))) (x1 (ix2 p (1 : Fin 3))) (x1 (ix2 p (2 : Fin 3))) (x2 (ix2 p q)) q := by
  unfold out0_3
  rw [View.canon_unit_zero hz2]
  simp only [View.ld_unit_zero (S := S2000x3) hz2, View.ld_unit_zero (S := S2000x16) hz2]
  unfold k0_pay1
  match q with
  | ⟨0, _⟩ =>
    refine (concat_column _ _ p _ 0 (by exact (by decide : 0 < 13)) 1 _ rfl 0 rfl 0 rfl).trans ?_
    exact (column_cast _ _ p 0).trans (entry00 x0 p)
  | ⟨1, _⟩ =>
    refine (concat_column _ _ p _ 1 (by exact (by decide : 1 < 13)) 1 _ rfl 1 rfl 0 rfl).trans ?_
    exact (column_cast _ _ p 0).trans (entry01 x0 p)
  | ⟨2, _⟩ =>
    refine (concat_column _ _ p _ 2 (by exact (by decide : 2 < 13)) 1 _ rfl 2 rfl 0 rfl).trans ?_
    exact (column_cast _ _ p 0).trans (entry02 x0 p)
  | ⟨3, _⟩ =>
    refine (concat_column _ _ p _ 3 (by exact (by decide : 3 < 13)) 1 _ rfl 3 rfl 0 rfl).trans ?_
    exact (column_cast _ _ p 0).trans (shift0 x1 p)
  | ⟨4, _⟩ =>
    refine (concat_column _ _ p _ 4 (by exact (by decide : 4 < 13)) 1 _ rfl 4 rfl 0 rfl).trans ?_
    exact (column_cast _ _ p 0).trans (entry10 x0 p)
  | ⟨5, _⟩ =>
    refine (concat_column _ _ p _ 5 (by exact (by decide : 5 < 13)) 1 _ rfl 5 rfl 0 rfl).trans ?_
    exact (column_cast _ _ p 0).trans (entry11 x0 p)
  | ⟨6, _⟩ =>
    refine (concat_column _ _ p _ 6 (by exact (by decide : 6 < 13)) 1 _ rfl 6 rfl 0 rfl).trans ?_
    exact (column_cast _ _ p 0).trans (entry12 x0 p)
  | ⟨7, _⟩ =>
    refine (concat_column _ _ p _ 7 (by exact (by decide : 7 < 13)) 1 _ rfl 7 rfl 0 rfl).trans ?_
    exact (column_cast _ _ p 0).trans (congrArg (· * Ideal.ofBits .f32 0x45070000#32) (shift1 x1 p))
  | ⟨8, _⟩ =>
    refine (concat_column _ _ p _ 8 (by exact (by decide : 8 < 13)) 1 _ rfl 8 rfl 0 rfl).trans ?_
    exact (column_cast _ _ p 0).trans (entry20 x0 p)
  | ⟨9, _⟩ =>
    refine (concat_column _ _ p _ 9 (by exact (by decide : 9 < 13)) 1 _ rfl 9 rfl 0 rfl).trans ?_
    exact (column_cast _ _ p 0).trans (entry21 x0 p)
  | ⟨10, _⟩ =>
    refine (concat_column _ _ p _ 10 (by exact (by decide : 10 < 13)) 1 _ rfl 10 rfl 0 rfl).trans ?_
    exact (column_cast _ _ p 0).trans (entry22 x0 p)
  | ⟨11, _⟩ =>
    refine (concat_column _ _ p _ 11 (by exact (by decide : 11 < 13)) 1 _ rfl 11 rfl 0 rfl).trans ?_
    exact (column_cast _ _ p 0).trans
      (congrArg (· * Ideal.ofBits .f32 0x3F800000#32) (slice_column _ x1 _ _ 2 rfl rfl p))
  | ⟨r + 12, hr⟩ =>
    have hr4 : r < 4 := by omega
    refine (concat_column _ _ p _ 12 (by exact (by decide : 12 < 13)) 4 _ rfl 12 rfl ⟨r, hr4⟩ (Nat.add_comm 12 r)).trans ?_
    refine (extractStridedSlice_apply _ _ _ (ix2 p (⟨r, hr4⟩ : Fin 4)) (ix2 p (⟨r + 12, hr⟩ : Fin 16)) fun a => ?_).trans ?_
    · match a with
      | ⟨0, _⟩ => show p.val = 0 + p.val; omega
      | ⟨1, _⟩ => show r + 12 = 12 + r; omega
    · exact congrFun (shapeCast_self x2 _) _

/-! ## From blocks to the array

Every window's index map is `(i, 0)`: point `t` stages rows `2000 t … 2000 t + 1999` of each array, all columns. -/

/-- The flat [N,16] array the region writes: row `n`, column `q` is `rowVal` of row `n` of the angle array `R`,
    of the translation array `T`, and of the flat pose array `C16` at the same place. -/
def Gflat (R T : S2000000x3.Idx → EReal) (C16 : S2000000x16.Idx → EReal) : S2000000x16.Idx → EReal := fun i =>
  rowVal (R (ix2 (⟨(i 0).val, idx2_lt0 i⟩ : Fin 2000000) (0 : Fin 3))) (R (ix2 (⟨(i 0).val, idx2_lt0 i⟩ : Fin 2000000) (1 : Fin 3)))
    (R (ix2 (⟨(i 0).val, idx2_lt0 i⟩ : Fin 2000000) (2 : Fin 3)))
    (T (ix2 (⟨(i 0).val, idx2_lt0 i⟩ : Fin 2000000) (0 : Fin 3))) (T (ix2 (⟨(i 0).val, idx2_lt0 i⟩ : Fin 2000000) (1 : Fin 3)))
    (T (ix2 (⟨(i 0).val, idx2_lt0 i⟩ : Fin 2000000) (2 : Fin 3)))
    (C16 i) ⟨(i 1).val, idx2_lt1 i⟩

theorem Gflat_ix2 (R T : S2000000x3.Idx → EReal) (C16 : S2000000x16.Idx → EReal) (n : Fin 2000000) (q : Fin 16) :
    Gflat R T C16 (ix2 n q)
      = rowVal (R (ix2 n (0 : Fin 3))) (R (ix2 n (1 : Fin 3))) (R (ix2 n (2 : Fin 3)))
          (T (ix2 n (0 : Fin 3))) (T (ix2 n (1 : Fin 3))) (T (ix2 n (2 : Fin 3))) (C16 (ix2 n q)) q := rfl

theorem rowVal_congr {x y z t0 t1 t2 k x' y' z' t0' t1' t2' k' : EReal} (hx : x = x') (hy : y = y') (hz : z = z')
    (h0 : t0 = t0') (h1 : t1 = t1') (h2 : t2 = t2') (hk : k = k') (q : Fin 16) :
    rowVal x y z t0 t1 t2 k q = rowVal x' y' z' t0' t1' t2' k' q := by
  subst hx hy hz h0 h1 h2 hk; rfl

/-- The printed index maps, decided over the grid: block `t` along the rows, block `0` along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Blocks
variable (m : (ℓ : Loc nD τ sig) → Buf (Elt Ideal) ℓ)

/-- Row `p` of the angle block at point `t` is row `2000 t + p` of the angle array. -/
theorem block0_apply (c : Dev nD) (t : Fin cfg0.N) (p : Fin 2000) (k : Fin 3) (hn : 2000 * t.val + p.val < 2000000) :
    (iblk m c 0 t : Vec Ideal S2000x3 .f32) (ix2 p k)
      = (V m c main_arg0 : S2000000x3.Idx → EReal) (ix2 (⟨2000 * t.val + p.val, hn⟩ : Fin 2000000) k) := by
  obtain ⟨e0, e1, -⟩ := idx_facts t
  show V m c main_arg0 (((cfg0.win 0).blk t).view.emb (ix2 p k)) = V m c main_arg0 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 3 + 1 * k.val = k.val; rw [e1]; omega

/-- The same for the translation block. -/
theorem block1_apply (c : Dev nD) (t : Fin cfg0.N) (p : Fin 2000) (k : Fin 3) (hn : 2000 * t.val + p.val < 2000000) :
    (iblk m c 1 t : Vec Ideal S2000x3 .f32) (ix2 p k)
      = (V m c main_arg1 : S2000000x3.Idx → EReal) (ix2 (⟨2000 * t.val + p.val, hn⟩ : Fin 2000000) k) := by
  obtain ⟨-, -, e0, e1, -⟩ := idx_facts t
  show V m c main_arg1 (((cfg0.win 1).blk t).view.emb (ix2 p k)) = V m c main_arg1 _
  congr 1
  funext a
  apply Fin.ext
  match a with
  | ⟨0, _⟩ => show win0_1.index t (0 : Fin 2) * 2000 + 1 * p.val = 2000 * t.val + p.val; rw [e0]; omega
  | ⟨1, _⟩ => show win0_1.index t (1 : Fin 2) * 3 + 1 * k.val = k.val; rw [e1]; omega

/-- The same for the flat pose block. -/
theorem block2_apply (c : Dev nD) (t : Fin cfg0.N) (p : Fin 2000) (q : Fin 16) (hn : 2000 * t.val + p.val < 2000000) :
    (iblk m c 2 t : Vec Ideal S2000x16 .f32) (ix2 p q)
      = (V m c main_v0 : S2000000x16.Idx → EReal) (ix2 (⟨2000 * t.val + p.val, hn⟩ : Fin 2000000) q) := by
  obtain ⟨-, -, -, -, e0, e1, -⟩ := idx_facts t
  show V m c main_v0 (((cfg0.win 2).blk t).view.emb (ix2 p q)) = V m c main_v0 _
  congr 1
  funext a
  apply Fin.ext
  match a with
  | ⟨0, _⟩ => show win0_2.index t (0 : Fin 2) * 2000 + 1 * p.val = 2000 * t.val + p.val; rw [e0]; omega
  | ⟨1, _⟩ => show win0_2.index t (1 : Fin 2) * 16 + 1 * q.val = q.val; rw [e1]; omega

/-- WHAT POINT `t` WRITES BACK is block `t` of `Gflat` of the arrays as the region finds them. -/
theorem flushed_eq (c : Dev nD) (t : Fin cfg0.N) :
    (dats m 0 c).flushed 3 t
      = ((cfg0.win 3).blk t).view.read (Elt Ideal) (Gflat (V m c main_arg0) (V m c main_arg1) (V m c main_v0)) := by
  show (cfg0.win 3).cut (grid0.coords t) ((dats m 0 c).after 3 t) = _
  rw [after0_3]
  obtain ⟨-, -, -, -, -, -, e0, e1⟩ := idx_facts t
  have hN : t.val < 1000 := Nat.lt_of_lt_of_eq t.isLt (show cfg0.N = 1000 from N_0)
  funext j
  obtain ⟨p, q, rfl⟩ : ∃ (p : Fin 2000) (q : Fin 16), j = ix2 p q := ⟨j 0, j 1, eq_ix2 j⟩
  have hp := p.isLt
  have hn : 2000 * t.val + p.val < 2000000 := by omega
  have hemb : ((cfg0.win 3).blk t).view.emb (ix2 p q) = ix2 (⟨2000 * t.val + p.val, hn⟩ : Fin 2000000) q := by
    funext a
    apply Fin.ext
    match a with
    | ⟨0, _⟩ => show win0_3.index t (0 : Fin 2) * 2000 + 1 * p.val = 2000 * t.val + p.val; rw [e0]; omega
    | ⟨1, _⟩ => show win0_3.index t (1 : Fin 2) * 16 + 1 * q.val = q.val; rw [e1]; omega
  show out0_3 (iblk m c 0 t) (iblk m c 1 t) (iblk m c 2 t) (ix2 p q)
    = Gflat (V m c main_arg0) (V m c main_arg1) (V m c main_v0) (((cfg0.win 3).blk t).view.emb (ix2 p q))
  rw [hemb, Gflat_ix2]
  refine (stored_row (iblk m c 0 t) (iblk m c 1 t) (iblk m c 2 t) p q).trans ?_
  exact rowVal_congr (block0_apply m c t p 0 hn) (block0_apply m c t p 1 hn) (block0_apply m c t p 2 hn)
    (block1_apply m c t p 0 hn) (block1_apply m c t p 1 hn) (block1_apply m c t p 2 hn) (block2_apply m c t p q hn) q

/-- An index of the array is in point `t`'s block iff each coordinate is in the block's range on its axis. -/
theorem mem_blk (t : Fin cfg0.N) (i : S2000000x16.Idx) :
    i ∈ ((cfg0.win 3).blk t).view.set
      ↔ ∀ a : Fin 2, win0_3.index t a * S2000x16.size a ≤ (i a).val ∧ (i a).val < win0_3.index t a * S2000x16.size a + S2000x16.size a := by
  show i ∈ ((View.whole main_v1).slice (win0_3.rect t)).set ↔ _
  rw [View.set_slice_whole, Rect.mem_set_unit]
  exact Iff.rfl

/-- Every row is in the block of the point that is its number divided by the block's 2000 rows. -/
theorem covered (i : S2000000x16.Idx) :
    ∃ t : Fin cfg0.N, (cfg0.win 3).flush t = true ∧ i ∈ ((cfg0.win 3).blk t).view.set := by
  have hi0 : (i 0).val < 2000000 := (i 0).isLt
  have hi1 : (i 1).val < 16 := (i 1).isLt
  have hN : cfg0.N = 1000 := N_0
  obtain ⟨t, ht⟩ : ∃ t : Fin cfg0.N, t.val = (i 0).val / 2000 := ⟨⟨(i 0).val / 2000, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 16 ≤ (i 1).val ∧ (i 1).val < win0_3.index t (1 : Fin 2) * 16 + 16
    rw [e1]; omega

/-- THE RESULT ARRAY of the region after the run. -/
theorem final (c : Dev nD) :
    (dats m 0 c).arrAt 3 cfg0.N = Gflat (V m c main_arg0) (V m c main_arg1) (V m c main_v0) :=
  (dats m 0 c).arrAt_eq_of_cover 3 (Gflat (V m c main_arg0) (V m c main_arg1) (V m c main_v0))
    (fun t _ => flushed_eq m c t) covered

end Blocks

/-! ## The host reshapes around the region, and the run -/

/-- Entry `(a, b)` of the matrix at row `n`, from the flat row: `rowVal` at column `4a + b` is the specification's entry,
    given that the flat pose array holds the pose's entry `(a, b)` there. -/
theorem row_entry (R T : S2000000x3.Idx → EReal) (C : S2000000x4x4.Idx → EReal) (C16 : S2000000x16.Idx → EReal)
    (n : Fin 2000000) (hC : ∀ a b : Fin 4, C16 (ix2 n (⟨4 * a.val + b.val, by omega⟩ : Fin 16)) = C (ix3 n a b)) (a b : Fin 4) :
    rowVal (R (ix2 n (0 : Fin 3))) (R (ix2 n (1 : Fin 3))) (R (ix2 n (2 : Fin 3)))
        (T (ix2 n (0 : Fin 3))) (T (ix2 n (1 : Fin 3))) (T (ix2 n (2 : Fin 3)))
        (C16 (ix2 n (⟨4 * a.val + b.val, by omega⟩ : Fin 16))) (⟨4 * a.val + b.val, by omega⟩ : Fin 16)
      = Cert.Euler.Gat R T C n a b := by
  rw [hC a b]
  fin_cases a <;> fin_cases b <;> rfl

section Run
variable (m : (ℓ : Loc nD τ sig) → Buf (Elt Ideal) ℓ)

/-- The flat pose array the region reads is the argument's matrices flattened (the host reshape before the region). -/
theorem V_main_v0 (c : Dev nD) :
    (V m c main_v0 : S2000000x16.Idx → EReal)
      = shapeCast S2000000x16 (m ((c : Thread nD τ).loc main_arg2) : S2000000x4x4.Idx → EReal)
          shapeCasts_S2000000x4x4_S2000000x16 := by
  show StableHlo.after hostOps0 (fun b => m (c, b)) (Proc.devRef .tc main_v0) = _
  after_results
  rfl

/-- The result buffer after the host reshape that follows the region: the region's flat result viewed as matrices. -/
theorem tail_result (c : Dev nD) :
    (Pipeline.afterTail₀ cfgs (dats m) 0 (V0 m) [hostOps1] c main_v2 : S2000000x4x4.Idx → EReal)
      = shapeCast S2000000x4x4 (Gflat (V m c main_arg0) (V m c main_arg1) (V m c main_v0))
          shapeCasts_S2000000x16_S2000000x4x4 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = Gflat (V m c main_arg0) (V m c main_arg1) (V m c main_v0) :=
    (Pipeline.withArrays_arr spec0 launch0.win.arr_inj c _ _ 3).trans (final m c)
  rw [e]
  rfl

/-- The region's flat result viewed as matrices is the specification of the three arguments. -/
theorem result_eq (c : Dev nD) :
    shapeCast S2000000x4x4 (Gflat (V m c main_arg0) (V m c main_arg1) (V m c main_v0)) shapeCasts_S2000000x16_S2000000x4x4
      = Cert.Euler.G (m ((c.tc : Thread nD τ).loc main_arg0)) (m ((c.tc : Thread nD τ).loc main_arg1))
          (m ((c.tc : Thread nD τ).loc main_arg2)) := by
  funext i
  obtain ⟨n, a, b, rfl⟩ : ∃ (n : Fin 2000000) (a b : Fin 4), i = ix3 n a b := ⟨i 0, i 1, i 2, eq_ix3 i⟩
  rw [Cert.Euler.G_ix3, Cert.Euler.unflatten_apply, Gflat_ix2, V_main_arg0, V_main_arg1, V_main_v0]
  refine row_entry _ _ _ _ n (fun a b => ?_) a b
  refine shapeCast_apply _ _ (ix2 n (⟨4 * a.val + b.val, by omega⟩ : Fin 16)) (ix3 n a b) ?_
  have e2 := Shape.rowMajor_val_two (d := ![2000000, 16]) (ix2 n (⟨4 * a.val + b.val, by omega⟩ : Fin 16))
  have e3 := Shape.rowMajor_val_three (d := ![2000000, 4, 4]) (ix3 n a b)
  rw [e2, e3]
  show (n.val * 4 + a.val) * 4 + b.val = n.val * 16 + (4 * a.val + b.val)
  omega

end Run

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.Euler.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun r h c =>
    ⟨((h c).2 main_v2 (Pipeline.mem_restRefs_of main_v2 (by decide) (by decide))).trans
        ((tail_result m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefStages.lean ====
/-
  The reference program's intermediate arrays as named functions of its three arguments, in the order it computes
  them: the three angle columns, the three elementary rotations `Rx`, `Ry`, `Rz` (each nine columns laid side by
  side and folded to 3×3), their product `R = (Rx·Ry)·Rz` by two batched contractions, the nine entries of `R`
  re-signed and transposed into `M`, the scaled translation, and the two writes into the pose array: `M` into
  the upper-left 3×3 block, the translation into the upper-right column.
-/
import proofs.«132078_j45844480918144_1_alg».proof.Proof.Gen.ReferenceIdeal

noncomputable section

namespace Cert.ReferenceIdeal.Stages

open Cert.ReferenceIdeal Cert.ReferenceIdeal.Gen Idealize.ShloMosaic Idealize.SL.Sem

variable {F : FTy → Type} [FloatOps F]

/-- One number per camera. -/
abbrev CN (F : FTy → Type) : Type := (⟨S2000000, .f32⟩ : BufTy).Contents (Elt F)
abbrev CN1 (F : FTy → Type) : Type := (⟨S2000000x1, .f32⟩ : BufTy).Contents (Elt F)
abbrev CN3 (F : FTy → Type) : Type := (⟨S2000000x3, .f32⟩ : BufTy).Contents (Elt F)
abbrev CN33 (F : FTy → Type) : Type := (⟨S2000000x3x3, .f32⟩ : BufTy).Contents (Elt F)
abbrev CN44 (F : FTy → Type) : Type := (⟨S2000000x4x4, .f32⟩ : BufTy).Contents (Elt F)

/-- The three angle columns of `r`. -/
def ang0 (r : CN3 F) : CN F :=
  shapeCast S2000000 (extractStridedSlice S2000000x1 ![0, 0] r slices_S2000000x3_S2000000x1_0_0) shapeCasts_S2000000x1_S2000000
def ang1 (r : CN3 F) : CN F :=
  shapeCast S2000000 (extractStridedSlice S2000000x1 ![0, 1] r slices_S2000000x3_S2000000x1_0_1) shapeCasts_S2000000x1_S2000000
def ang2 (r : CN3 F) : CN F :=
  shapeCast S2000000 (extractStridedSlice S2000000x1 ![0, 2] r slices_S2000000x3_S2000000x1_0_2) shapeCasts_S2000000x1_S2000000

/-- The constant columns one and zero. -/
def ones : CN F := broadcastInDim S2000000 ![] bcast_S_S2000000 (constant S_ .f32 0x3F800000#32)
def zeros : CN F := broadcastInDim S2000000 ![] bcast_S_S2000000 (constant S_ .f32 0x00000000#32)

/-- A per-camera number as a column. -/
def col (x : CN F) : CN1 F := broadcastInDim S2000000x1 ![0] bcast_S2000000_S2000000x1_0 x

/-- Nine per-camera numbers as a 3×3 matrix per camera, row-major. -/
def mat9 (a0 a1 a2 a3 a4 a5 a6 a7 a8 : CN F) : CN33 F :=
  shapeCast S2000000x3x3
    (concatenate S2000000x9 1 [⟨S2000000x1, col a0⟩, ⟨S2000000x1, col a1⟩, ⟨S2000000x1, col a2⟩, ⟨S2000000x1, col a3⟩, ⟨S2000000x1, col a4⟩, ⟨S2000000x1, col a5⟩, ⟨S2000000x1, col a6⟩, ⟨S2000000x1, col a7⟩, ⟨S2000000x1, col a8⟩] concatenates_S2000000x1_S2000000x1_S2000000x1_S2000000x1_S2000000x1_S2000000x1_S2000000x1_S2000000x1_S2000000x1_S2000000x9_d1)
    shapeCasts_S2000000x9_S2000000x3x3

/-- The elementary rotations about the three axes. -/
def Rx (r : CN3 F) : CN33 F :=
  mat9 ones zeros zeros zeros (Host.cos (ang0 r)) (Host.negf (Host.sin (ang0 r))) zeros (Host.sin (ang0 r)) (Host.cos (ang0 r))
def Ry (r : CN3 F) : CN33 F :=
  mat9 (Host.cos (ang1 r)) zeros (Host.sin (ang1 r)) zeros ones zeros (Host.negf (Host.sin (ang1 r))) zeros (Host.cos (ang1 r))
def Rz (r : CN3 F) : CN33 F :=
  mat9 (Host.cos (ang2 r)) (Host.negf (Host.sin (ang2 r))) zeros (Host.sin (ang2 r)) (Host.cos (ang2 r)) zeros zeros zeros ones

/-- The first contraction: entry `[n, k, i]` is `∑ j, Ry[n, j, k] · Rx[n, i, j]`, the transpose of `Rx·Ry`. -/
def RyRx (r : CN3 F) : CN33 F :=
  Host.dotGeneral dot_S2000000x3x3_S2000000x3x3_S2000000x3x3_1_2_2_1_0_0 none (Ry r) (Rx r)
/-- The second contraction: entry `[n, i, l]` is `∑ k, RyRx[n, k, i] · Rz[n, k, l]`, that is `(Rx·Ry·Rz)[i, l]`. -/
def R (r : CN3 F) : CN33 F :=
  Host.dotGeneral dot_S2000000x3x3_S2000000x3x3_S2000000x3x3_1_1_2_2_0_0 none (RyRx r) (Rz r)

/-- One entry of a 3×3 matrix per camera, as a per-camera number. -/
def ent (off : Fin 3 → Nat) (X : CN33 F) (h : S2000000x3x3.Slices off S2000000x1x1) : CN F :=
  shapeCast S2000000 (extractStridedSlice S2000000x1x1 off X h) shapeCasts_S2000000x1x1_S2000000

/-- Three per-camera numbers as a row of three. -/
def row3 (a b c : CN F) : CN3 F :=
  concatenate S2000000x3 1 [⟨S2000000x1, col a⟩, ⟨S2000000x1, col b⟩, ⟨S2000000x1, col c⟩] concatenates_S2000000x1_S2000000x1_S2000000x1_S2000000x3_d1

/-- A row of three as a 1×3 slab per camera. -/
def slab (x : CN3 F) : (⟨S2000000x1x3, .f32⟩ : BufTy).Contents (Elt F) :=
  broadcastInDim S2000000x1x3 ![0, 2] bcast_S2000000x3_S2000000x1x3_0_2 x

/-- The fixed-up rotation: rows `(R00, -R10, R20)`, `(-R01, R11, -R21)`, `(-R02, -R12, R22)`. -/
def M (r : CN3 F) : CN33 F :=
  concatenate S2000000x3x3 1
    [⟨S2000000x1x3, slab (row3 (ent ![0, 0, 0] (R r) slices_S2000000x3x3_S2000000x1x1_0_0_0) (Host.negf (ent ![0, 1, 0] (R r) slices_S2000000x3x3_S2000000x1x1_0_1_0)) (ent ![0, 2, 0] (R r) slices_S2000000x3x3_S2000000x1x1_0_2_0))⟩,
     ⟨S2000000x1x3, slab (row3 (Host.negf (ent ![0, 0, 1] (R r) slices_S2000000x3x3_S2000000x1x1_0_0_1)) (ent ![0, 1, 1] (R r) slices_S2000000x3x3_S2000000x1x1_0_1_1) (Host.negf (ent ![0, 2, 1] (R r) slices_S2000000x3x3_S2000000x1x1_0_2_1)))⟩,
     ⟨S2000000x1x3, slab (row3 (Host.negf (ent ![0, 0, 2] (R r) slices_S2000000x3x3_S2000000x1x1_0_0_2)) (Host.negf (ent ![0, 1, 2] (R r) slices_S2000000x3x3_S2000000x1x1_0_1_2)) (ent ![0, 2, 2] (R r) slices_S2000000x3x3_S2000000x1x1_0_2_2))⟩]
    concatenates_S2000000x1x3_S2000000x1x3_S2000000x1x3_S2000000x3x3_d1

/-- The start indices of the two writes: `(0, 0)` and `(0, 3)` on the matrix axes. -/
def start00 : (⟨S2, .i32⟩ : BufTy).Contents (Elt F) :=
  concatenate S2 0 [⟨S1, broadcastInDim S1 ![] bcast_S_S1 (constantI S_ 32 0#32)⟩, ⟨S1, broadcastInDim S1 ![] bcast_S_S1 (constantI S_ 32 0#32)⟩] concatenates_S1_S1_S2_d0
def start03 : (⟨S2, .i32⟩ : BufTy).Contents (Elt F) :=
  concatenate S2 0 [⟨S1, broadcastInDim S1 ![] bcast_S_S1 (constantI S_ 32 0#32)⟩, ⟨S1, broadcastInDim S1 ![] bcast_S_S1 (constantI S_ 32 3#32)⟩] concatenates_S1_S1_S2_d0

/-- The scale `(3840, 2160, 1)` repeated for every camera. -/
def scale : CN3 F :=
  broadcastInDim S2000000x3 ![0, 1] bcast_S1x3_S2000000x3_0_1
    (broadcastInDim S1x3 ![1] bcast_S3_S1x3_1 (fun i => FloatOps.ofBits .f32 (lit0 (S3.rowMajor i)) : (⟨S3, .f32⟩ : BufTy).Contents (Elt F)))

/-- The scaled translation. -/
def tn (t : CN3 F) : CN3 F := mulf t scale

/-- The pose array with the rotation block written. -/
def withM (r : CN3 F) (c : CN44 F) : CN44 F :=
  Host.scatter scatter_S2000000x4x4_S2_S2000000x3x3_012_n_12_0 (fun _ b => b) c (start00 (F := F)) (M r)

/-- The reference's result. -/
def refOut (r t : CN3 F) (c : CN44 F) : CN44 F :=
  Host.scatter scatter_S2000000x4x4_S2_S2000000x3_01_2_12_0 (fun _ b => b) (withM r c) (start03 (F := F)) (tn t)

end Cert.ReferenceIdeal.Stages

end
-- ==== Proof.RefRun.lean ====
/-
  The reference program's run: every weakly fair execution ends with the result array at the named function of the
  three arguments, and the arguments as they were.

  The program is a straight line of 115 operations. It is read here in 22 stretches, cut before every concatenate; each stretch's result
  buffers are computed over an ARBITRARY starting valuation, in terms of that valuation at the buffers the stretch
  reads, and a buffer a stretch does not write keeps its contents through it. The stretches are then chained.
-/
import proofs.«132078_j45844480918144_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/
/-- The three angle columns' cosines and sines, the constant columns one and zero, and the scale table. -/
def opsAng : List (HloOp τ sig (Elt F)) :=
  [ nullary main_cst (fun i => FloatOps.ofBits .f32 (lit0 (S3.rowMajor i))),
    unary main_arg0 main_v0 ((extractStridedSlice S2000000x1 ![0, 0] · slices_S2000000x3_S2000000x1_0_0) : (⟨S2000000x3, .f32⟩ : BufTy).Contents (Elt F) → (⟨S2000000x1, .f32⟩ : BufTy).Contents (Elt F)),
    reshape main_v0 main_v1 rfl shapeCasts_S2000000x1_S2000000,
    unary main_v1 main_v2 (Host.cos : (⟨S2000000, .f32⟩ : BufTy).Contents (Elt F) → (⟨S2000000, .f32⟩ : BufTy).Contents (Elt F)),
    unary main_arg0 main_v3 ((extractStridedSlice S2000000x1 ![0, 0] · slices_S2000000x3_S2000000x1_0_0) : (⟨S2000000x3, .f32⟩ : BufTy).Contents (Elt F) → (⟨S2000000x1, .f32⟩ : BufTy).Contents (Elt F)),
    reshape main_v3 main_v4 rfl shapeCasts_S2000000x1_S2000000,
    unary main_v4 main_v5 (Host.sin : (⟨S2000000, .f32⟩ : BufTy).Contents (Elt F) → (⟨S2000000, .f32⟩ : BufTy).Contents (Elt F)),
    unary main_arg0 main_v6 ((extractStridedSlice S2000000x1 ![0, 1] · slices_S2000000x3_S2000000x1_0_1) : (⟨S2000000x3, .f32⟩ : BufTy).Contents (Elt F) → (⟨S2000000x1, .f32⟩ : BufTy).Contents (Elt F)),
    reshape main_v6 main_v7 rfl shapeCasts_S2000000x1_S2000000,
    unary main_v7 main_v8 (Host.cos : (⟨S2000000, .f32⟩ : BufTy).Contents (Elt F) → (⟨S2000000, .f32⟩ : BufTy).Contents (Elt F)),
    unary main_arg0 main_v9 ((extractStridedSlice S2000000x1 ![0, 1] · slices_S2000000x3_S2000000x1_0_1) : (⟨S2000000x3, .f32⟩ : BufTy).Contents (Elt F) → (⟨S2000000x1, .f32⟩ : BufTy).Contents (Elt F)),
    reshape main_v9 main_v10 rfl shapeCasts_S2000000x1_S2000000,
    unary main_v10 main_v11 (Host.sin : (⟨S2000000, .f32⟩ : BufTy).Contents (Elt F) → (⟨S2000000, .f32⟩ : BufTy).Contents (Elt F)),
    unary main_arg0 main_v12 ((extractStridedSlice S2000000x1 ![0, 2] · slices_S2000000x3_S2000000x1_0_2) : (⟨S2000000x3, .f32⟩ : BufTy).Contents (Elt F) → (⟨S2000000x1, .f32⟩ : BufTy).Contents (Elt F)),
    reshape main_v12 main_v13 rfl shapeCasts_S2000000x1_S2000000,
    unary main_v13 main_v14 (Host.cos : (⟨S2000000, .f32⟩ : BufTy).Contents (Elt F) → (⟨S2000000, .f32⟩ : BufTy).Contents (Elt F)),
    unary main_arg0 main_v15 ((extractStridedSlice S2000000x1 ![0, 2] · slices_S2000000x3_S2000000x1_0_2) : (⟨S2000000x3, .f32⟩ : BufTy).Contents (Elt F) → (⟨S2000000x1, .f32⟩ : BufTy).Contents (Elt F)),
    reshape main_v15 main_v16 rfl shapeCasts_S2000000x1_S2000000,
    unary main_v16 main_v17 (Host.sin : (⟨S2000000, .f32⟩ : BufTy).Contents (Elt F) → (⟨S2000000, .f32⟩ : BufTy).Contents (Elt F)),
    nullary main_cst_0 (constant S_ .f32 0x3F800000#32),
    unary main_cst_0 main_v18 (broadcastInDim S2000000 ![] bcast_S_S2000000 : (⟨S_, .f32⟩ : BufTy).Contents (Elt F) → (⟨S2000000, .f32⟩ : BufTy).Contents (Elt F)),
    nullary main_cst_1 (constant S_ .f32 0x00000000#32),
    unary main_cst_1 main_v19 (broadcastInDim S2000000 ![] bcast_S_S2000000 : (⟨S_, .f32⟩ : BufTy).Contents (Elt F) → (⟨S2000000, .f32⟩ : BufTy).Contents (Elt F)) ]

/-- The nine columns of the rotation about the first axis. -/
def opsRxCols : List (HloOp τ sig (Elt F)) :=
  [ unary main_v5 main_v20 (Host.negf : (⟨S2000000, .f32⟩ : BufTy).Contents (Elt F) → (⟨S2000000, .f32⟩ : BufTy).Contents (Elt F)),
    unary main_v18 main_v21 (broadcastInDim S2000000x1 ![0] bcast_S2000000_S2000000x1_0 : (⟨S2000000, .f32⟩ : BufTy).Contents (Elt F) → (⟨S2000000x1, .f32⟩ : BufTy).Contents (Elt F)),
    unary main_v19 main_v22 (broadcastInDim S2000000x1 ![0] bcast_S2000000_S2000000x1_0 : (⟨S2000000, .f32⟩ : BufTy).Contents (Elt F) → (⟨S2000000x1, .f32⟩ : BufTy).Contents (Elt F)),
    unary main_v19 main_v23 (broadcastInDim S2000000x1 ![0] bcast_S2000000_S2000000x1_0 : (⟨S2000000, .f32⟩ : BufTy).Contents (Elt F) → (⟨S2000000x1, .f32⟩ : BufTy).Contents (Elt F)),
    unary main_v19 main_v24 (broadcastInDim S2000000x1 ![0] bcast_S2000000_S2000000x1_0 : (⟨S2000000, .f32⟩ : BufTy).Contents (Elt F) → (⟨S2000000x1, .f32⟩ : BufTy).Contents (Elt F)),
    unary main_v2 main_v25 (broadcastInDim S2000000x1 ![0] bcast_S2000000_S2000000x1_0 : (⟨S2000000, .f32⟩ : BufTy).Contents (Elt F) → (⟨S2000000x1, .f32⟩ : BufTy).Contents (Elt F)),
    unary main_v20 main_v26 (broadcastInDim S2000000x1 ![0] bcast_S2000000_S2000000x1_0 : (⟨S2000000, .f32⟩ : BufTy).Contents (Elt F) → (⟨S2000000x1, .f32⟩ : BufTy).Contents (Elt F)),
    unary main_v19 main_v27 (broadcastInDim S2000000x1 ![0] bcast_S2000000_S2000000x1_0 : (⟨S2000000, .f32⟩ : BufTy).Contents (Elt F) → (⟨S2000000x1, .f32⟩ : BufTy).Contents (Elt F)),
    unary main_v5 main_v28 (broadcastInDim S2000000x1 ![0] bcast_S2000000_S2000000x1_0 : (⟨S2000000, .f32⟩ : BufTy).Contents (Elt F) → (⟨S2000000x1, .f32⟩ : BufTy).Contents (Elt F)),
    unary main_v2 main_v29 (broadcastInDim S2000000x1 ![0] bcast_S2000000_S2000000x1_0 : (⟨S2000000, .f32⟩ : BufTy).Contents (Elt F) → (⟨S2000000x1, .f32⟩ : BufTy).Contents (Elt F)) ]

/-- Those columns laid side by side and folded to 3×3. -/
def opsRxFold : List (HloOp τ sig (Elt F)) :=
  [ nary ![main_v21, main_v22, main_v23, main_v24, main_v25, main_v26, main_v27, main_v28, main_v29] main_v30 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1),
    reshape main_v30 main_v31 rfl shapeCasts_S2000000x9_S2000000x3x3 ]

/-- The nine columns of the rotation about the second axis. -/
def opsRyCols : List (HloOp τ sig (Elt F)) :=
  [ unary main_v11 main_v32 (Host.negf : (⟨S2000000, .f32⟩ : BufTy).Contents (Elt F) → (⟨S2000000, .f32⟩ : BufTy).Contents (Elt F)),
    unary main_v8 main_v33 (broadcastInDim S2000000x1 ![0] bcast_S2000000_S2000000x1_0 : (⟨S2000000, .f32⟩ : BufTy).Contents (Elt F) → (⟨S2000000x1, .f32⟩ : BufTy).Contents (Elt F)),
    unary main_v19 main_v34 (broadcastInDim S2000000x1 ![0] bcast_S2000000_S2000000x1_0 : (⟨S2000000, .f32⟩ : BufTy).Contents (Elt F) → (⟨S2000000x1, .f32⟩ : BufTy).Contents (Elt F)),
    unary main_v11 main_v35 (broadcastInDim S2000000x1 ![0] bcast_S2000000_S2000000x1_0 : (⟨S2000000, .f32⟩ : BufTy).Contents (Elt F) → (⟨S2000000x1, .f32⟩ : BufTy).Contents (Elt F)),
    unary main_v19 main_v36 (broadcastInDim S2000000x1 ![0] bcast_S2000000_S2000000x1_0 : (⟨S2000000, .f32⟩ : BufTy).Contents (Elt F) → (⟨S2000000x1, .f32⟩ : BufTy).Contents (Elt F)),
    unary main_v18 main_v37 (broadcastInDim S2000000x1 ![0] bcast_S2000000_S2000000x1_0 : (⟨S2000000, .f32⟩ : BufTy).Contents (Elt F) → (⟨S2000000x1, .f32⟩ : BufTy).Contents (Elt F)),
    unary main_v19 main_v38 (broadcastInDim S2000000x1 ![0] bcast_S2000000_S2000000x1_0 : (⟨S2000000, .f32⟩ : BufTy).Contents (Elt F) → (⟨S2000000x1, .f32⟩ : BufTy).Contents (Elt F)),
    unary main_v32 main_v39 (broadcastInDim S2000000x1 ![0] bcast_S2000000_S2000000x1_0 : (⟨S2000000, .f32⟩ : BufTy).Contents (Elt F) → (⟨S2000000x1, .f32⟩ : BufTy).Contents (Elt F)),
    unary main_v19 main_v40 (broadcastInDim S2000000x1 ![0] bcast_S2000000_S2000000x1_0 : (⟨S2000000, .f32⟩ : BufTy).Contents (Elt F) → (⟨S2000000x1, .f32⟩ : BufTy).Contents (Elt F)),
    unary main_v8 main_v41 (broadcastInDim S2000000x1 ![0] bcast_S2000000_S2000000x1_0 : (⟨S2000000, .f32⟩ : BufTy).Contents (Elt F) → (⟨S2000000x1, .f32⟩ : BufTy).Contents (Elt F)) ]

/-- Those columns laid side by side and folded to 3×3. -/
def opsRyFold : List (HloOp τ sig (Elt F)) :=
  [ nary ![main_v33, main_v34, main_v35, main_v36, main_v37, main_v38, main_v39, main_v40, main_v41] main_v42 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1),
    reshape main_v42 main_v43 rfl shapeCasts_S2000000x9_S2000000x3x3 ]

/-- The nine columns of the rotation about the third axis. -/
def opsRzCols : List (HloOp τ sig (Elt F)) :=
  [ unary main_v17 main_v44 (Host.negf : (⟨S2000000, .f32⟩ : BufTy).Contents (Elt F) → (⟨S2000000, .f32⟩ : BufTy).Contents (Elt F)),
    unary main_v14 main_v45 (broadcastInDim S2000000x1 ![0] bcast_S2000000_S2000000x1_0 : (⟨S2000000, .f32⟩ : BufTy).Contents (Elt F) → (⟨S2000000x1, .f32⟩ : BufTy).Contents (Elt F)),
    unary main_v44 main_v46 (broadcastInDim S2000000x1 ![0] bcast_S2000000_S2000000x1_0 : (⟨S2000000, .f32⟩ : BufTy).Contents (Elt F) → (⟨S2000000x1, .f32⟩ : BufTy).Contents (Elt F)),
    unary main_v19 main_v47 (broadcastInDim S2000000x1 ![0] bcast_S2000000_S2000000x1_0 : (⟨S2000000, .f32⟩ : BufTy).Contents (Elt F) → (⟨S2000000x1, .f32⟩ : BufTy).Contents (Elt F)),
    unary main_v17 main_v48 (broadcastInDim S2000000x1 ![0] bcast_S2000000_S2000000x1_0 : (⟨S2000000, .f32⟩ : BufTy).Contents (Elt F) → (⟨S2000000x1, .f32⟩ : BufTy).Contents (Elt F)),
    unary main_v14 main_v49 (broadcastInDim S2000000x1 ![0] bcast_S2000000_S2000000x1_0 : (⟨S2000000, .f32⟩ : BufTy).Contents (Elt F) → (⟨S2000000x1, .f32⟩ : BufTy).Contents (Elt F)),
    unary main_v19 main_v50 (broadcastInDim S2000000x1 ![0] bcast_S2000000_S2000000x1_0 : (⟨S2000000, .f32⟩ : BufTy).Contents (Elt F) → (⟨S2000000x1, .f32⟩ : BufTy).Contents (Elt F)),
    unary main_v19 main_v51 (broadcastInDim S2000000x1 ![0] bcast_S2000000_S2000000x1_0 : (⟨S2000000, .f32⟩ : BufTy).Contents (Elt F) → (⟨S2000000x1, .f32⟩ : BufTy).Contents (Elt F)),
    unary main_v19 main_v52 (broadcastInDim S2000000x1 ![0] bcast_S2000000_S2000000x1_0 : (⟨S2000000, .f32⟩ : BufTy).Contents (Elt F) → (⟨S2000000x1, .f32⟩ : BufTy).Contents (Elt F)),
    unary main_v18 main_v53 (broadcastInDim S2000000x1 ![0] bcast_S2000000_S2000000x1_0 : (⟨S2000000, .f32⟩ : BufTy).Contents (Elt F) → (⟨S2000000x1, .f32⟩ : BufTy).Contents (Elt F)) ]

/-- Those columns laid side by side and folded to 3×3. -/
def opsRzFold : List (HloOp τ sig (Elt F)) :=
  [ nary ![main_v45, main_v46, main_v47, main_v48, main_v49, main_v50, main_v51, main_v52, main_v53] main_v54 (fun u => concatenate S2000000x9 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩, ⟨S2000000x1, u 7⟩, ⟨S2000000x1, u 8⟩] concatenates_S2000000x1_S2000000x1_S2000000x1_S2000000x1_S2000000x1_S2000000x1_S2000000x1_S2000000x1_S2000000x1_S2000000x9_d1),
    reshape main_v54 main_v55 rfl shapeCasts_S2000000x9_S2000000x3x3 ]

/-- The first contraction. -/
def opsRyRx : List (HloOp τ sig (Elt F)) :=
  [ binary main_v43 main_v31 main_v56 ((fun l r => Host.dotGeneral dot_S2000000x3x3_S2000000x3x3_S2000000x3x3_1_2_2_1_0_0 none l r) : (⟨S2000000x3x3, .f32⟩ : BufTy).Contents (Elt F) → (⟨S2000000x3x3, .f32⟩ : BufTy).Contents (Elt F) → (⟨S2000000x3x3, .f32⟩ : BufTy).Contents (Elt F)) ]

/-- The second contraction. -/
def opsR : List (HloOp τ sig (Elt F)) :=
  [ binary main_v56 main_v55 main_v57 ((fun l r => Host.dotGeneral dot_S2000000x3x3_S2000000x3x3_S2000000x3x3_1_1_2_2_0_0 none l r) : (⟨S2000000x3x3, .f32⟩ : BufTy).Contents (Elt F) → (⟨S2000000x3x3, .f32⟩ : BufTy).Contents (Elt F) → (⟨S2000000x3x3, .f32⟩ : BufTy).Contents (Elt F)) ]

/-- The three entries of the fixed-up rotation's first row, as columns. -/
def opsRow0Cols : List (HloOp τ sig (Elt F)) :=
  [ unary main_v57 main_v58 ((extractStridedSlice S2000000x1x1 ![0, 0, 0] · slices_S2000000x3x3_S2000000x1x1_0_0_0) : (⟨S2000000x3x3, .f32⟩ : BufTy).Contents (Elt F) → (⟨S2000000x1x1, .f32⟩ : BufTy).Contents (Elt F)),
    reshape main_v58 main_v59 rfl shapeCasts_S2000000x1x1_S2000000,
    unary main_v57 main_v60 ((extractStridedSlice S2000000x1x1 ![0, 1, 0] · slices_S2000000x3x3_S2000000x1x1_0_1_0) : (⟨S2000000x3x3, .f32⟩ : BufTy).Contents (Elt F) → (⟨S2000000x1x1, .f32⟩ : BufTy).Contents (Elt F)),
    reshape main_v60 main_v61 rfl shapeCasts_S2000000x1x1_S2000000,
    unary main_v61 main_v62 (Host.negf : (⟨S2000000, .f32⟩ : BufTy).Contents (Elt F) → (⟨S2000000, .f32⟩ : BufTy).Contents (Elt F)),
    unary main_v57 main_v63 ((extractStridedSlice S2000000x1x1 ![0, 2, 0] · slices_S2000000x3x3_S2000000x1x1_0_2_0) : (⟨S2000000x3x3, .f32⟩ : BufTy).Contents (Elt F) → (⟨S2000000x1x1, .f32⟩ : BufTy).Contents (Elt F)),
    reshape main_v63 main_v64 rfl shapeCasts_S2000000x1x1_S2000000,
    unary main_v59 main_v65 (broadcastInDim S2000000x1 ![0] bcast_S2000000_S2000000x1_0 : (⟨S2000000, .f32⟩ : BufTy).Contents (Elt F) → (⟨S2000000x1, .f32⟩ : BufTy).Contents (Elt F)),
    unary main_v62 main_v66 (broadcastInDim S2000000x1 ![0] bcast_S2000000_S2000000x1_0 : (⟨S2000000, .f32⟩ : BufTy).Contents (Elt F) → (⟨S2000000x1, .f32⟩ : BufTy).Contents (Elt F)),
    unary main_v64 main_v67 (broadcastInDim S2000000x1 ![0] bcast_S2000000_S2000000x1_0 : (⟨S2000000, .f32⟩ : BufTy).Contents (Elt F) → (⟨S2000000x1, .f32⟩ : BufTy).Contents (Elt F)) ]

/-- The first row. -/
def opsRow0 : List (HloOp τ sig (Elt F)) :=
  [ nary ![main_v65, main_v66, main_v67] main_v68 (fun u => concatenate S2000000x3 1 [⟨S2000000x1, u 0⟩, ⟨S2000000x1, u 1⟩, ⟨S2000000x1, u 2⟩] concatenates_S2000000x1_S2000000x1_S2000000x1_S2000000x3_d1) ]

/-- The three entries of its second row, as columns. -/
def opsRow1Cols : List (HloOp τ sig (Elt F)) :=
  [ unary main_v57 main_v69 ((extractStridedSlice S2000000x1x1 ![0, 0, 1] · slices_S2000000x3x3_S2000000x1x1_0_0_1) : (⟨S2000000x3x3, .f32⟩ : BufTy).Contents (Elt F) → (⟨S2000000x1x1, .f32⟩ : BufTy).Contents (Elt F)),
    reshape main_v69 main_v70 rfl shapeCasts_S2000000x1x1_S2000000,
    unary main_v70 main_v71 (Host.negf : (⟨S2000000, .f32⟩ : BufTy).Contents (Elt F) → (⟨S2000000, .f32⟩ : BufTy).Contents (Elt F)),
    unary main_v57 main_v72 ((extractStridedSlice S2000000x1x1 ![0, 1, 1] · slices_S2000000x3x3_S2000000x1x1_0_1_1) : (⟨S2000000x3x3, .f32⟩ : BufTy).Contents (Elt F) → (⟨S2000000x1x1, .f32⟩ : BufTy).Contents (Elt F)),
    reshape main_v72 main_v73 rfl shapeCasts_S2000000x1x1_S2000000,
    unary main_v57 main_v74 ((extractStridedSlice S2000000x1x1 ![0, 2, 1] · slices_S2000000x3x3_S2000000x1x1_0_2_1) : (⟨S2000000x3x3, .f32⟩ : BufTy).Contents (Elt F) → (⟨S2000000x1x1, .f32⟩ : BufTy).Contents (Elt F)),
    reshape main_v74 main_v75 rfl shapeCasts_S2000000x1x1_S2000000,
    unary main_v75 main_v76 (Host.negf : (⟨S2000000, .f32⟩ : BufTy).Contents (Elt F) → (⟨S2000000, .f32⟩ : BufTy).Contents (Elt F)),
    unary main_v71 main_v77 (broadcastInDim S2000000x1 ![0] bcast_S2000000_S2000000x1_0 : (⟨S2000000, .f32⟩ : BufTy).Contents (Elt F) → (⟨S2000000x1, .f32⟩ : BufTy).Contents (Elt F)),
    unary main_v73 main_v78 (broadcastInDim S2000000x1 ![0] bcast_S2000000_S2000000x1_0 : (⟨S2000000, .f32⟩ : BufTy).Contents (Elt F) → (⟨S2000000x1, .f32⟩ : BufTy).Contents (Elt F)),
    unary main_v76 main_v79 (broadcastInDim S2000000x1 ![0] bcast_S2000000_S2000000x1_0 : (⟨S2000000, .f32⟩ : BufTy).Contents (Elt F) → (⟨S2000000x1, .f32⟩ : BufTy).Contents (Elt F)) ]

/-- The second row. -/
def opsRow1 : List (HloOp τ sig (Elt F)) :=
  [ nary ![main_v77, main_v78, main_v79] main_v80 (fun u => concatenate S2000000x3 1 [⟨S2000000x1, u 0⟩, ⟨S2000000x1, u 1⟩, ⟨S2000000x1, u 2⟩] concatenates_S2000000x1_S2000000x1_S2000000x1_S2000000x3_d1) ]

/-- The three entries of its third row, as columns. -/
def opsRow2Cols : List (HloOp τ sig (Elt F)) :=
  [ unary main_v57 main_v81 ((extractStridedSlice S2000000x1x1 ![0, 0, 2] · slices_S2000000x3x3_S2000000x1x1_0_0_2) : (⟨S2000000x3x3, .f32⟩ : BufTy).Contents (Elt F) → (⟨S2000000x1x1, .f32⟩ : BufTy).Contents (Elt F)),
    reshape main_v81 main_v82 rfl shapeCasts_S2000000x1x1_S2000000,
    unary main_v82 main_v83 (Host.negf : (⟨S2000000, .f32⟩ : BufTy).Contents (Elt F) → (⟨S2000000, .f32⟩ : BufTy).Contents (Elt F)),
    unary main_v57 main_v84 ((extractStridedSlice S2000000x1x1 ![0, 1, 2] · slices_S2000000x3x3_S2000000x1x1_0_1_2) : (⟨S2000000x3x3, .f32⟩ : BufTy).Contents (Elt F) → (⟨S2000000x1x1, .f32⟩ : BufTy).Contents (Elt F)),
    reshape main_v84 main_v85 rfl shapeCasts_S2000000x1x1_S2000000,
    unary main_v85 main_v86 (Host.negf : (⟨S2000000, .f32⟩ : BufTy).Contents (Elt F) → (⟨S2000000, .f32⟩ : BufTy).Contents (Elt F)),
    unary main_v57 main_v87 ((extractStridedSlice S2000000x1x1 ![0, 2, 2] · slices_S2000000x3x3_S2000000x1x1_0_2_2) : (⟨S2000000x3x3, .f32⟩ : BufTy).Contents (Elt F) → (⟨S2000000x1x1, .f32⟩ : BufTy).Contents (Elt F)),
    reshape main_v87 main_v88 rfl shapeCasts_S2000000x1x1_S2000000,
    unary main_v83 main_v89 (broadcastInDim S2000000x1 ![0] bcast_S2000000_S2000000x1_0 : (⟨S2000000, .f32⟩ : BufTy).Contents (Elt F) → (⟨S2000000x1, .f32⟩ : BufTy).Contents (Elt F)),
    unary main_v86 main_v90 (broadcastInDim S2000000x1 ![0] bcast_S2000000_S2000000x1_0 : (⟨S2000000, .f32⟩ : BufTy).Contents (Elt F) → (⟨S2000000x1, .f32⟩ : BufTy).Contents (Elt F)),
    unary main_v88 main_v91 (broadcastInDim S2000000x1 ![0] bcast_S2000000_S2000000x1_0 : (⟨S2000000, .f32⟩ : BufTy).Contents (Elt F) → (⟨S2000000x1, .f32⟩ : BufTy).Contents (Elt F)) ]

/-- The third row. -/
def opsRow2 : List (HloOp τ sig (Elt F)) :=
  [ nary ![main_v89, main_v90, main_v91] main_v92 (fun u => concatenate S2000000x3 1 [⟨S2000000x1, u 0⟩, ⟨S2000000x1, u 1⟩, ⟨S2000000x1, u 2⟩] concatenates_S2000000x1_S2000000x1_S2000000x1_S2000000x3_d1) ]

/-- The three rows as slabs. -/
def opsSlabs : List (HloOp τ sig (Elt F)) :=
  [ unary main_v68 main_v93 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v80 main_v94 (broadcastInDim S2000000x1x3 ![0, 2] bcast_S2000000x3_S2000000x1x3_0_2 : (⟨S2000000x3, .f32⟩ : BufTy).Contents (Elt F) → (⟨S2000000x1x3, .f32⟩ : BufTy).Contents (Elt F)),
    unary main_v92 main_v95 (broadcastInDim S2000000x1x3 ![0, 2] bcast_S2000000x3_S2000000x1x3_0_2 : (⟨S2000000x3, .f32⟩ : BufTy).Contents (Elt F) → (⟨S2000000x1x3, .f32⟩ : BufTy).Contents (Elt F)) ]

/-- The slabs stacked. -/
def opsM : List (HloOp τ sig (Elt F)) :=
  [ nary ![main_v93, main_v94, main_v95] main_v96 (fun u => concatenate S2000000x3x3 1 [⟨S2000000x1x3, u 0⟩, ⟨S2000000x1x3, u 1⟩, ⟨S2000000x1x3, u 2⟩] concatenates_S2000000x1x3_S2000000x1x3_S2000000x1x3_S2000000x3x3_d1) ]

/-- The start indices of the first write. -/
def opsStart00 : List (HloOp τ sig (Elt F)) :=
  [ nullary main_c (constantI S_ 32 0#32),
    unary main_c main_v97 (broadcastInDim S1 ![] bcast_S_S1 : (⟨S_, .i32⟩ : BufTy).Contents (Elt F) → (⟨S1, .i32⟩ : BufTy).Contents (Elt F)),
    nullary main_c_2 (constantI S_ 32 0#32),
    unary main_c_2 main_v98 (broadcastInDim S1 ![] bcast_S_S1 : (⟨S_, .i32⟩ : BufTy).Contents (Elt F) → (⟨S1, .i32⟩ : BufTy).Contents (Elt F)),
    binary main_v97 main_v98 main_v99 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- The first write: the fixed-up rotation into the upper-left block. -/
def opsWithM : List (HloOp τ sig (Elt F)) :=
  [ ternary main_arg2 main_v99 main_v96 main_v100 ((fun x i u => Host.scatter scatter_S2000000x4x4_S2_S2000000x3x3_012_n_12_0 (fun _ b => b) x i u) : (⟨S2000000x4x4, .f32⟩ : BufTy).Contents (Elt F) → (⟨S2, .i32⟩ : BufTy).Contents (Elt F) → (⟨S2000000x3x3, .f32⟩ : BufTy).Contents (Elt F) → (⟨S2000000x4x4, .f32⟩ : BufTy).Contents (Elt F)) ]

/-- The scaled translation. -/
def opsTn : List (HloOp τ sig (Elt F)) :=
  [ unary main_cst main_v101 (broadcastInDim S1x3 ![1] bcast_S3_S1x3_1 : (⟨S3, .f32⟩ : BufTy).Contents (Elt F) → (⟨S1x3, .f32⟩ : BufTy).Contents (Elt F)),
    unary main_v101 main_v102 (broadcastInDim S2000000x3 ![0, 1] bcast_S1x3_S2000000x3_0_1 : (⟨S1x3, .f32⟩ : BufTy).Contents (Elt F) → (⟨S2000000x3, .f32⟩ : BufTy).Contents (Elt F)),
    binary main_arg1 main_v102 main_v103 (mulf : (⟨S2000000x3, .f32⟩ : BufTy).Contents (Elt F) → (⟨S2000000x3, .f32⟩ : BufTy).Contents (Elt F) → (⟨S2000000x3, .f32⟩ : BufTy).Contents (Elt F)) ]

/-- The start indices of the second write. -/
def opsStart03 : List (HloOp τ sig (Elt F)) :=
  [ nullary main_c_3 (constantI S_ 32 0#32),
    unary main_c_3 main_v104 (broadcastInDim S1 ![] bcast_S_S1 : (⟨S_, .i32⟩ : BufTy).Contents (Elt F) → (⟨S1, .i32⟩ : BufTy).Contents (Elt F)),
    nullary main_c_4 (constantI S_ 32 3#32),
    unary main_c_4 main_v105 (broadcastInDim S1 ![] bcast_S_S1 : (⟨S_, .i32⟩ : BufTy).Contents (Elt F) → (⟨S1, .i32⟩ : BufTy).Contents (Elt F)),
    binary main_v104 main_v105 main_v106 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- The second write: the scaled translation into the upper-right column. -/
def opsOut : List (HloOp τ sig (Elt F)) :=
  [ ternary main_v100 main_v106 main_v103 main_v107 ((fun x i u => Host.scatter scatter_S2000000x4x4_S2_S2000000x3_01_2_12_0 (fun _ b => b) x i u) : (⟨S2000000x4x4, .f32⟩ : BufTy).Contents (Elt F) → (⟨S2, .i32⟩ : BufTy).Contents (Elt F) → (⟨S2000000x3, .f32⟩ : BufTy).Contents (Elt F) → (⟨S2000000x4x4, .f32⟩ : BufTy).Contents (Elt F)) ]

/-! ## What the stretches touch -/

/-- A property of every operation of two lists holds of their concatenation. -/
theorem forall_app {P : HloOp τ sig (Elt F) → Prop} {l₁ l₂ : List (HloOp τ sig (Elt F))} (h₁ : l₁.Forall P) (h₂ : l₂.Forall P) :
    (l₁ ++ l₂).Forall P :=
  List.forall_iff_forall_mem.mpr fun op h =>
    (List.mem_append.mp h).elim (List.forall_iff_forall_mem.mp h₁ op) (List.forall_iff_forall_mem.mp h₂ op)

/-- The contents after two lists run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The buffers `opsAng` writes. -/
abbrev opsAng_W : List (Ref sig .tc) := [main_cst, main_v0, main_v1, main_v2, main_v3, main_v4, main_v5, main_v6, main_v7, main_v8, main_v9, main_v10, main_v11, main_v12, main_v13, main_v14, main_v15, main_v16, main_v17, main_cst_0, main_v18, main_cst_1, main_v19]
theorem opsAng_sub : (opsAng : List (HloOp τ sig (Elt F))).Forall fun op => op.bufs ⊆ tcRefs τ sig := by
  unfold opsAng; exact ⟨nullary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., nullary_bufs_sub .., unary_bufs_sub .., nullary_bufs_sub .., unary_bufs_sub ..⟩
theorem opsAng_fresh : (opsAng : List (HloOp τ sig (Elt F))).Forall fun op => op.fresh = ∅ := by
  unfold opsAng; exact ⟨rfl, rfl, rfl, rfl, rfl, rfl, rfl, rfl, rfl, rfl, rfl, rfl, rfl, rfl, rfl, rfl, rfl, rfl, rfl, rfl, rfl, rfl, rfl⟩
theorem opsAng_writes : (opsAng : List (HloOp τ sig (Elt F))).Forall fun op =>
    op.writes ⊆ (opsAng_W.map (Proc.devRef (τ := τ) .tc)).toFinset := by
  unfold opsAng; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsAng` does not write keeps its contents through it. -/
theorem opsAng_keep (W : Valuation τ sig (Elt F)) (r : Ref sig .tc) (h : r ∉ opsAng_W) :
    after opsAng W (no_index (Proc.devRef .tc r)) = W (Proc.devRef .tc r) :=
  after_of_writes_sub opsAng W opsAng_writes h

/-- The buffers `opsRxCols` writes. -/
abbrev opsRxCols_W : List (Ref sig .tc) := [main_v20, main_v21, main_v22, main_v23, main_v24, main_v25, main_v26, main_v27, main_v28, main_v29]
theorem opsRxCols_sub : (opsRxCols : List (HloOp τ sig (Elt F))).Forall fun op => op.bufs ⊆ tcRefs τ sig := by
  unfold opsRxCols; exact ⟨unary_bufs_sub .., unary_bufs_sub .., unary_bufs_sub .., unary_bufs_sub .., unary_bufs_sub .., unary_bufs_sub .., unary_bufs_sub .., unary_bufs_sub .., unary_bufs_sub .., unary_bufs_sub ..⟩
theorem opsRxCols_fresh : (opsRxCols : List (HloOp τ sig (Elt F))).Forall fun op => op.fresh = ∅ := by
  unfold opsRxCols; exact ⟨rfl, rfl, rfl, rfl, rfl, rfl, rfl, rfl, rfl, rfl⟩
theorem opsRxCols_writes : (opsRxCols : List (HloOp τ sig (Elt F))).Forall fun op =>
    op.writes ⊆ (opsRxCols_W.map (Proc.devRef (τ := τ) .tc)).toFinset := by
  unfold opsRxCols; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRxCols` does not write keeps its contents through it. -/
theorem opsRxCols_keep (W : Valuation τ sig (Elt F)) (r : Ref sig .tc) (h : r ∉ opsRxCols_W) :
    after opsRxCols W (no_index (Proc.devRef .tc r)) = W (Proc.devRef .tc r) :=
  after_of_writes_sub opsRxCols W opsRxCols_writes h

/-- The buffers `opsRxFold` writes. -/
abbrev opsRxFold_W : List (Ref sig .tc) := [main_v30, main_v31]
theorem opsRxFold_sub : (opsRxFold : List (HloOp τ sig (Elt F))).Forall fun op => op.bufs ⊆ tcRefs τ sig := by
  unfold opsRxFold; exact ⟨nary_bufs_sub .., reshape_bufs_sub ..⟩
theorem opsRxFold_fresh : (opsRxFold : List (HloOp τ sig (Elt F))).Forall fun op => op.fresh = ∅ := by
  unfold opsRxFold; exact ⟨rfl, rfl⟩
theorem opsRxFold_writes : (opsRxFold : List (HloOp τ sig (Elt F))).Forall fun op =>
    op.writes ⊆ (opsRxFold_W.map (Proc.devRef (τ := τ) .tc)).toFinset := by
  unfold opsRxFold; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRxFold` does not write keeps its contents through it. -/
theorem opsRxFold_keep (W : Valuation τ sig (Elt F)) (r : Ref sig .tc) (h : r ∉ opsRxFold_W) :
    after opsRxFold W (no_index (Proc.devRef .tc r)) = W (Proc.devRef .tc r) :=
  after_of_writes_sub opsRxFold W opsRxFold_writes h

/-- The buffers `opsRyCols` writes. -/
abbrev opsRyCols_W : List (Ref sig .tc) := [main_v32, main_v33, main_v34, main_v35, main_v36, main_v37, main_v38, main_v39, main_v40, main_v41]
theorem opsRyCols_sub : (opsRyCols : List (HloOp τ sig (Elt F))).Forall fun op => op.bufs ⊆ tcRefs τ sig := by
  unfold opsRyCols; exact ⟨unary_bufs_sub .., unary_bufs_sub .., unary_bufs_sub .., unary_bufs_sub .., unary_bufs_sub .., unary_bufs_sub .., unary_bufs_sub .., unary_bufs_sub .., unary_bufs_sub .., unary_bufs_sub ..⟩
theorem opsRyCols_fresh : (opsRyCols : List (HloOp τ sig (Elt F))).Forall fun op => op.fresh = ∅ := by
  unfold opsRyCols; exact ⟨rfl, rfl, rfl, rfl, rfl, rfl, rfl, rfl, rfl, rfl⟩
theorem opsRyCols_writes : (opsRyCols : List (HloOp τ sig (Elt F))).Forall fun op =>
    op.writes ⊆ (opsRyCols_W.map (Proc.devRef (τ := τ) .tc)).toFinset := by
  unfold opsRyCols; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRyCols` does not write keeps its contents through it. -/
theorem opsRyCols_keep (W : Valuation τ sig (Elt F)) (r : Ref sig .tc) (h : r ∉ opsRyCols_W) :
    after opsRyCols W (no_index (Proc.devRef .tc r)) = W (Proc.devRef .tc r) :=
  after_of_writes_sub opsRyCols W opsRyCols_writes h

/-- The buffers `opsRyFold` writes. -/
abbrev opsRyFold_W : List (Ref sig .tc) := [main_v42, main_v43]
theorem opsRyFold_sub : (opsRyFold : List (HloOp τ sig (Elt F))).Forall fun op => op.bufs ⊆ tcRefs τ sig := by
  unfold opsRyFold; exact ⟨nary_bufs_sub .., reshape_bufs_sub ..⟩
theorem opsRyFold_fresh : (opsRyFold : List (HloOp τ sig (Elt F))).Forall fun op => op.fresh = ∅ := by
  unfold opsRyFold; exact ⟨rfl, rfl⟩
theorem opsRyFold_writes : (opsRyFold : List (HloOp τ sig (Elt F))).Forall fun op =>
    op.writes ⊆ (opsRyFold_W.map (Proc.devRef (τ := τ) .tc)).toFinset := by
  unfold opsRyFold; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRyFold` does not write keeps its contents through it. -/
theorem opsRyFold_keep (W : Valuation τ sig (Elt F)) (r : Ref sig .tc) (h : r ∉ opsRyFold_W) :
    after opsRyFold W (no_index (Proc.devRef .tc r)) = W (Proc.devRef .tc r) :=
  after_of_writes_sub opsRyFold W opsRyFold_writes h

/-- The buffers `opsRzCols` writes. -/
abbrev opsRzCols_W : List (Ref sig .tc) := [main_v44, main_v45, main_v46, main_v47, main_v48, main_v49, main_v50, main_v51, main_v52, main_v53]
theorem opsRzCols_sub : (opsRzCols : List (HloOp τ sig (Elt F))).Forall fun op => op.bufs ⊆ tcRefs τ sig := by
  unfold opsRzCols; exact ⟨unary_bufs_sub .., unary_bufs_sub .., unary_bufs_sub .., unary_bufs_sub .., unary_bufs_sub .., unary_bufs_sub .., unary_bufs_sub .., unary_bufs_sub .., unary_bufs_sub .., unary_bufs_sub ..⟩
theorem opsRzCols_fresh : (opsRzCols : List (HloOp τ sig (Elt F))).Forall fun op => op.fresh = ∅ := by
  unfold opsRzCols; exact ⟨rfl, rfl, rfl, rfl, rfl, rfl, rfl, rfl, rfl, rfl⟩
theorem opsRzCols_writes : (opsRzCols : List (HloOp τ sig (Elt F))).Forall fun op =>
    op.writes ⊆ (opsRzCols_W.map (Proc.devRef (τ := τ) .tc)).toFinset := by
  unfold opsRzCols; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRzCols` does not write keeps its contents through it. -/
theorem opsRzCols_keep (W : Valuation τ sig (Elt F)) (r : Ref sig .tc) (h : r ∉ opsRzCols_W) :
    after opsRzCols W (no_index (Proc.devRef .tc r)) = W (Proc.devRef .tc r) :=
  after_of_writes_sub opsRzCols W opsRzCols_writes h

/-- The buffers `opsRzFold` writes. -/
abbrev opsRzFold_W : List (Ref sig .tc) := [main_v54, main_v55]
theorem opsRzFold_sub : (opsRzFold : List (HloOp τ sig (Elt F))).Forall fun op => op.bufs ⊆ tcRefs τ sig := by
  unfold opsRzFold; exact ⟨nary_bufs_sub .., reshape_bufs_sub ..⟩
theorem opsRzFold_fresh : (opsRzFold : List (HloOp τ sig (Elt F))).Forall fun op => op.fresh = ∅ := by
  unfold opsRzFold; exact ⟨rfl, rfl⟩
theorem opsRzFold_writes : (opsRzFold : List (HloOp τ sig (Elt F))).Forall fun op =>
    op.writes ⊆ (opsRzFold_W.map (Proc.devRef (τ := τ) .tc)).toFinset := by
  unfold opsRzFold; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRzFold` does not write keeps its contents through it. -/
theorem opsRzFold_keep (W : Valuation τ sig (Elt F)) (r : Ref sig .tc) (h : r ∉ opsRzFold_W) :
    after opsRzFold W (no_index (Proc.devRef .tc r)) = W (Proc.devRef .tc r) :=
  after_of_writes_sub opsRzFold W opsRzFold_writes h

/-- The buffers `opsRyRx` writes. -/
abbrev opsRyRx_W : List (Ref sig .tc) := [main_v56]
theorem opsRyRx_sub : (opsRyRx : List (HloOp τ sig (Elt F))).Forall fun op => op.bufs ⊆ tcRefs τ sig := by
  unfold opsRyRx; exact (binary_bufs_sub ..)
theorem opsRyRx_fresh : (opsRyRx : List (HloOp τ sig (Elt F))).Forall fun op => op.fresh = ∅ := by
  unfold opsRyRx; exact (rfl)
theorem opsRyRx_writes : (opsRyRx : List (HloOp τ sig (Elt F))).Forall fun op =>
    op.writes ⊆ (opsRyRx_W.map (Proc.devRef (τ := τ) .tc)).toFinset := by
  unfold opsRyRx; simp only [List.Forall]
  exact ((by simp only [nullary_writes, unary_writes, binary_writes, ternary_writes, reshape_writes, nary_writes, Finset.singleton_subset_iff, List.mem_toFinset]; exact List.mem_map_of_mem (by decide)))
/-- A buffer `opsRyRx` does not write keeps its contents through it. -/
theorem opsRyRx_keep (W : Valuation τ sig (Elt F)) (r : Ref sig .tc) (h : r ∉ opsRyRx_W) :
    after opsRyRx W (no_index (Proc.devRef .tc r)) = W (Proc.devRef .tc r) :=
  after_of_writes_sub opsRyRx W opsRyRx_writes h

/-- The buffers `opsR` writes. -/
abbrev opsR_W : List (Ref sig .tc) := [main_v57]
theorem opsR_sub : (opsR : List (HloOp τ sig (Elt F))).Forall fun op => op.bufs ⊆ tcRefs τ sig := by
  unfold opsR; exact (binary_bufs_sub ..)
theorem opsR_fresh : (opsR : List (HloOp τ sig (Elt F))).Forall fun op => op.fresh = ∅ := by
  unfold opsR; exact (rfl)
theorem opsR_writes : (opsR : List (HloOp τ sig (Elt F))).Forall fun op =>
    op.writes ⊆ (opsR_W.map (Proc.devRef (τ := τ) .tc)).toFinset := by
  unfold opsR; simp only [List.Forall]
  exact ((by simp only [nullary_writes, unary_writes, binary_writes, ternary_writes, reshape_writes, nary_writes, Finset.singleton_subset_iff, List.mem_toFinset]; exact List.mem_map_of_mem (by decide)))
/-- A buffer `opsR` does not write keeps its contents through it. -/
theorem opsR_keep (W : Valuation τ sig (Elt F)) (r : Ref sig .tc) (h : r ∉ opsR_W) :
    after opsR W (no_index (Proc.devRef .tc r)) = W (Proc.devRef .tc r) :=
  after_of_writes_sub opsR W opsR_writes h

/-- The buffers `opsRow0Cols` writes. -/
abbrev opsRow0Cols_W : List (Ref sig .tc) := [main_v58, main_v59, main_v60, main_v61, main_v62, main_v63, main_v64, main_v65, main_v66, main_v67]
theorem opsRow0Cols_sub : (opsRow0Cols : List (HloOp τ sig (Elt F))).Forall fun op => op.bufs ⊆ tcRefs τ sig := by
  unfold opsRow0Cols; exact ⟨unary_bufs_sub .., reshape_bufs_sub .., unary_bufs_sub .., reshape_bufs_sub .., unary_bufs_sub .., unary_bufs_sub .., reshape_bufs_sub .., unary_bufs_sub .., unary_bufs_sub .., unary_bufs_sub ..⟩
theorem opsRow0Cols_fresh : (opsRow0Cols : List (HloOp τ sig (Elt F))).Forall fun op => op.fresh = ∅ := by
  unfold opsRow0Cols; exact ⟨rfl, rfl, rfl, rfl, rfl, rfl, rfl, rfl, rfl, rfl⟩
theorem opsRow0Cols_writes : (opsRow0Cols : List (HloOp τ sig (Elt F))).Forall fun op =>
    op.writes ⊆ (opsRow0Cols_W.map (Proc.devRef (τ := τ) .tc)).toFinset := by
  unfold opsRow0Cols; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRow0Cols` does not write keeps its contents through it. -/
theorem opsRow0Cols_keep (W : Valuation τ sig (Elt F)) (r : Ref sig .tc) (h : r ∉ opsRow0Cols_W) :
    after opsRow0Cols W (no_index (Proc.devRef .tc r)) = W (Proc.devRef .tc r) :=
  after_of_writes_sub opsRow0Cols W opsRow0Cols_writes h

/-- The buffers `opsRow0` writes. -/
abbrev opsRow0_W : List (Ref sig .tc) := [main_v68]
theorem opsRow0_sub : (opsRow0 : List (HloOp τ sig (Elt F))).Forall fun op => op.bufs ⊆ tcRefs τ sig := by
  unfold opsRow0; exact (nary_bufs_sub ..)
theorem opsRow0_fresh : (opsRow0 : List (HloOp τ sig (Elt F))).Forall fun op => op.fresh = ∅ := by
  unfold opsRow0; exact (rfl)
theorem opsRow0_writes : (opsRow0 : List (HloOp τ sig (Elt F))).Forall fun op =>
    op.writes ⊆ (opsRow0_W.map (Proc.devRef (τ := τ) .tc)).toFinset := by
  unfold opsRow0; simp only [List.Forall]
  exact ((by simp only [nullary_writes, unary_writes, binary_writes, ternary_writes, reshape_writes, nary_writes, Finset.singleton_subset_iff, List.mem_toFinset]; exact List.mem_map_of_mem (by decide)))
/-- A buffer `opsRow0` does not write keeps its contents through it. -/
theorem opsRow0_keep (W : Valuation τ sig (Elt F)) (r : Ref sig .tc) (h : r ∉ opsRow0_W) :
    after opsRow0 W (no_index (Proc.devRef .tc r)) = W (Proc.devRef .tc r) :=
  after_of_writes_sub opsRow0 W opsRow0_writes h

/-- The buffers `opsRow1Cols` writes. -/
abbrev opsRow1Cols_W : List (Ref sig .tc) := [main_v69, main_v70, main_v71, main_v72, main_v73, main_v74, main_v75, main_v76, main_v77, main_v78, main_v79]
theorem opsRow1Cols_sub : (opsRow1Cols : List (HloOp τ sig (Elt F))).Forall fun op => op.bufs ⊆ tcRefs τ sig := by
  unfold opsRow1Cols; exact ⟨unary_bufs_sub .., reshape_bufs_sub .., unary_bufs_sub .., unary_bufs_sub .., reshape_bufs_sub .., unary_bufs_sub .., reshape_bufs_sub .., unary_bufs_sub .., unary_bufs_sub .., unary_bufs_sub .., unary_bufs_sub ..⟩
theorem opsRow1Cols_fresh : (opsRow1Cols : List (HloOp τ sig (Elt F))).Forall fun op => op.fresh = ∅ := by
  unfold opsRow1Cols; exact ⟨rfl, rfl, rfl, rfl, rfl, rfl, rfl, rfl, rfl, rfl, rfl⟩
theorem opsRow1Cols_writes : (opsRow1Cols : List (HloOp τ sig (Elt F))).Forall fun op =>
    op.writes ⊆ (opsRow1Cols_W.map (Proc.devRef (τ := τ) .tc)).toFinset := by
  unfold opsRow1Cols; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRow1Cols` does not write keeps its contents through it. -/
theorem opsRow1Cols_keep (W : Valuation τ sig (Elt F)) (r : Ref sig .tc) (h : r ∉ opsRow1Cols_W) :
    after opsRow1Cols W (no_index (Proc.devRef .tc r)) = W (Proc.devRef .tc r) :=
  after_of_writes_sub opsRow1Cols W opsRow1Cols_writes h

/-- The buffers `opsRow1` writes. -/
abbrev opsRow1_W : List (Ref sig .tc) := [main_v80]
theorem opsRow1_sub : (opsRow1 : List (HloOp τ sig (Elt F))).Forall fun op => op.bufs ⊆ tcRefs τ sig := by
  unfold opsRow1; exact (nary_bufs_sub ..)
theorem opsRow1_fresh : (opsRow1 : List (HloOp τ sig (Elt F))).Forall fun op => op.fresh = ∅ := by
  unfold opsRow1; exact (rfl)
theorem opsRow1_writes : (opsRow1 : List (HloOp τ sig (Elt F))).Forall fun op =>
    op.writes ⊆ (opsRow1_W.map (Proc.devRef (τ := τ) .tc)).toFinset := by
  unfold opsRow1; simp only [List.Forall]
  exact ((by simp only [nullary_writes, unary_writes, binary_writes, ternary_writes, reshape_writes, nary_writes, Finset.singleton_subset_iff, List.mem_toFinset]; exact List.mem_map_of_mem (by decide)))
/-- A buffer `opsRow1` does not write keeps its contents through it. -/
theorem opsRow1_keep (W : Valuation τ sig (Elt F)) (r : Ref sig .tc) (h : r ∉ opsRow1_W) :
    after opsRow1 W (no_index (Proc.devRef .tc r)) = W (Proc.devRef .tc r) :=
  after_of_writes_sub opsRow1 W opsRow1_writes h

/-- The buffers `opsRow2Cols` writes. -/
abbrev opsRow2Cols_W : List (Ref sig .tc) := [main_v81, main_v82, main_v83, main_v84, main_v85, main_v86, main_v87, main_v88, main_v89, main_v90, main_v91]
theorem opsRow2Cols_sub : (opsRow2Cols : List (HloOp τ sig (Elt F))).Forall fun op => op.bufs ⊆ tcRefs τ sig := by
  unfold opsRow2Cols; exact ⟨unary_bufs_sub .., reshape_bufs_sub .., unary_bufs_sub .., unary_bufs_sub .., reshape_bufs_sub .., unary_bufs_sub .., unary_bufs_sub .., reshape_bufs_sub .., unary_bufs_sub .., unary_bufs_sub .., unary_bufs_sub ..⟩
theorem opsRow2Cols_fresh : (opsRow2Cols : List (HloOp τ sig (Elt F))).Forall fun op => op.fresh = ∅ := by
  unfold opsRow2Cols; exact ⟨rfl, rfl, rfl, rfl, rfl, rfl, rfl, rfl, rfl, rfl, rfl⟩
theorem opsRow2Cols_writes : (opsRow2Cols : List (HloOp τ sig (Elt F))).Forall fun op =>
    op.writes ⊆ (opsRow2Cols_W.map (Proc.devRef (τ := τ) .tc)).toFinset := by
  unfold opsRow2Cols; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsRow2Cols` does not write keeps its contents through it. -/
theorem opsRow2Cols_keep (W : Valuation τ sig (Elt F)) (r : Ref sig .tc) (h : r ∉ opsRow2Cols_W) :
    after opsRow2Cols W (no_index (Proc.devRef .tc r)) = W (Proc.devRef .tc r) :=
  after_of_writes_sub opsRow2Cols W opsRow2Cols_writes h

/-- The buffers `opsRow2` writes. -/
abbrev opsRow2_W : List (Ref sig .tc) := [main_v92]
theorem opsRow2_sub : (opsRow2 : List (HloOp τ sig (Elt F))).Forall fun op => op.bufs ⊆ tcRefs τ sig := by
  unfold opsRow2; exact (nary_bufs_sub ..)
theorem opsRow2_fresh : (opsRow2 : List (HloOp τ sig (Elt F))).Forall fun op => op.fresh = ∅ := by
  unfold opsRow2; exact (rfl)
theorem opsRow2_writes : (opsRow2 : List (HloOp τ sig (Elt F))).Forall fun op =>
    op.writes ⊆ (opsRow2_W.map (Proc.devRef (τ := τ) .tc)).toFinset := by
  unfold opsRow2; simp only [List.Forall]
  exact ((by simp only [nullary_writes, unary_writes, binary_writes, ternary_writes, reshape_writes, nary_writes, Finset.singleton_subset_iff, List.mem_toFinset]; exact List.mem_map_of_mem (by decide)))
/-- A buffer `opsRow2` does not write keeps its contents through it. -/
theorem opsRow2_keep (W : Valuation τ sig (Elt F)) (r : Ref sig .tc) (h : r ∉ opsRow2_W) :
    after opsRow2 W (no_index (Proc.devRef .tc r)) = W (Proc.devRef .tc r) :=
  after_of_writes_sub opsRow2 W opsRow2_writes h

/-- The buffers `opsSlabs` writes. -/
abbrev opsSlabs_W : List (Ref sig .tc) := [main_v93, main_v94, main_v95]
theorem opsSlabs_sub : (opsSlabs : List (HloOp τ sig (Elt F))).Forall fun op => op.bufs ⊆ tcRefs τ sig := by
  unfold opsSlabs; exact ⟨unary_bufs_sub .., unary_bufs_sub .., unary_bufs_sub ..⟩
theorem opsSlabs_fresh : (opsSlabs : List (HloOp τ sig (Elt F))).Forall fun op => op.fresh = ∅ := by
  unfold opsSlabs; exact ⟨rfl, rfl, rfl⟩
theorem opsSlabs_writes : (opsSlabs : List (HloOp τ sig (Elt F))).Forall fun op =>
    op.writes ⊆ (opsSlabs_W.map (Proc.devRef (τ := τ) .tc)).toFinset := by
  unfold opsSlabs; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsSlabs` does not write keeps its contents through it. -/
theorem opsSlabs_keep (W : Valuation τ sig (Elt F)) (r : Ref sig .tc) (h : r ∉ opsSlabs_W) :
    after opsSlabs W (no_index (Proc.devRef .tc r)) = W (Proc.devRef .tc r) :=
  after_of_writes_sub opsSlabs W opsSlabs_writes h

/-- The buffers `opsM` writes. -/
abbrev opsM_W : List (Ref sig .tc) := [main_v96]
theorem opsM_sub : (opsM : List (HloOp τ sig (Elt F))).Forall fun op => op.bufs ⊆ tcRefs τ sig := by
  unfold opsM; exact (nary_bufs_sub ..)
theorem opsM_fresh : (opsM : List (HloOp τ sig (Elt F))).Forall fun op => op.fresh = ∅ := by
  unfold opsM; exact (rfl)
theorem opsM_writes : (opsM : List (HloOp τ sig (Elt F))).Forall fun op =>
    op.writes ⊆ (opsM_W.map (Proc.devRef (τ := τ) .tc)).toFinset := by
  unfold opsM; simp only [List.Forall]
  exact ((by simp only [nullary_writes, unary_writes, binary_writes, ternary_writes, reshape_writes, nary_writes, Finset.singleton_subset_iff, List.mem_toFinset]; exact List.mem_map_of_mem (by decide)))
/-- A buffer `opsM` does not write keeps its contents through it. -/
theorem opsM_keep (W : Valuation τ sig (Elt F)) (r : Ref sig .tc) (h : r ∉ opsM_W) :
    after opsM W (no_index (Proc.devRef .tc r)) = W (Proc.devRef .tc r) :=
  after_of_writes_sub opsM W opsM_writes h

/-- The buffers `opsStart00` writes. -/
abbrev opsStart00_W : List (Ref sig .tc) := [main_c, main_v97, main_c_2, main_v98, main_v99]
theorem opsStart00_sub : (opsStart00 : List (HloOp τ sig (Elt F))).Forall fun op => op.bufs ⊆ tcRefs τ sig := by
  unfold opsStart00; exact ⟨nullary_bufs_sub .., unary_bufs_sub .., nullary_bufs_sub .., unary_bufs_sub .., binary_bufs_sub ..⟩
theorem opsStart00_fresh : (opsStart00 : List (HloOp τ sig (Elt F))).Forall fun op => op.fresh = ∅ := by
  unfold opsStart00; exact ⟨rfl, rfl, rfl, rfl, rfl⟩
theorem opsStart00_writes : (opsStart00 : List (HloOp τ sig (Elt F))).Forall fun op =>
    op.writes ⊆ (opsStart00_W.map (Proc.devRef (τ := τ) .tc)).toFinset := by
  unfold opsStart00; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsStart00` does not write keeps its contents through it. -/
theorem opsStart00_keep (W : Valuation τ sig (Elt F)) (r : Ref sig .tc) (h : r ∉ opsStart00_W) :
    after opsStart00 W (no_index (Proc.devRef .tc r)) = W (Proc.devRef .tc r) :=
  after_of_writes_sub opsStart00 W opsStart00_writes h

/-- The buffers `opsWithM` writes. -/
abbrev opsWithM_W : List (Ref sig .tc) := [main_v100]
theorem opsWithM_sub : (opsWithM : List (HloOp τ sig (Elt F))).Forall fun op => op.bufs ⊆ tcRefs τ sig := by
  unfold opsWithM; exact (ternary_bufs_sub ..)
theorem opsWithM_fresh : (opsWithM : List (HloOp τ sig (Elt F))).Forall fun op => op.fresh = ∅ := by
  unfold opsWithM; exact (rfl)
theorem opsWithM_writes : (opsWithM : List (HloOp τ sig (Elt F))).Forall fun op =>
    op.writes ⊆ (opsWithM_W.map (Proc.devRef (τ := τ) .tc)).toFinset := by
  unfold opsWithM; simp only [List.Forall]
  exact ((by simp only [nullary_writes, unary_writes, binary_writes, ternary_writes, reshape_writes, nary_writes, Finset.singleton_subset_iff, List.mem_toFinset]; exact List.mem_map_of_mem (by decide)))
/-- A buffer `opsWithM` does not write keeps its contents through it. -/
theorem opsWithM_keep (W : Valuation τ sig (Elt F)) (r : Ref sig .tc) (h : r ∉ opsWithM_W) :
    after opsWithM W (no_index (Proc.devRef .tc r)) = W (Proc.devRef .tc r) :=
  after_of_writes_sub opsWithM W opsWithM_writes h

/-- The buffers `opsTn` writes. -/
abbrev opsTn_W : List (Ref sig .tc) := [main_v101, main_v102, main_v103]
theorem opsTn_sub : (opsTn : List (HloOp τ sig (Elt F))).Forall fun op => op.bufs ⊆ tcRefs τ sig := by
  unfold opsTn; exact ⟨unary_bufs_sub .., unary_bufs_sub .., binary_bufs_sub ..⟩
theorem opsTn_fresh : (opsTn : List (HloOp τ sig (Elt F))).Forall fun op => op.fresh = ∅ := by
  unfold opsTn; exact ⟨rfl, rfl, rfl⟩
theorem opsTn_writes : (opsTn : List (HloOp τ sig (Elt F))).Forall fun op =>
    op.writes ⊆ (opsTn_W.map (Proc.devRef (τ := τ) .tc)).toFinset := by
  unfold opsTn; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsTn` does not write keeps its contents through it. -/
theorem opsTn_keep (W : Valuation τ sig (Elt F)) (r : Ref sig .tc) (h : r ∉ opsTn_W) :
    after opsTn W (no_index (Proc.devRef .tc r)) = W (Proc.devRef .tc r) :=
  after_of_writes_sub opsTn W opsTn_writes h

/-- The buffers `opsStart03` writes. -/
abbrev opsStart03_W : List (Ref sig .tc) := [main_c_3, main_v104, main_c_4, main_v105, main_v106]
theorem opsStart03_sub : (opsStart03 : List (HloOp τ sig (Elt F))).Forall fun op => op.bufs ⊆ tcRefs τ sig := by
  unfold opsStart03; exact ⟨nullary_bufs_sub .., unary_bufs_sub .., nullary_bufs_sub .., unary_bufs_sub .., binary_bufs_sub ..⟩
theorem opsStart03_fresh : (opsStart03 : List (HloOp τ sig (Elt F))).Forall fun op => op.fresh = ∅ := by
  unfold opsStart03; exact ⟨rfl, rfl, rfl, rfl, rfl⟩
theorem opsStart03_writes : (opsStart03 : List (HloOp τ sig (Elt F))).Forall fun op =>
    op.writes ⊆ (opsStart03_W.map (Proc.devRef (τ := τ) .tc)).toFinset := by
  unfold opsStart03; simp only [List.Forall]
  exact ⟨(by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide)), (by simp only [nullary_writes, unary_writes, binary_writes, ternary_writes, reshape_writes, nary_writes, Finset.singleton_subset_iff, List.mem_toFinset]; exact List.mem_map_of_mem (by decide))⟩
/-- A buffer `opsStart03` does not write keeps its contents through it. -/
theorem opsStart03_keep (W : Valuation τ sig (Elt F)) (r : Ref sig .tc) (h : r ∉ opsStart03_W) :
    after opsStart03 W (no_index (Proc.devRef .tc r)) = W (Proc.devRef .tc r) :=
  after_of_writes_sub opsStart03 W opsStart03_writes h

/-- The buffers `opsOut` writes. -/
abbrev opsOut_W : List (Ref sig .tc) := [main_v107]
theorem opsOut_sub : (opsOut : List (HloOp τ sig (Elt F))).Forall fun op => op.bufs ⊆ tcRefs τ sig := by
  unfold opsOut; exact (ternary_bufs_sub ..)
theorem opsOut_fresh : (opsOut : List (HloOp τ sig (Elt F))).Forall fun op => op.fresh = ∅ := by
  unfold opsOut; exact (rfl)
theorem opsOut_writes : (opsOut : List (HloOp τ sig (Elt F))).Forall fun op =>
    op.writes ⊆ (opsOut_W.map (Proc.devRef (τ := τ) .tc)).toFinset := by
  unfold opsOut; simp only [List.Forall]
  exact ((by simp only [nullary_writes, unary_writes, binary_writes, ternary_writes, reshape_writes, nary_writes, Finset.singleton_subset_iff, List.mem_toFinset]; exact List.mem_map_of_mem (by decide)))
/-- A buffer `opsOut` does not write keeps its contents through it. -/
theorem opsOut_keep (W : Valuation τ sig (Elt F)) (r : Ref sig .tc) (h : r ∉ opsOut_W) :
    after opsOut W (no_index (Proc.devRef .tc r)) = W (Proc.devRef .tc r) :=
  after_of_writes_sub opsOut W opsOut_writes h

/-! ## The program is the stretches in order -/

/-- The first window's operations. -/
def part0 : List (HloOp τ sig (Elt F)) := opsAng ++ (opsRxCols ++ (opsRxFold ++ (opsRyCols ++ (opsRyFold ++ (opsRzCols ++ (opsRzFold ++ (opsRyRx)))))))
/-- The second window's operations. -/
def part1 : List (HloOp τ sig (Elt F)) := opsR ++ (opsRow0Cols ++ (opsRow0 ++ (opsRow1Cols ++ (opsRow1 ++ (opsRow2Cols ++ (opsRow2 ++ (opsSlabs ++ (opsM ++ (opsStart00 ++ (opsWithM ++ (opsTn ++ (opsStart03 ++ (opsOut)))))))))))))
/-- @main's operations, in order. -/
def ops : List (HloOp τ sig (Elt F)) := part0 ++ part1

theorem main_part0_eq (c : Dev nD) : main_part0 (F := F) c = seq part0 := rfl
theorem main_part1_eq (c : Dev nD) : main_part1 (F := F) c = seq part1 := rfl
theorem main_eq (c : Dev nD) : main (F := F) c = seq ops := by
  unfold ops; rw [seq_append, ← main_part0_eq c, ← main_part1_eq c]; rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  unfold ops part0 part1
  exact forall_app (forall_app opsAng_sub (forall_app opsRxCols_sub (forall_app opsRxFold_sub (forall_app opsRyCols_sub (forall_app opsRyFold_sub (forall_app opsRzCols_sub (forall_app opsRzFold_sub (opsRyRx_sub))))))))
    (forall_app opsR_sub (forall_app opsRow0Cols_sub (forall_app opsRow0_sub (forall_app opsRow1Cols_sub (forall_app opsRow1_sub (forall_app opsRow2Cols_sub (forall_app opsRow2_sub (forall_app opsSlabs_sub (forall_app opsM_sub (forall_app opsStart00_sub (forall_app opsWithM_sub (forall_app opsTn_sub (forall_app opsStart03_sub (opsOut_sub))))))))))))))
theorem ops_fresh : ∀ op ∈ (ops : List (HloOp τ sig (Elt F))), op.fresh = ∅ := by
  unfold ops part0 part1
  exact List.forall_iff_forall_mem.mp (forall_app (forall_app opsAng_fresh (forall_app opsRxCols_fresh (forall_app opsRxFold_fresh (forall_app opsRyCols_fresh (forall_app opsRyFold_fresh (forall_app opsRzCols_fresh (forall_app opsRzFold_fresh (opsRyRx_fresh))))))))
    (forall_app opsR_fresh (forall_app opsRow0Cols_fresh (forall_app opsRow0_fresh (forall_app opsRow1Cols_fresh (forall_app opsRow1_fresh (forall_app opsRow2Cols_fresh (forall_app opsRow2_fresh (forall_app opsSlabs_fresh (forall_app opsM_fresh (forall_app opsStart00_fresh (forall_app opsWithM_fresh (forall_app opsTn_fresh (forall_app opsStart03_fresh (opsOut_fresh)))))))))))))))

/-- The contents after the whole program: the stretches' folds, nested in order. -/
theorem after_ops (V : Valuation τ sig (Elt F)) :
    after ops V = after opsOut (after opsStart03 (after opsTn (after opsWithM (after opsStart00 (after opsM (after opsSlabs (after opsRow2 (after opsRow2Cols (after opsRow1 (after opsRow1Cols (after opsRow0 (after opsRow0Cols (after opsR (after opsRyRx (after opsRzFold (after opsRzCols (after opsRyFold (after opsRyCols (after opsRxFold (after opsRxCols (after opsAng V))))))))))))))))))))) := by
  unfold ops part0 part1
  simp only [after_app]

/-- Rewrites each operation's result at its own result buffer to its function's value and at any other reference to
    what was there, outermost first, until none applies. -/
local macro "read_results" : tactic =>
  `(tactic| repeat (first
      | rw [nullary_result] | rw [unary_result] | rw [binary_result] | rw [ternary_result]
      | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-! ## What each stretch computes, over any starting contents -/

/-- The scale table. -/
theorem opsAng_cst (W : Valuation τ sig (Elt F)) :
    after opsAng W (no_index (Proc.devRef .tc main_cst)) = (fun i => FloatOps.ofBits .f32 (lit0 (S3.rowMajor i)) : (⟨S3, .f32⟩ : BufTy).Contents (Elt F)) := by
  unfold opsAng
  simp only [after_cons, after_nil]
  read_results
  try rfl
theorem opsAng_v2 (W : Valuation τ sig (Elt F)) :
    after opsAng W (no_index (Proc.devRef .tc main_v2)) = Host.cos (Stages.ang0 (W (Proc.devRef .tc main_arg0))) := by
  unfold opsAng
  simp only [after_cons, after_nil]
  read_results
  try rfl
theorem opsAng_v5 (W : Valuation τ sig (Elt F)) :
    after opsAng W (no_index (Proc.devRef .tc main_v5)) = Host.sin (Stages.ang0 (W (Proc.devRef .tc main_arg0))) := by
  unfold opsAng
  simp only [after_cons, after_nil]
  read_results
  try rfl
theorem opsAng_v8 (W : Valuation τ sig (Elt F)) :
    after opsAng W (no_index (Proc.devRef .tc main_v8)) = Host.cos (Stages.ang1 (W (Proc.devRef .tc main_arg0))) := by
  unfold opsAng
  simp only [after_cons, after_nil]
  read_results
  try rfl
theorem opsAng_v11 (W : Valuation τ sig (Elt F)) :
    after opsAng W (no_index (Proc.devRef .tc main_v11)) = Host.sin (Stages.ang1 (W (Proc.devRef .tc main_arg0))) := by
  unfold opsAng
  simp only [after_cons, after_nil]
  read_results
  try rfl
theorem opsAng_v14 (W : Valuation τ sig (Elt F)) :
    after opsAng W (no_index (Proc.devRef .tc main_v14)) = Host.cos (Stages.ang2 (W (Proc.devRef .tc main_arg0))) := by
  unfold opsAng
  simp only [after_cons, after_nil]
  read_results
  try rfl
theorem opsAng_v17 (W : Valuation τ sig (Elt F)) :
    after opsAng W (no_index (Proc.devRef .tc main_v17)) = Host.sin (Stages.ang2 (W (Proc.devRef .tc main_arg0))) := by
  unfold opsAng
  simp only [after_cons, after_nil]
  read_results
  try rfl
theorem opsAng_v18 (W : Valuation τ sig (Elt F)) :
    after opsAng W (no_index (Proc.devRef .tc main_v18)) = Stages.ones := by
  unfold opsAng
  simp only [after_cons, after_nil]
  read_results
  try rfl
theorem opsAng_v19 (W : Valuation τ sig (Elt F)) :
    after opsAng W (no_index (Proc.devRef .tc main_v19)) = Stages.zeros := by
  unfold opsAng
  simp only [after_cons, after_nil]
  read_results
  try rfl

/-! The rotation `Rx`: its nine columns, then the fold. -/

theorem opsRxCols_v21 (W : Valuation τ sig (Elt F)) :
    after opsRxCols W (Proc.devRef .tc main_v21) = Stages.col (W (Proc.devRef .tc main_v18)) := by
  unfold opsRxCols
  simp only [after_cons, after_nil]
  read_results
  try rfl
theorem opsRxCols_v22 (W : Valuation τ sig (Elt F)) :
    after opsRxCols W (Proc.devRef .tc main_v22) = Stages.col (W (Proc.devRef .tc main_v19)) := by
  unfold opsRxCols
  simp only [after_cons, after_nil]
  read_results
  try rfl
theorem opsRxCols_v23 (W : Valuation τ sig (Elt F)) :
    after opsRxCols W (Proc.devRef .tc main_v23) = Stages.col (W (Proc.devRef .tc main_v19)) := by
  unfold opsRxCols
  simp only [after_cons, after_nil]
  read_results
  try rfl
theorem opsRxCols_v24 (W : Valuation τ sig (Elt F)) :
    after opsRxCols W (Proc.devRef .tc main_v24) = Stages.col (W (Proc.devRef .tc main_v19)) := by
  unfold opsRxCols
  simp only [after_cons, after_nil]
  read_results
  try rfl
theorem opsRxCols_v25 (W : Valuation τ sig (Elt F)) :
    after opsRxCols W (Proc.devRef .tc main_v25) = Stages.col (W (Proc.devRef .tc main_v2)) := by
  unfold opsRxCols
  simp only [after_cons, after_nil]
  read_results
  try rfl
theorem opsRxCols_v26 (W : Valuation τ sig (Elt F)) :
    after opsRxCols W (Proc.devRef .tc main_v26) = Stages.col (Host.negf (W (Proc.devRef .tc main_v5))) := by
  unfold opsRxCols
  simp only [after_cons, after_nil]
  read_results
  try rfl
theorem opsRxCols_v27 (W : Valuation τ sig (Elt F)) :
    after opsRxCols W (Proc.devRef .tc main_v27) = Stages.col (W (Proc.devRef .tc main_v19)) := by
  unfold opsRxCols
  simp only [after_cons, after_nil]
  read_results
  try rfl
theorem opsRxCols_v28 (W : Valuation τ sig (Elt F)) :
    after opsRxCols W (Proc.devRef .tc main_v28) = Stages.col (W (Proc.devRef .tc main_v5)) := by
  unfold opsRxCols
  simp only [after_cons, after_nil]
  read_results
  try rfl
theorem opsRxCols_v29 (W : Valuation τ sig (Elt F)) :
    after opsRxCols W (Proc.devRef .tc main_v29) = Stages.col (W (Proc.devRef .tc main_v2)) := by
  unfold opsRxCols
  simp only [after_cons, after_nil]
  read_results
  try rfl
theorem opsRxFold_v31 (G : Valuation τ sig (Elt F)) :
    after opsRxFold G (Proc.devRef .tc main_v31) =
      shapeCast S2000000x3x3 (concatenate S2000000x9 1 [⟨S2000000x1, G (Proc.devRef .tc main_v21)⟩, ⟨S2000000x1, G (Proc.devRef .tc main_v22)⟩, ⟨S2000000x1, G (Proc.devRef .tc main_v23)⟩, ⟨S2000000x1, G (Proc.devRef .tc main_v24)⟩, ⟨S2000000x1, G (Proc.devRef .tc main_v25)⟩, ⟨S2000000x1, G (Proc.devRef .tc main_v26)⟩, ⟨S2000000x1, G (Proc.devRef .tc main_v27)⟩, ⟨S2000000x1, G (Proc.devRef .tc main_v28)⟩, ⟨S2000000x1, G (Proc.devRef .tc main_v29)⟩] concatenates_S2000000x1_S2000000x1_S2000000x1_S2000000x1_S2000000x1_S2000000x1_S2000000x1_S2000000x1_S2000000x1_S2000000x9_d1) shapeCasts_S2000000x9_S2000000x3x3 := by
  unfold opsRxFold
  simp only [after_cons, after_nil]
  rw [reshape_result, nary_result]
  rfl
theorem opsRx_v31 (W : Valuation τ sig (Elt F)) :
    after opsRxFold (after opsRxCols W) (no_index (Proc.devRef .tc main_v31)) = Stages.mat9 (W (Proc.devRef .tc main_v18)) (W (Proc.devRef .tc main_v19)) (W (Proc.devRef .tc main_v19)) (W (Proc.devRef .tc main_v19)) (W (Proc.devRef .tc main_v2)) (Host.negf (W (Proc.devRef .tc main_v5))) (W (Proc.devRef .tc main_v19)) (W (Proc.devRef .tc main_v5)) (W (Proc.devRef .tc main_v2)) := by
  rw [opsRxFold_v31, opsRxCols_v21, opsRxCols_v22, opsRxCols_v23, opsRxCols_v24, opsRxCols_v25, opsRxCols_v26, opsRxCols_v27, opsRxCols_v28, opsRxCols_v29]
  rfl

/-! The rotation `Ry`: its nine columns, then the fold. -/

theorem opsRyCols_v33 (W : Valuation τ sig (Elt F)) :
    after opsRyCols W (Proc.devRef .tc main_v33) = Stages.col (W (Proc.devRef .tc main_v8)) := by
  unfold opsRyCols
  simp only [after_cons, after_nil]
  read_results
  try rfl
theorem opsRyCols_v34 (W : Valuation τ sig (Elt F)) :
    after opsRyCols W (Proc.devRef .tc main_v34) = Stages.col (W (Proc.devRef .tc main_v19)) := by
  unfold opsRyCols
  simp only [after_cons, after_nil]
  read_results
  try rfl
theorem opsRyCols_v35 (W : Valuation τ sig (Elt F)) :
    after opsRyCols W (Proc.devRef .tc main_v35) = Stages.col (W (Proc.devRef .tc main_v11)) := by
  unfold opsRyCols
  simp only [after_cons, after_nil]
  read_results
  try rfl
theorem opsRyCols_v36 (W : Valuation τ sig (Elt F)) :
    after opsRyCols W (Proc.devRef .tc main_v36) = Stages.col (W (Proc.devRef .tc main_v19)) := by
  unfold opsRyCols
  simp only [after_cons, after_nil]
  read_results
  try rfl
theorem opsRyCols_v37 (W : Valuation τ sig (Elt F)) :
    after opsRyCols W (Proc.devRef .tc main_v37) = Stages.col (W (Proc.devRef .tc main_v18)) := by
  unfold opsRyCols
  simp only [after_cons, after_nil]
  read_results
  try rfl
theorem opsRyCols_v38 (W : Valuation τ sig (Elt F)) :
    after opsRyCols W (Proc.devRef .tc main_v38) = Stages.col (W (Proc.devRef .tc main_v19)) := by
  unfold opsRyCols
  simp only [after_cons, after_nil]
  read_results
  try rfl
theorem opsRyCols_v39 (W : Valuation τ sig (Elt F)) :
    after opsRyCols W (Proc.devRef .tc main_v39) = Stages.col (Host.negf (W (Proc.devRef .tc main_v11))) := by
  unfold opsRyCols
  simp only [after_cons, after_nil]
  read_results
  try rfl
theorem opsRyCols_v40 (W : Valuation τ sig (Elt F)) :
    after opsRyCols W (Proc.devRef .tc main_v40) = Stages.col (W (Proc.devRef .tc main_v19)) := by
  unfold opsRyCols
  simp only [after_cons, after_nil]
  read_results
  try rfl
theorem opsRyCols_v41 (W : Valuation τ sig (Elt F)) :
    after opsRyCols W (Proc.devRef .tc main_v41) = Stages.col (W (Proc.devRef .tc main_v8)) := by
  unfold opsRyCols
  simp only [after_cons, after_nil]
  read_results
  try rfl
theorem opsRyFold_v43 (G : Valuation τ sig (Elt F)) :
    after opsRyFold G (Proc.devRef .tc main_v43) =
      shapeCast S2000000x3x3 (concatenate S2000000x9 1 [⟨S2000000x1, G (Proc.devRef .tc main_v33)⟩, ⟨S2000000x1, G (Proc.devRef .tc main_v34)⟩, ⟨S2000000x1, G (Proc.devRef .tc main_v35)⟩, ⟨S2000000x1, G (Proc.devRef .tc main_v36)⟩, ⟨S2000000x1, G (Proc.devRef .tc main_v37)⟩, ⟨S2000000x1, G (Proc.devRef .tc main_v38)⟩, ⟨S2000000x1, G (Proc.devRef .tc main_v39)⟩, ⟨S2000000x1, G (Proc.devRef .tc main_v40)⟩, ⟨S2000000x1, G (Proc.devRef .tc main_v41)⟩] concatenates_S2000000x1_S2000000x1_S2000000x1_S2000000x1_S2000000x1_S2000000x1_S2000000x1_S2000000x1_S2000000x1_S2000000x9_d1) shapeCasts_S2000000x9_S2000000x3x3 := by
  unfold opsRyFold
  simp only [after_cons, after_nil]
  rw [reshape_result, nary_result]
  rfl
theorem opsRy_v43 (W : Valuation τ sig (Elt F)) :
    after opsRyFold (after opsRyCols W) (no_index (Proc.devRef .tc main_v43)) = Stages.mat9 (W (Proc.devRef .tc main_v8)) (W (Proc.devRef .tc main_v19)) (W (Proc.devRef .tc main_v11)) (W (Proc.devRef .tc main_v19)) (W (Proc.devRef .tc main_v18)) (W (Proc.devRef .tc main_v19)) (Host.negf (W (Proc.devRef .tc main_v11))) (W (Proc.devRef .tc main_v19)) (W (Proc.devRef .tc main_v8)) := by
  rw [opsRyFold_v43, opsRyCols_v33, opsRyCols_v34, opsRyCols_v35, opsRyCols_v36, opsRyCols_v37, opsRyCols_v38, opsRyCols_v39, opsRyCols_v40, opsRyCols_v41]
  rfl

/-! The rotation `Rz`: its nine columns, then the fold. -/

theorem opsRzCols_v45 (W : Valuation τ sig (Elt F)) :
    after opsRzCols W (Proc.devRef .tc main_v45) = Stages.col (W (Proc.devRef .tc main_v14)) := by
  unfold opsRzCols
  simp only [after_cons, after_nil]
  read_results
  try rfl
theorem opsRzCols_v46 (W : Valuation τ sig (Elt F)) :
    after opsRzCols W (Proc.devRef .tc main_v46) = Stages.col (Host.negf (W (Proc.devRef .tc main_v17))) := by
  unfold opsRzCols
  simp only [after_cons, after_nil]
  read_results
  try rfl
theorem opsRzCols_v47 (W : Valuation τ sig (Elt F)) :
    after opsRzCols W (Proc.devRef .tc main_v47) = Stages.col (W (Proc.devRef .tc main_v19)) := by
  unfold opsRzCols
  simp only [after_cons, after_nil]
  read_results
  try rfl
theorem opsRzCols_v48 (W : Valuation τ sig (Elt F)) :
    after opsRzCols W (Proc.devRef .tc main_v48) = Stages.col (W (Proc.devRef .tc main_v17)) := by
  unfold opsRzCols
  simp only [after_cons, after_nil]
  read_results
  try rfl
theorem opsRzCols_v49 (W : Valuation τ sig (Elt F)) :
    after opsRzCols W (Proc.devRef .tc main_v49) = Stages.col (W (Proc.devRef .tc main_v14)) := by
  unfold opsRzCols
  simp only [after_cons, after_nil]
  read_results
  try rfl
theorem opsRzCols_v50 (W : Valuation τ sig (Elt F)) :
    after opsRzCols W (Proc.devRef .tc main_v50) = Stages.col (W (Proc.devRef .tc main_v19)) := by
  unfold opsRzCols
  simp only [after_cons, after_nil]
  read_results
  try rfl
theorem opsRzCols_v51 (W : Valuation τ sig (Elt F)) :
    after opsRzCols W (Proc.devRef .tc main_v51) = Stages.col (W (Proc.devRef .tc main_v19)) := by
  unfold opsRzCols
  simp only [after_cons, after_nil]
  read_results
  try rfl
theorem opsRzCols_v52 (W : Valuation τ sig (Elt F)) :
    after opsRzCols W (Proc.devRef .tc main_v52) = Stages.col (W (Proc.devRef .tc main_v19)) := by
  unfold opsRzCols
  simp only [after_cons, after_nil]
  read_results
  try rfl
theorem opsRzCols_v53 (W : Valuation τ sig (Elt F)) :
    after opsRzCols W (Proc.devRef .tc main_v53) = Stages.col (W (Proc.devRef .tc main_v18)) := by
  unfold opsRzCols
  simp only [after_cons, after_nil]
  read_results
  try rfl
theorem opsRzFold_v55 (G : Valuation τ sig (Elt F)) :
    after opsRzFold G (Proc.devRef .tc main_v55) =
      shapeCast S2000000x3x3 (concatenate S2000000x9 1 [⟨S2000000x1, G (Proc.devRef .tc main_v45)⟩, ⟨S2000000x1, G (Proc.devRef .tc main_v46)⟩, ⟨S2000000x1, G (Proc.devRef .tc main_v47)⟩, ⟨S2000000x1, G (Proc.devRef .tc main_v48)⟩, ⟨S2000000x1, G (Proc.devRef .tc main_v49)⟩, ⟨S2000000x1, G (Proc.devRef .tc main_v50)⟩, ⟨S2000000x1, G (Proc.devRef .tc main_v51)⟩, ⟨S2000000x1, G (Proc.devRef .tc main_v52)⟩, ⟨S2000000x1, G (Proc.devRef .tc main_v53)⟩] concatenates_S2000000x1_S2000000x1_S2000000x1_S2000000x1_S2000000x1_S2000000x1_S2000000x1_S2000000x1_S2000000x1_S2000000x9_d1) shapeCasts_S2000000x9_S2000000x3x3 := by
  unfold opsRzFold
  simp only [after_cons, after_nil]
  rw [reshape_result, nary_result]
  rfl
theorem opsRz_v55 (W : Valuation τ sig (Elt F)) :
    after opsRzFold (after opsRzCols W) (no_index (Proc.devRef .tc main_v55)) = Stages.mat9 (W (Proc.devRef .tc main_v14)) (Host.negf (W (Proc.devRef .tc main_v17))) (W (Proc.devRef .tc main_v19)) (W (Proc.devRef .tc main_v17)) (W (Proc.devRef .tc main_v14)) (W (Proc.devRef .tc main_v19)) (W (Proc.devRef .tc main_v19)) (W (Proc.devRef .tc main_v19)) (W (Proc.devRef .tc main_v18)) := by
  rw [opsRzFold_v55, opsRzCols_v45, opsRzCols_v46, opsRzCols_v47, opsRzCols_v48, opsRzCols_v49, opsRzCols_v50, opsRzCols_v51, opsRzCols_v52, opsRzCols_v53]
  rfl

/-! The two contractions. -/

theorem opsRyRx_v56 (W : Valuation τ sig (Elt F)) :
    after opsRyRx W (no_index (Proc.devRef .tc main_v56)) = Host.dotGeneral dot_S2000000x3x3_S2000000x3x3_S2000000x3x3_1_2_2_1_0_0 none (W (Proc.devRef .tc main_v43)) (W (Proc.devRef .tc main_v31)) := by
  unfold opsRyRx
  simp only [after_cons, after_nil]
  read_results
  try rfl
theorem opsR_v57 (W : Valuation τ sig (Elt F)) :
    after opsR W (no_index (Proc.devRef .tc main_v57)) = Host.dotGeneral dot_S2000000x3x3_S2000000x3x3_S2000000x3x3_1_1_2_2_0_0 none (W (Proc.devRef .tc main_v56)) (W (Proc.devRef .tc main_v55)) := by
  unfold opsR
  simp only [after_cons, after_nil]
  read_results
  try rfl

/-! A row of the fixed-up rotation: its three entries as columns, then the row. -/

theorem opsRow0Cols_v65 (W : Valuation τ sig (Elt F)) :
    after opsRow0Cols W (Proc.devRef .tc main_v65) = Stages.col (Stages.ent ![0, 0, 0] (W (Proc.devRef .tc main_v57)) slices_S2000000x3x3_S2000000x1x1_0_0_0) := by
  unfold opsRow0Cols
  simp only [after_cons, after_nil]
  read_results
  try rfl
theorem opsRow0Cols_v66 (W : Valuation τ sig (Elt F)) :
    after opsRow0Cols W (Proc.devRef .tc main_v66) = Stages.col (Host.negf (Stages.ent ![0, 1, 0] (W (Proc.devRef .tc main_v57)) slices_S2000000x3x3_S2000000x1x1_0_1_0)) := by
  unfold opsRow0Cols
  simp only [after_cons, after_nil]
  read_results
  try rfl
theorem opsRow0Cols_v67 (W : Valuation τ sig (Elt F)) :
    after opsRow0Cols W (Proc.devRef .tc main_v67) = Stages.col (Stages.ent ![0, 2, 0] (W (Proc.devRef .tc main_v57)) slices_S2000000x3x3_S2000000x1x1_0_2_0) := by
  unfold opsRow0Cols
  simp only [after_cons, after_nil]
  read_results
  try rfl
theorem opsRow0_v68 (G : Valuation τ sig (Elt F)) :
    after opsRow0 G (Proc.devRef .tc main_v68) =
      concatenate S2000000x3 1 [⟨S2000000x1, G (Proc.devRef .tc main_v65)⟩, ⟨S2000000x1, G (Proc.devRef .tc main_v66)⟩, ⟨S2000000x1, G (Proc.devRef .tc main_v67)⟩] concatenates_S2000000x1_S2000000x1_S2000000x1_S2000000x3_d1 := by
  unfold opsRow0
  simp only [after_cons, after_nil]
  rw [nary_result]
  rfl
theorem opsRow0_row (W : Valuation τ sig (Elt F)) :
    after opsRow0 (after opsRow0Cols W) (no_index (Proc.devRef .tc main_v68)) = Stages.row3 (Stages.ent ![0, 0, 0] (W (Proc.devRef .tc main_v57)) slices_S2000000x3x3_S2000000x1x1_0_0_0) (Host.negf (Stages.ent ![0, 1, 0] (W (Proc.devRef .tc main_v57)) slices_S2000000x3x3_S2000000x1x1_0_1_0)) (Stages.ent ![0, 2, 0] (W (Proc.devRef .tc main_v57)) slices_S2000000x3x3_S2000000x1x1_0_2_0) := by
  rw [opsRow0_v68, opsRow0Cols_v65, opsRow0Cols_v66, opsRow0Cols_v67]
  rfl

/-! A row of the fixed-up rotation: its three entries as columns, then the row. -/

theorem opsRow1Cols_v77 (W : Valuation τ sig (Elt F)) :
    after opsRow1Cols W (Proc.devRef .tc main_v77) = Stages.col (Host.negf (Stages.ent ![0, 0, 1] (W (Proc.devRef .tc main_v57)) slices_S2000000x3x3_S2000000x1x1_0_0_1)) := by
  unfold opsRow1Cols
  simp only [after_cons, after_nil]
  read_results
  try rfl
theorem opsRow1Cols_v78 (W : Valuation τ sig (Elt F)) :
    after opsRow1Cols W (Proc.devRef .tc main_v78) = Stages.col (Stages.ent ![0, 1, 1] (W (Proc.devRef .tc main_v57)) slices_S2000000x3x3_S2000000x1x1_0_1_1) := by
  unfold opsRow1Cols
  simp only [after_cons, after_nil]
  read_results
  try rfl
theorem opsRow1Cols_v79 (W : Valuation τ sig (Elt F)) :
    after opsRow1Cols W (Proc.devRef .tc main_v79) = Stages.col (Host.negf (Stages.ent ![0, 2, 1] (W (Proc.devRef .tc main_v57)) slices_S2000000x3x3_S2000000x1x1_0_2_1)) := by
  unfold opsRow1Cols
  simp only [after_cons, after_nil]
  read_results
  try rfl
theorem opsRow1_v80 (G : Valuation τ sig (Elt F)) :
    after opsRow1 G (Proc.devRef .tc main_v80) =
      concatenate S2000000x3 1 [⟨S2000000x1, G (Proc.devRef .tc main_v77)⟩, ⟨S2000000x1, G (Proc.devRef .tc main_v78)⟩, ⟨S2000000x1, G (Proc.devRef .tc main_v79)⟩] concatenates_S2000000x1_S2000000x1_S2000000x1_S2000000x3_d1 := by
  unfold opsRow1
  simp only [after_cons, after_nil]
  rw [nary_result]
  rfl
theorem opsRow1_row (W : Valuation τ sig (Elt F)) :
    after opsRow1 (after opsRow1Cols W) (no_index (Proc.devRef .tc main_v80)) = Stages.row3 (Host.negf (Stages.ent ![0, 0, 1] (W (Proc.devRef .tc main_v57)) slices_S2000000x3x3_S2000000x1x1_0_0_1)) (Stages.ent ![0, 1, 1] (W (Proc.devRef .tc main_v57)) slices_S2000000x3x3_S2000000x1x1_0_1_1) (Host.negf (Stages.ent ![0, 2, 1] (W (Proc.devRef .tc main_v57)) slices_S2000000x3x3_S2000000x1x1_0_2_1)) := by
  rw [opsRow1_v80, opsRow1Cols_v77, opsRow1Cols_v78, opsRow1Cols_v79]
  rfl

/-! A row of the fixed-up rotation: its three entries as columns, then the row. -/

theorem opsRow2Cols_v89 (W : Valuation τ sig (Elt F)) :
    after opsRow2Cols W (Proc.devRef .tc main_v89) = Stages.col (Host.negf (Stages.ent ![0, 0, 2] (W (Proc.devRef .tc main_v57)) slices_S2000000x3x3_S2000000x1x1_0_0_2)) := by
  unfold opsRow2Cols
  simp only [after_cons, after_nil]
  read_results
  try rfl
theorem opsRow2Cols_v90 (W : Valuation τ sig (Elt F)) :
    after opsRow2Cols W (Proc.devRef .tc main_v90) = Stages.col (Host.negf (Stages.ent ![0, 1, 2] (W (Proc.devRef .tc main_v57)) slices_S2000000x3x3_S2000000x1x1_0_1_2)) := by
  unfold opsRow2Cols
  simp only [after_cons, after_nil]
  read_results
  try rfl
theorem opsRow2Cols_v91 (W : Valuation τ sig (Elt F)) :
    after opsRow2Cols W (Proc.devRef .tc main_v91) = Stages.col (Stages.ent ![0, 2, 2] (W (Proc.devRef .tc main_v57)) slices_S2000000x3x3_S2000000x1x1_0_2_2) := by
  unfold opsRow2Cols
  simp only [after_cons, after_nil]
  read_results
  try rfl
theorem opsRow2_v92 (G : Valuation τ sig (Elt F)) :
    after opsRow2 G (Proc.devRef .tc main_v92) =
      concatenate S2000000x3 1 [⟨S2000000x1, G (Proc.devRef .tc main_v89)⟩, ⟨S2000000x1, G (Proc.devRef .tc main_v90)⟩, ⟨S2000000x1, G (Proc.devRef .tc main_v91)⟩] concatenates_S2000000x1_S2000000x1_S2000000x1_S2000000x3_d1 := by
  unfold opsRow2
  simp only [after_cons, after_nil]
  rw [nary_result]
  rfl
theorem opsRow2_row (W : Valuation τ sig (Elt F)) :
    after opsRow2 (after opsRow2Cols W) (no_index (Proc.devRef .tc main_v92)) = Stages.row3 (Host.negf (Stages.ent ![0, 0, 2] (W (Proc.devRef .tc main_v57)) slices_S2000000x3x3_S2000000x1x1_0_0_2)) (Host.negf (Stages.ent ![0, 1, 2] (W (Proc.devRef .tc main_v57)) slices_S2000000x3x3_S2000000x1x1_0_1_2)) (Stages.ent ![0, 2, 2] (W (Proc.devRef .tc main_v57)) slices_S2000000x3x3_S2000000x1x1_0_2_2) := by
  rw [opsRow2_v92, opsRow2Cols_v89, opsRow2Cols_v90, opsRow2Cols_v91]
  rfl

/-! The three rows as slabs, stacked. -/

theorem opsSlabs_v93 (W : Valuation τ sig (Elt F)) :
    after opsSlabs W (Proc.devRef .tc main_v93) = Stages.slab (W (Proc.devRef .tc main_v68)) := by
  unfold opsSlabs
  simp only [after_cons, after_nil]
  read_results
  try rfl
theorem opsSlabs_v94 (W : Valuation τ sig (Elt F)) :
    after opsSlabs W (Proc.devRef .tc main_v94) = Stages.slab (W (Proc.devRef .tc main_v80)) := by
  unfold opsSlabs
  simp only [after_cons, after_nil]
  read_results
  try rfl
theorem opsSlabs_v95 (W : Valuation τ sig (Elt F)) :
    after opsSlabs W (Proc.devRef .tc main_v95) = Stages.slab (W (Proc.devRef .tc main_v92)) := by
  unfold opsSlabs
  simp only [after_cons, after_nil]
  read_results
  try rfl
theorem opsM_v96 (G : Valuation τ sig (Elt F)) :
    after opsM G (Proc.devRef .tc main_v96) =
      concatenate S2000000x3x3 1 [⟨S2000000x1x3, G (Proc.devRef .tc main_v93)⟩, ⟨S2000000x1x3, G (Proc.devRef .tc main_v94)⟩, ⟨S2000000x1x3, G (Proc.devRef .tc main_v95)⟩] concatenates_S2000000x1x3_S2000000x1x3_S2000000x1x3_S2000000x3x3_d1 := by
  unfold opsM
  simp only [after_cons, after_nil]
  rw [nary_result]
  rfl
/-- Three slabs stacked along the row axis. -/
def stack3 (a b c : (⟨S2000000x1x3, .f32⟩ : BufTy).Contents (Elt F)) : Stages.CN33 F :=
  concatenate S2000000x3x3 1 [⟨S2000000x1x3, a⟩, ⟨S2000000x1x3, b⟩, ⟨S2000000x1x3, c⟩] concatenates_S2000000x1x3_S2000000x1x3_S2000000x1x3_S2000000x3x3_d1
theorem opsM_stack (W : Valuation τ sig (Elt F)) :
    after opsM (after opsSlabs W) (no_index (Proc.devRef .tc main_v96)) =
      stack3 (Stages.slab (W (Proc.devRef .tc main_v68))) (Stages.slab (W (Proc.devRef .tc main_v80))) (Stages.slab (W (Proc.devRef .tc main_v92))) := by
  rw [opsM_v96, opsSlabs_v93, opsSlabs_v94, opsSlabs_v95]
  rfl

/-! The two writes, with their start indices and the scaled translation. -/

theorem opsStart00_v99 (W : Valuation τ sig (Elt F)) :
    after opsStart00 W (no_index (Proc.devRef .tc main_v99)) = Stages.start00 (F := F) := by
  unfold opsStart00
  simp only [after_cons, after_nil]
  read_results
  try rfl
theorem opsWithM_v100 (W : Valuation τ sig (Elt F)) :
    after opsWithM W (no_index (Proc.devRef .tc main_v100)) = Host.scatter scatter_S2000000x4x4_S2_S2000000x3x3_012_n_12_0 (fun _ b => b) (W (Proc.devRef .tc main_arg2)) (W (Proc.devRef .tc main_v99)) (W (Proc.devRef .tc main_v96)) := by
  unfold opsWithM
  simp only [after_cons, after_nil]
  read_results
  try rfl
theorem opsTn_v103 (W : Valuation τ sig (Elt F)) :
    after opsTn W (no_index (Proc.devRef .tc main_v103)) = mulf (W (Proc.devRef .tc main_arg1)) (broadcastInDim S2000000x3 ![0, 1] bcast_S1x3_S2000000x3_0_1 (broadcastInDim S1x3 ![1] bcast_S3_S1x3_1 (W (Proc.devRef .tc main_cst)))) := by
  unfold opsTn
  simp only [after_cons, after_nil]
  read_results
  try rfl
theorem opsStart03_v106 (W : Valuation τ sig (Elt F)) :
    after opsStart03 W (no_index (Proc.devRef .tc main_v106)) = Stages.start03 (F := F) := by
  unfold opsStart03
  simp only [after_cons, after_nil]
  read_results
  try rfl
theorem opsOut_v107 (W : Valuation τ sig (Elt F)) :
    after opsOut W (no_index (Proc.devRef .tc main_v107)) = Host.scatter scatter_S2000000x4x4_S2_S2000000x3_01_2_12_0 (fun _ b => b) (W (Proc.devRef .tc main_v100)) (W (Proc.devRef .tc main_v106)) (W (Proc.devRef .tc main_v103)) := by
  unfold opsOut
  simp only [after_cons, after_nil]
  read_results
  try rfl

/-! ## The stretches chained -/

/-- The result buffer after the whole program. -/
theorem after_ops_v107 (V : Valuation τ sig (Elt F)) :
    after ops V (Proc.devRef .tc main_v107)
      = Stages.refOut (V (Proc.devRef .tc main_arg0)) (V (Proc.devRef .tc main_arg1)) (V (Proc.devRef .tc main_arg2)) := by
  rw [after_ops]
  simp (disch := decide) only [opsAng_keep, opsRxCols_keep, opsRxFold_keep, opsRyCols_keep, opsRyFold_keep, opsRzCols_keep, opsRzFold_keep, opsRyRx_keep, opsR_keep, opsRow0Cols_keep, opsRow0_keep, opsRow1Cols_keep, opsRow1_keep, opsRow2Cols_keep, opsRow2_keep, opsSlabs_keep, opsM_keep, opsStart00_keep, opsWithM_keep, opsTn_keep, opsStart03_keep, opsOut_keep,
    opsAng_cst, opsAng_v2, opsAng_v5, opsAng_v8, opsAng_v11, opsAng_v14, opsAng_v17, opsAng_v18, opsAng_v19, opsRx_v31, opsRy_v43, opsRz_v55, opsRyRx_v56, opsR_v57, opsRow0_row, opsRow1_row, opsRow2_row, opsM_stack, opsStart00_v99, opsWithM_v100, opsTn_v103, opsStart03_v106, opsOut_v107]
  rfl

/-- No operation writes an argument. -/
theorem after_ops_arg0 (V : Valuation τ sig (Elt F)) :
    after ops V (Proc.devRef .tc main_arg0) = V (Proc.devRef .tc main_arg0) := by
  rw [after_ops]
  simp (disch := decide) only [opsAng_keep, opsRxCols_keep, opsRxFold_keep, opsRyCols_keep, opsRyFold_keep, opsRzCols_keep, opsRzFold_keep, opsRyRx_keep, opsR_keep, opsRow0Cols_keep, opsRow0_keep, opsRow1Cols_keep, opsRow1_keep, opsRow2Cols_keep, opsRow2_keep, opsSlabs_keep, opsM_keep, opsStart00_keep, opsWithM_keep, opsTn_keep, opsStart03_keep, opsOut_keep]
theorem after_ops_arg1 (V : Valuation τ sig (Elt F)) :
    after ops V (Proc.devRef .tc main_arg1) = V (Proc.devRef .tc main_arg1) := by
  rw [after_ops]
  simp (disch := decide) only [opsAng_keep, opsRxCols_keep, opsRxFold_keep, opsRyCols_keep, opsRyFold_keep, opsRzCols_keep, opsRzFold_keep, opsRyRx_keep, opsR_keep, opsRow0Cols_keep, opsRow0_keep, opsRow1Cols_keep, opsRow1_keep, opsRow2Cols_keep, opsRow2_keep, opsSlabs_keep, opsM_keep, opsStart00_keep, opsWithM_keep, opsTn_keep, opsStart03_keep, opsOut_keep]
theorem after_ops_arg2 (V : Valuation τ sig (Elt F)) :
    after ops V (Proc.devRef .tc main_arg2) = V (Proc.devRef .tc main_arg2) := by
  rw [after_ops]
  simp (disch := decide) only [opsAng_keep, opsRxCols_keep, opsRxFold_keep, opsRyCols_keep, opsRyFold_keep, opsRzCols_keep, opsRzFold_keep, opsRyRx_keep, opsR_keep, opsRow0Cols_keep, opsRow0_keep, opsRow1Cols_keep, opsRow1_keep, opsRow2Cols_keep, opsRow2_keep, opsSlabs_keep, opsM_keep, opsStart00_keep, opsWithM_keep, opsTn_keep, opsStart03_keep, opsOut_keep]

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = Stages.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v107).trans (after_ops_v107 (launchContents m c)),
      (h c main_arg0).trans (after_ops_arg0 (launchContents m c)),
      (h c main_arg1).trans (after_ops_arg1 (launchContents m c)),
      (h c main_arg2).trans (after_ops_arg2 (launchContents m c))⟩)
    (run_seq scopedRefs_eq scopedSems_eq defs main (fun _ => ops) main_eq (fun _ => ops_sub) m ρ (fun _ => ops_fresh))

end Cert.ReferenceIdeal.RefRun

end
-- ==== Proof.LibScatter.lean ====
/-
  A host scatter whose combiner keeps the update (`x.at[…].set(v)`), read at one index of the result.

  The scatter is a left fold over the update indices, each step overwriting the one result index its update lands at.
  So an index no update lands at keeps the operand's value, and an index exactly one update lands at holds that update.
-/
import Idealize.ShloMosaic.PureOps.ShapeOps

noncomputable section

namespace Cert.LibScatter

open Idealize.ShloMosaic

variable {s si u : Shape} {α : Type} {w : Nat}

section Fold

variable {ι κ : Type} [DecidableEq ι]

/-- One step of an overwriting fold: the key `n` lands at `g n` (or nowhere) and writes `v n` there. -/
def step (g : κ → Option ι) (v : κ → α) (r : ι → α) (n : κ) : ι → α :=
  match g n with
  | some i => fun i' => if i' = i then v n else r i'
  | none => r

/-- A key that does not land at `i` leaves the value at `i` alone. -/
theorem step_of_ne (g : κ → Option ι) (v : κ → α) (r : ι → α) (n : κ) (i : ι) (h : g n ≠ some i) :
    step g v r n i = r i := by
  unfold step
  cases hg : g n with
  | none => rfl
  | some i0 =>
    have hne : i ≠ i0 := fun e => h (by rw [hg, e])
    simp [hne]

/-- A key that lands at `i` writes its value there. -/
theorem step_of_eq (g : κ → Option ι) (v : κ → α) (r : ι → α) (n : κ) (i : ι) (h : g n = some i) :
    step g v r n i = v n := by
  unfold step
  rw [h]
  simp

/-- If no key of the list lands at `i`, the fold leaves the value at `i` alone. -/
theorem foldl_step_of_miss (g : κ → Option ι) (v : κ → α) (i : ι) (L : List κ) (r : ι → α)
    (h : ∀ n ∈ L, g n ≠ some i) : L.foldl (step g v) r i = r i := by
  induction L generalizing r with
  | nil => rfl
  | cons n L ih =>
    rw [List.foldl_cons, ih _ (fun m hm => h m (List.mem_cons_of_mem _ hm)),
      step_of_ne g v r n i (h n List.mem_cons_self)]

/-- If `n0` is in the list and lands at `i`, and it is the only key of the list that does, the fold leaves
    `n0`'s value at `i`: the keys before `n0` are overwritten by it or miss `i`, the keys after it miss `i`. -/
theorem foldl_step_of_hit (g : κ → Option ι) (v : κ → α) (i : ι) (n0 : κ) (L : List κ) (r : ι → α)
    (hmem : n0 ∈ L) (hn0 : g n0 = some i) (huniq : ∀ n ∈ L, g n = some i → n = n0) :
    L.foldl (step g v) r i = v n0 := by
  induction L generalizing r with
  | nil => cases hmem
  | cons n L ih =>
    rw [List.foldl_cons]
    by_cases hL : n0 ∈ L
    · exact ih _ hL (fun m hm => huniq m (List.mem_cons_of_mem _ hm))
    · -- `n0` is the head, and no key of the tail lands at `i` (it would be `n0`, which is not in the tail)
      have hn : n0 = n := by
        rcases List.mem_cons.mp hmem with e | e
        · exact e
        · exact absurd e hL
      subst hn
      rw [foldl_step_of_miss g v i L _
          (fun m hm hgm => hL (huniq m (List.mem_cons_of_mem _ hm) hgm ▸ hm)),
        step_of_eq g v r n0 i hn0]

end Fold

/-- The scatter that keeps the update is the overwriting fold over the update indices in row-major order. -/
theorem scatter_set_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  beta_reduce
  cases d.resultIdx? (u.rowMajor.symm n) idx <;> rfl

/-- An index that no update lands at keeps the operand's value. -/
theorem scatter_set_of_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_step_of_miss _ _ i _ x (fun n _ => h (u.rowMajor.symm n))

/-- An index that exactly one update lands at holds that update. -/
theorem scatter_set_of_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_set_eq_foldl]
  have hsymm : u.rowMajor.symm (u.rowMajor j) = j := Equiv.symm_apply_apply _ j
  have key := foldl_step_of_hit (fun n => d.resultIdx? (u.rowMajor.symm n) idx) (fun n => upd (u.rowMajor.symm n))
    i (u.rowMajor j) (List.finRange u.numel) x (List.mem_finRange _)
    (by show d.resultIdx? (u.rowMajor.symm (u.rowMajor j)) idx = some i; rw [hsymm]; exact hj)
    (fun n _ hn => by
      have e := huniq (u.rowMajor.symm n) hn
      rw [← e, Equiv.apply_symm_apply])
  rw [key]
  show upd (u.rowMajor.symm (u.rowMajor j)) = upd j
  rw [hsymm]

end Cert.LibScatter

end
-- ==== Proof.RefScatter.lean ====
/-
  The reference's two writes read at an index: the rotation block lands on rows and columns 0..2, the translation
  on rows 0..2 of column 3, and row 3 keeps the pose array's own values.
-/
import proofs.«132078_j45844480918144_1_alg».proof.Proof.RefStages
import proofs.«132078_j45844480918144_1_alg».proof.Proof.LibScatter
import Idealize.ShloMosaic.Lib.ValueIdx

noncomputable section

namespace Cert.ReferenceIdeal.RefRead

open Cert.ReferenceIdeal Cert.ReferenceIdeal.Gen Cert.ReferenceIdeal.Stages Idealize.ShloMosaic Idealize.ShloMosaic.ValueIdx

variable {F : FTy → Type} [FloatOps F]

local notation "dM" => scatter_S2000000x4x4_S2_S2000000x3x3_012_n_12_0
local notation "dT" => scatter_S2000000x4x4_S2_S2000000x3_01_2_12_0

/-- The rotation block's entry `(n, a, b)` lands at `(n, a, b)` of the pose array: the start is `(0, 0, 0)` and the
    window coordinate is the entry's own index, which is inside the array on every axis. -/
theorem scatM_resultIdx (n : Fin 2000000) (a b : Fin 3) :
    ScatterDims.resultIdx? dM (ix3 n a b) (start00 (F := F))
      = some (ix3 n (⟨a.val, Nat.lt_of_lt_of_le a.isLt (by decide)⟩ : Fin 4) (⟨b.val, Nat.lt_of_lt_of_le b.isLt (by decide)⟩ : Fin 4)) := by
  have hn := n.isLt
  have ha := a.isLt
  have hb := b.isLt
  have h : ∀ ax, 0 ≤ ScatterDims.start dM (ix3 n a b) (start00 (F := F)) ax + ScatterDims.window dM (ix3 n a b) ax
      ∧ ScatterDims.start dM (ix3 n a b) (start00 (F := F)) ax + ScatterDims.window dM (ix3 n a b) ax < S2000000x4x4.size ax := by
    intro ax
    match ax with
    | ⟨0, _⟩ =>
      show (0 : Int) ≤ (0 : Int) + ((n.val : Nat) : Int) ∧ (0 : Int) + ((n.val : Nat) : Int) < ((2000000 : Nat) : Int)
      omega
    | ⟨1, _⟩ =>
      show (0 : Int) ≤ (0 : Int) + ((a.val : Nat) : Int) ∧ (0 : Int) + ((a.val : Nat) : Int) < ((4 : Nat) : Int)
      omega
    | ⟨2, _⟩ =>
      show (0 : Int) ≤ (0 : Int) + ((b.val : Nat) : Int) ∧ (0 : Int) + ((b.val : Nat) : Int) < ((4 : Nat) : Int)
      omega
  unfold ScatterDims.resultIdx?
  rw [dif_pos h]
  congr 1
  funext ax
  match ax with
  | ⟨0, _⟩ => exact Fin.ext (show ((0 : Int) + ((n.val : Nat) : Int)).toNat = n.val by omega)
  | ⟨1, _⟩ => exact Fin.ext (show ((0 : Int) + ((a.val : Nat) : Int)).toNat = a.val by omega)
  | ⟨2, _⟩ => exact Fin.ext (show ((0 : Int) + ((b.val : Nat) : Int)).toNat = b.val by omega)

/-- The translation's entry `(n, a)` lands at `(n, a, 3)` of the pose array: the start is `(0, 0, 3)`, the window
    coordinate `(n, a, 0)`. -/
theorem scatT_resultIdx (n : Fin 2000000) (a : Fin 3) :
    ScatterDims.resultIdx? dT (ix2 n a) (start03 (F := F))
      = some (ix3 n (⟨a.val, Nat.lt_of_lt_of_le a.isLt (by decide)⟩ : Fin 4) (3 : Fin 4)) := by
  have hn := n.isLt
  have ha := a.isLt
  have h : ∀ ax, 0 ≤ ScatterDims.start dT (ix2 n a) (start03 (F := F)) ax + ScatterDims.window dT (ix2 n a) ax
      ∧ ScatterDims.start dT (ix2 n a) (start03 (F := F)) ax + ScatterDims.window dT (ix2 n a) ax < S2000000x4x4.size ax := by
    intro ax
    match ax with
    | ⟨0, _⟩ =>
      show (0 : Int) ≤ (0 : Int) + ((n.val : Nat) : Int) ∧ (0 : Int) + ((n.val : Nat) : Int) < ((2000000 : Nat) : Int)
      omega
    | ⟨1, _⟩ =>
      show (0 : Int) ≤ (0 : Int) + ((a.val : Nat) : Int) ∧ (0 : Int) + ((a.val : Nat) : Int) < ((4 : Nat) : Int)
      omega
    | ⟨2, _⟩ =>
      show (0 : Int) ≤ (3 : Int) + ((0 : Nat) : Int) ∧ (3 : Int) + ((0 : Nat) : Int) < ((4 : Nat) : Int)
      omega
  unfold ScatterDims.resultIdx?
  rw [dif_pos h]
  congr 1
  funext ax
  match ax with
  | ⟨0, _⟩ => exact Fin.ext (show ((0 : Int) + ((n.val : Nat) : Int)).toNat = n.val by omega)
  | ⟨1, _⟩ => exact Fin.ext (show ((0 : Int) + ((a.val : Nat) : Int)).toNat = a.val by omega)
  | ⟨2, _⟩ => exact Fin.ext (show ((3 : Int) + ((0 : Nat) : Int)).toNat = 3 by omega)

/-- An entry of the rotation block that lands at `(n, a, b)` is the entry `(n, a, b)`: so `a, b < 3`. -/
theorem scatM_of_lands (j : S2000000x3x3.Idx) (n : Fin 2000000) (a b : Fin 4)
    (h : ScatterDims.resultIdx? dM j (start00 (F := F)) = some (ix3 n a b)) :
    ∃ (h1 : a.val < 3) (h2 : b.val < 3), j = ix3 n (⟨a.val, h1⟩ : Fin 3) (⟨b.val, h2⟩ : Fin 3) := by
  obtain ⟨n', a', b', rfl⟩ : ∃ (n' : Fin 2000000) (a' b' : Fin 3), j = ix3 n' a' b' := ⟨j 0, j 1, j 2, eq_ix3 j⟩
  rw [scatM_resultIdx] at h
  have e := Option.some.inj h
  have e0 : n' = n := congrFun e (0 : Fin 3)
  have e1 : a'.val = a.val := congrArg Fin.val (congrFun e (1 : Fin 3))
  have e2 : b'.val = b.val := congrArg Fin.val (congrFun e (2 : Fin 3))
  have h1 : a.val < 3 := e1 ▸ a'.isLt
  have h2 : b.val < 3 := e2 ▸ b'.isLt
  refine ⟨h1, h2, ?_⟩
  have ea : a' = (⟨a.val, h1⟩ : Fin 3) := Fin.ext e1
  have eb : b' = (⟨b.val, h2⟩ : Fin 3) := Fin.ext e2
  rw [e0, ea, eb]

/-- An entry of the translation that lands at `(n, a, b)` is the entry `(n, a)`: so `a < 3` and `b = 3`. -/
theorem scatT_of_lands (j : S2000000x3.Idx) (n : Fin 2000000) (a b : Fin 4)
    (h : ScatterDims.resultIdx? dT j (start03 (F := F)) = some (ix3 n a b)) :
    ∃ (h1 : a.val < 3), b.val = 3 ∧ j = ix2 n (⟨a.val, h1⟩ : Fin 3) := by
  obtain ⟨n', a', rfl⟩ : ∃ (n' : Fin 2000000) (a' : Fin 3), j = ix2 n' a' := ⟨j 0, j 1, eq_ix2 j⟩
  rw [scatT_resultIdx] at h
  have e := Option.some.inj h
  have e0 : n' = n := congrFun e (0 : Fin 3)
  have e1 : a'.val = a.val := congrArg Fin.val (congrFun e (1 : Fin 3))
  have e2 : 3 = b.val := congrArg Fin.val (congrFun e (2 : Fin 3))
  have h1 : a.val < 3 := e1 ▸ a'.isLt
  refine ⟨h1, e2.symm, ?_⟩
  have ea : a' = (⟨a.val, h1⟩ : Fin 3) := Fin.ext e1
  rw [e0, ea]

theorem refOut_apply (r t : CN3 F) (c : CN44 F) (n : Fin 2000000) (a b : Fin 4) :
    refOut r t c (ix3 n a b) =
      if h1 : a.val < 3 then
        if h2 : b.val < 3 then M r (ix3 n (⟨a.val, h1⟩ : Fin 3) (⟨b.val, h2⟩ : Fin 3))
        else tn t (ix2 n (⟨a.val, h1⟩ : Fin 3))
      else c (ix3 n a b) := by
  by_cases h1 : a.val < 3
  · by_cases h2 : b.val < 3
    · -- inside the 3×3 block: the translation misses it, the rotation entry `(n, a, b)` alone lands on it
      rw [dif_pos h1, dif_pos h2]
      refine (LibScatter.scatter_set_of_miss dT (withM r c) (start03 (F := F)) (tn t) (ix3 n a b) ?_).trans
        (LibScatter.scatter_set_of_hit dM c (start00 (F := F)) (M r) (ix3 n a b)
          (ix3 n (⟨a.val, h1⟩ : Fin 3) (⟨b.val, h2⟩ : Fin 3)) (scatM_resultIdx n ⟨a.val, h1⟩ ⟨b.val, h2⟩) ?_)
      · intro j hj
        obtain ⟨_, hb, _⟩ := scatT_of_lands j n a b hj
        omega
      · intro j' hj'
        obtain ⟨_, _, e⟩ := scatM_of_lands j' n a b hj'
        exact e
    · -- column 3 of rows 0..2: the translation entry `(n, a)` alone lands on it
      rw [dif_pos h1, dif_neg h2]
      have hb : b = (3 : Fin 4) := Fin.ext (show b.val = 3 by have := b.isLt; omega)
      subst hb
      refine LibScatter.scatter_set_of_hit dT (withM r c) (start03 (F := F)) (tn t) (ix3 n a 3)
        (ix2 n (⟨a.val, h1⟩ : Fin 3)) (scatT_resultIdx n ⟨a.val, h1⟩) ?_
      intro j' hj'
      obtain ⟨_, _, e⟩ := scatT_of_lands j' n a 3 hj'
      exact e
  · -- row 3: neither write lands on it
    rw [dif_neg h1]
    refine (LibScatter.scatter_set_of_miss dT (withM r c) (start03 (F := F)) (tn t) (ix3 n a b) ?_).trans
      (LibScatter.scatter_set_of_miss dM c (start00 (F := F)) (M r) (ix3 n a b) ?_)
    · intro j hj
      obtain ⟨h, _, _⟩ := scatT_of_lands j n a b hj
      exact h1 h
    · intro j hj
      obtain ⟨h, _, _⟩ := scatM_of_lands j n a b hj
      exact h1 h

end Cert.ReferenceIdeal.RefRead

end
-- ==== Proof.RefLayout.lean ====
/-
  The reference's layout steps and its two contractions read at an index.

  Every layout step of the reference moves one number per camera around: a column of the angle array, a column laid
  beside others, a 3×3 fold of nine columns, one entry cut out of a 3×3 matrix. Read at camera `n` each is the number
  it moved. The two contractions are sums of three products.
-/
import proofs.«132078_j45844480918144_1_alg».proof.Proof.RefStages
import proofs.«132078_j45844480918144_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefRead

open Cert.ReferenceIdeal Cert.ReferenceIdeal.Gen Cert.ReferenceIdeal.Stages Idealize.ShloMosaic Idealize.ShloMosaic.ValueIdx

/-! ## The layout steps, for any values -/

section Layout

variable {F : FTy → Type} [FloatOps F]

/-- A per-camera number laid as a column reads that number. -/
theorem col_apply (x : CN F) (n : Fin 2000000) (z : Fin 1) : col x (ix2 n z) = x (ix1 n) := by
  unfold col
  refine broadcastInDim_apply _ _ x _ (ix1 n) (fun a => ?_)
  match a with
  | ⟨0, _⟩ => exact (if_neg (by decide +revert)).symm

/-- Column `k` of the angle array. -/
theorem ang0_apply (r : CN3 F) (n : Fin 2000000) : ang0 r (ix1 n) = r (ix2 n (0 : Fin 3)) := by
  unfold ang0
  rw [shapeCast_apply _ _ (ix1 n) (ix2 n (0 : Fin 1)) (by rw [Shape.rowMajor_val_two, Shape.rowMajor_val_one]; simp)]
  exact extractStridedSlice_apply _ r _ _ (ix2 n (0 : Fin 3)) (fun a => by match a with | ⟨0, _⟩ => simp | ⟨1, _⟩ => simp)
theorem ang1_apply (r : CN3 F) (n : Fin 2000000) : ang1 r (ix1 n) = r (ix2 n (1 : Fin 3)) := by
  unfold ang1
  rw [shapeCast_apply _ _ (ix1 n) (ix2 n (0 : Fin 1)) (by rw [Shape.rowMajor_val_two, Shape.rowMajor_val_one]; simp)]
  exact extractStridedSlice_apply _ r _ _ (ix2 n (1 : Fin 3)) (fun a => by match a with | ⟨0, _⟩ => simp | ⟨1, _⟩ => simp)
theorem ang2_apply (r : CN3 F) (n : Fin 2000000) : ang2 r (ix1 n) = r (ix2 n (2 : Fin 3)) := by
  unfold ang2
  rw [shapeCast_apply _ _ (ix1 n) (ix2 n (0 : Fin 1)) (by rw [Shape.rowMajor_val_two, Shape.rowMajor_val_one]; simp)]
  exact extractStridedSlice_apply _ r _ _ (ix2 n (2 : Fin 3)) (fun a => by match a with | ⟨0, _⟩ => simp | ⟨1, _⟩ => simp)

/-- The constant columns. -/
theorem ones_apply (n : Fin 2000000) : (ones (F := F)) (ix1 n) = FloatOps.ofBits .f32 0x3F800000#32 := rfl
theorem zeros_apply (n : Fin 2000000) : (zeros (F := F)) (ix1 n) = FloatOps.ofBits .f32 0x00000000#32 := rfl

/-- Three columns side by side: column `k` reads the `k`-th number. -/
theorem row3_apply (a b c : CN F) (n : Fin 2000000) (k : Fin 3) : row3 a b c (ix2 n k) = (![a, b, c] k) (ix1 n) := by
  unfold row3
  have h := concatenate_ofFn_unit_apply (t := S2000000x3) (s₁ := S2000000x1) (1 : Fin 2) (fun q : Fin 3 => col (![a, b, c] q))
    concatenates_S2000000x1_S2000000x1_S2000000x1_S2000000x3_d1 rfl rfl (ix2 n k) k rfl (ix2 n (0 : Fin 1))
    (fun d hd => by match d with | ⟨0, _⟩ => rfl | ⟨1, _⟩ => exact absurd rfl hd)
  exact h.trans (col_apply _ n 0)

/-- A row of three as a 1×3 slab reads the row. -/
theorem slab_apply (x : CN3 F) (n : Fin 2000000) (z : Fin 1) (b : Fin 3) : slab x (ix3 n z b) = x (ix2 n b) := by
  unfold slab
  refine broadcastInDim_apply _ _ x _ (ix2 n b) (fun a => ?_)
  match a with
  | ⟨0, _⟩ => exact (if_neg (by decide +revert)).symm
  | ⟨1, _⟩ => exact (if_neg (by decide +revert)).symm

/-- One entry cut out of a 3×3 matrix per camera reads that entry. -/
theorem ent_apply (off : Fin 3 → Nat) (X : CN33 F) (h : S2000000x3x3.Slices off S2000000x1x1) (n : Fin 2000000) (i l : Fin 3)
    (h0 : off 0 = 0) (h1 : off 1 = i.val) (h2 : off 2 = l.val) : ent off X h (ix1 n) = X (ix3 n i l) := by
  unfold ent
  rw [shapeCast_apply _ _ (ix1 n) (ix3 n (0 : Fin 1) (0 : Fin 1)) (by rw [Shape.rowMajor_val_three, Shape.rowMajor_val_one]; simp)]
  exact extractStridedSlice_apply off X h (ix3 n (0 : Fin 1) (0 : Fin 1)) (ix3 n i l) (fun a => by
    match a with
    | ⟨0, _⟩ => simp [h0]
    | ⟨1, _⟩ => simp [h1]
    | ⟨2, _⟩ => simp [h2])

/-- Nine columns folded to 3×3, row-major: entry `(i, j)` reads the `(3i+j)`-th number. -/
theorem mat9_apply (a0 a1 a2 a3 a4 a5 a6 a7 a8 : CN F) (n : Fin 2000000) (i j : Fin 3) :
    mat9 a0 a1 a2 a3 a4 a5 a6 a7 a8 (ix3 n i j) = (![a0, a1, a2, a3, a4, a5, a6, a7, a8] ⟨3 * i.val + j.val, by omega⟩) (ix1 n) := by
  unfold mat9
  rw [shapeCast_apply _ _ (ix3 n i j) (ix2 n (⟨3 * i.val + j.val, by omega⟩ : Fin 9)) (by
    rw [Shape.rowMajor_val_three, Shape.rowMajor_val_two]; simp; ring)]
  have h := concatenate_ofFn_unit_apply (t := S2000000x9) (s₁ := S2000000x1) (1 : Fin 2)
    (fun q : Fin 9 => col (![a0, a1, a2, a3, a4, a5, a6, a7, a8] q))
    concatenates_S2000000x1_S2000000x1_S2000000x1_S2000000x1_S2000000x1_S2000000x1_S2000000x1_S2000000x1_S2000000x1_S2000000x9_d1
    rfl rfl (ix2 n (⟨3 * i.val + j.val, by omega⟩ : Fin 9)) ⟨3 * i.val + j.val, by omega⟩ rfl (ix2 n (0 : Fin 1))
    (fun d hd => by match d with | ⟨0, _⟩ => rfl | ⟨1, _⟩ => exact absurd rfl hd)
  exact h.trans (col_apply _ n 0)

/-- Entry `(i, j)` of nine numbers read row-major. -/
def sel9 {β : Type} (a0 a1 a2 a3 a4 a5 a6 a7 a8 : β) : Fin 3 → Fin 3 → β
  | 0, 0 => a0 | 0, 1 => a1 | 0, 2 => a2
  | 1, 0 => a3 | 1, 1 => a4 | 1, 2 => a5
  | 2, 0 => a6 | 2, 1 => a7 | 2, 2 => a8

theorem mat9_sel (a0 a1 a2 a3 a4 a5 a6 a7 a8 : CN F) (n : Fin 2000000) (i j : Fin 3) :
    mat9 a0 a1 a2 a3 a4 a5 a6 a7 a8 (ix3 n i j) = (sel9 a0 a1 a2 a3 a4 a5 a6 a7 a8 i j) (ix1 n) := by
  rw [mat9_apply]
  match i, j with
  | 0, 0 => rfl | 0, 1 => rfl | 0, 2 => rfl
  | 1, 0 => rfl | 1, 1 => rfl | 1, 2 => rfl
  | 2, 0 => rfl | 2, 1 => rfl | 2, 2 => rfl

/-- The sign-and-transpose fix-up of a 3×3 matrix given by its entries. -/
def Msel (ρ : Fin 3 → Fin 3 → F .f32) : Fin 3 → Fin 3 → F .f32
  | 0, 0 => ρ 0 0 | 0, 1 => FloatOps.hostNegf (ρ 1 0) | 0, 2 => ρ 2 0
  | 1, 0 => FloatOps.hostNegf (ρ 0 1) | 1, 1 => ρ 1 1 | 1, 2 => FloatOps.hostNegf (ρ 2 1)
  | 2, 0 => FloatOps.hostNegf (ρ 0 2) | 2, 1 => FloatOps.hostNegf (ρ 1 2) | 2, 2 => ρ 2 2

/-- The fixed-up rotation read at an entry: the product's entry the fix-up names, negated where it says. -/
theorem M_sel (r : CN3 F) (n : Fin 2000000) (a b : Fin 3) :
    M r (ix3 n a b) = Msel (fun i l => R r (ix3 n i l)) a b := by
  unfold Stages.M
  have h := concatenate_ofFn_unit_apply (t := S2000000x3x3) (s₁ := S2000000x1x3) (1 : Fin 3)
    (fun k : Fin 3 => slab ((![row3 (ent ![0, 0, 0] (R r) slices_S2000000x3x3_S2000000x1x1_0_0_0) (Host.negf (ent ![0, 1, 0] (R r) slices_S2000000x3x3_S2000000x1x1_0_1_0)) (ent ![0, 2, 0] (R r) slices_S2000000x3x3_S2000000x1x1_0_2_0),
      row3 (Host.negf (ent ![0, 0, 1] (R r) slices_S2000000x3x3_S2000000x1x1_0_0_1)) (ent ![0, 1, 1] (R r) slices_S2000000x3x3_S2000000x1x1_0_1_1) (Host.negf (ent ![0, 2, 1] (R r) slices_S2000000x3x3_S2000000x1x1_0_2_1)),
      row3 (Host.negf (ent ![0, 0, 2] (R r) slices_S2000000x3x3_S2000000x1x1_0_0_2)) (Host.negf (ent ![0, 1, 2] (R r) slices_S2000000x3x3_S2000000x1x1_0_1_2)) (ent ![0, 2, 2] (R r) slices_S2000000x3x3_S2000000x1x1_0_2_2)] : Fin 3 → CN3 F) k))
    concatenates_S2000000x1x3_S2000000x1x3_S2000000x1x3_S2000000x3x3_d1 rfl rfl (ix3 n a b) a rfl (ix3 n (0 : Fin 1) b)
    (fun d hd => by match d with | ⟨0, _⟩ => rfl | ⟨1, _⟩ => exact absurd rfl hd | ⟨2, _⟩ => rfl)
  refine h.trans ?_
  rw [slab_apply]
  have e00 := ent_apply ![0, 0, 0] (R r) slices_S2000000x3x3_S2000000x1x1_0_0_0 n 0 0 rfl rfl rfl
  have e10 := ent_apply ![0, 1, 0] (R r) slices_S2000000x3x3_S2000000x1x1_0_1_0 n 1 0 rfl rfl rfl
  have e20 := ent_apply ![0, 2, 0] (R r) slices_S2000000x3x3_S2000000x1x1_0_2_0 n 2 0 rfl rfl rfl
  have e01 := ent_apply ![0, 0, 1] (R r) slices_S2000000x3x3_S2000000x1x1_0_0_1 n 0 1 rfl rfl rfl
  have e11 := ent_apply ![0, 1, 1] (R r) slices_S2000000x3x3_S2000000x1x1_0_1_1 n 1 1 rfl rfl rfl
  have e21 := ent_apply ![0, 2, 1] (R r) slices_S2000000x3x3_S2000000x1x1_0_2_1 n 2 1 rfl rfl rfl
  have e02 := ent_apply ![0, 0, 2] (R r) slices_S2000000x3x3_S2000000x1x1_0_0_2 n 0 2 rfl rfl rfl
  have e12 := ent_apply ![0, 1, 2] (R r) slices_S2000000x3x3_S2000000x1x1_0_1_2 n 1 2 rfl rfl rfl
  have e22 := ent_apply ![0, 2, 2] (R r) slices_S2000000x3x3_S2000000x1x1_0_2_2 n 2 2 rfl rfl rfl
  match a, b with
  | 0, 0 => exact (row3_apply _ _ _ n 0).trans e00
  | 0, 1 => exact (row3_apply _ _ _ n 1).trans (congrArg FloatOps.hostNegf e10)
  | 0, 2 => exact (row3_apply _ _ _ n 2).trans e20
  | 1, 0 => exact (row3_apply _ _ _ n 0).trans (congrArg FloatOps.hostNegf e01)
  | 1, 1 => exact (row3_apply _ _ _ n 1).trans e11
  | 1, 2 => exact (row3_apply _ _ _ n 2).trans (congrArg FloatOps.hostNegf e21)
  | 2, 0 => exact (row3_apply _ _ _ n 0).trans (congrArg FloatOps.hostNegf e02)
  | 2, 1 => exact (row3_apply _ _ _ n 1).trans (congrArg FloatOps.hostNegf e12)
  | 2, 2 => exact (row3_apply _ _ _ n 2).trans e22

end Layout

/-! ## The two contractions, at the extended reals

In both, axis 0 is the camera, carried through; one axis of each operand is summed over; the left operand's free axis
comes before the right's in the result. -/

theorem lhsA_0 (i : S2000000x3x3.Idx) (q : dot_S2000000x3x3_S2000000x3x3_S2000000x3x3_1_2_2_1_0_0.contr.Idx) :
    (dot_S2000000x3x3_S2000000x3x3_S2000000x3x3_1_2_2_1_0_0.lhsIdx i q 0).val = (i 0).val := by
  unfold DotDims.lhsIdx
  rw [dif_pos (show (0 : Fin S2000000x3x3.rank) ∈ dot_S2000000x3x3_S2000000x3x3_S2000000x3x3_1_2_2_1_0_0.lhsBatch by decide)]
  rfl
theorem lhsA_1 (i : S2000000x3x3.Idx) (q : dot_S2000000x3x3_S2000000x3x3_S2000000x3x3_1_2_2_1_0_0.contr.Idx) :
    (dot_S2000000x3x3_S2000000x3x3_S2000000x3x3_1_2_2_1_0_0.lhsIdx i q 1).val = (q ⟨0, by decide⟩).val :=
  dot_S2000000x3x3_S2000000x3x3_S2000000x3x3_1_2_2_1_0_0.lhsIdx_val_of_single rfl i q
theorem lhsA_2 (i : S2000000x3x3.Idx) (q : dot_S2000000x3x3_S2000000x3x3_S2000000x3x3_1_2_2_1_0_0.contr.Idx) :
    (dot_S2000000x3x3_S2000000x3x3_S2000000x3x3_1_2_2_1_0_0.lhsIdx i q 2).val = (i 1).val := by
  unfold DotDims.lhsIdx
  rw [dif_neg (show ¬(2 : Fin S2000000x3x3.rank) ∈ dot_S2000000x3x3_S2000000x3x3_S2000000x3x3_1_2_2_1_0_0.lhsBatch by decide), dif_pos (show (2 : Fin S2000000x3x3.rank) ∈ dot_S2000000x3x3_S2000000x3x3_S2000000x3x3_1_2_2_1_0_0.lhsNonContracting by decide)]
  rfl
theorem rhsA_0 (i : S2000000x3x3.Idx) (q : dot_S2000000x3x3_S2000000x3x3_S2000000x3x3_1_2_2_1_0_0.contr.Idx) :
    (dot_S2000000x3x3_S2000000x3x3_S2000000x3x3_1_2_2_1_0_0.rhsIdx i q 0).val = (i 0).val := by
  unfold DotDims.rhsIdx
  rw [dif_pos (show (0 : Fin S2000000x3x3.rank) ∈ dot_S2000000x3x3_S2000000x3x3_S2000000x3x3_1_2_2_1_0_0.rhsBatch by decide)]
  rfl
theorem rhsA_1 (i : S2000000x3x3.Idx) (q : dot_S2000000x3x3_S2000000x3x3_S2000000x3x3_1_2_2_1_0_0.contr.Idx) :
    (dot_S2000000x3x3_S2000000x3x3_S2000000x3x3_1_2_2_1_0_0.rhsIdx i q 1).val = (i 2).val := by
  unfold DotDims.rhsIdx
  rw [dif_neg (show ¬(1 : Fin S2000000x3x3.rank) ∈ dot_S2000000x3x3_S2000000x3x3_S2000000x3x3_1_2_2_1_0_0.rhsBatch by decide), dif_pos (show (1 : Fin S2000000x3x3.rank) ∈ dot_S2000000x3x3_S2000000x3x3_S2000000x3x3_1_2_2_1_0_0.rhsNonContracting by decide)]
  rfl
theorem rhsA_2 (i : S2000000x3x3.Idx) (q : dot_S2000000x3x3_S2000000x3x3_S2000000x3x3_1_2_2_1_0_0.contr.Idx) :
    (dot_S2000000x3x3_S2000000x3x3_S2000000x3x3_1_2_2_1_0_0.rhsIdx i q 2).val = (q ⟨0, by decide⟩).val :=
  dot_S2000000x3x3_S2000000x3x3_S2000000x3x3_1_2_2_1_0_0.rhsIdx_val_of_single rfl i q
theorem lhsB_0 (i : S2000000x3x3.Idx) (q : dot_S2000000x3x3_S2000000x3x3_S2000000x3x3_1_1_2_2_0_0.contr.Idx) :
    (dot_S2000000x3x3_S2000000x3x3_S2000000x3x3_1_1_2_2_0_0.lhsIdx i q 0).val = (i 0).val := by
  unfold DotDims.lhsIdx
  rw [dif_pos (show (0 : Fin S2000000x3x3.rank) ∈ dot_S2000000x3x3_S2000000x3x3_S2000000x3x3_1_1_2_2_0_0.lhsBatch by decide)]
  rfl
theorem lhsB_1 (i : S2000000x3x3.Idx) (q : dot_S2000000x3x3_S2000000x3x3_S2000000x3x3_1_1_2_2_0_0.contr.Idx) :
    (dot_S2000000x3x3_S2000000x3x3_S2000000x3x3_1_1_2_2_0_0.lhsIdx i q 1).val = (q ⟨0, by decide⟩).val :=
  dot_S2000000x3x3_S2000000x3x3_S2000000x3x3_1_1_2_2_0_0.lhsIdx_val_of_single rfl i q
theorem lhsB_2 (i : S2000000x3x3.Idx) (q : dot_S2000000x3x3_S2000000x3x3_S2000000x3x3_1_1_2_2_0_0.contr.Idx) :
    (dot_S2000000x3x3_S2000000x3x3_S2000000x3x3_1_1_2_2_0_0.lhsIdx i q 2).val = (i 1).val := by
  unfold DotDims.lhsIdx
  rw [dif_neg (show ¬(2 : Fin S2000000x3x3.rank) ∈ dot_S2000000x3x3_S2000000x3x3_S2000000x3x3_1_1_2_2_0_0.lhsBatch by decide), dif_pos (show (2 : Fin S2000000x3x3.rank) ∈ dot_S2000000x3x3_S2000000x3x3_S2000000x3x3_1_1_2_2_0_0.lhsNonContracting by decide)]
  rfl
theorem rhsB_0 (i : S2000000x3x3.Idx) (q : dot_S2000000x3x3_S2000000x3x3_S2000000x3x3_1_1_2_2_0_0.contr.Idx) :
    (dot_S2000000x3x3_S2000000x3x3_S2000000x3x3_1_1_2_2_0_0.rhsIdx i q 0).val = (i 0).val := by
  unfold DotDims.rhsIdx
  rw [dif_pos (show (0 : Fin S2000000x3x3.rank) ∈ dot_S2000000x3x3_S2000000x3x3_S2000000x3x3_1_1_2_2_0_0.rhsBatch by decide)]
  rfl
theorem rhsB_1 (i : S2000000x3x3.Idx) (q : dot_S2000000x3x3_S2000000x3x3_S2000000x3x3_1_1_2_2_0_0.contr.Idx) :
    (dot_S2000000x3x3_S2000000x3x3_S2000000x3x3_1_1_2_2_0_0.rhsIdx i q 1).val = (q ⟨0, by decide⟩).val :=
  dot_S2000000x3x3_S2000000x3x3_S2000000x3x3_1_1_2_2_0_0.rhsIdx_val_of_single rfl i q
theorem rhsB_2 (i : S2000000x3x3.Idx) (q : dot_S2000000x3x3_S2000000x3x3_S2000000x3x3_1_1_2_2_0_0.contr.Idx) :
    (dot_S2000000x3x3_S2000000x3x3_S2000000x3x3_1_1_2_2_0_0.rhsIdx i q 2).val = (i 2).val := by
  unfold DotDims.rhsIdx
  rw [dif_neg (show ¬(2 : Fin S2000000x3x3.rank) ∈ dot_S2000000x3x3_S2000000x3x3_S2000000x3x3_1_1_2_2_0_0.rhsBatch by decide), dif_pos (show (2 : Fin S2000000x3x3.rank) ∈ dot_S2000000x3x3_S2000000x3x3_S2000000x3x3_1_1_2_2_0_0.rhsNonContracting by decide)]
  rfl

/-- The first contraction sums the left operand's rows against the right operand's columns:
    entry `(k, i)` is `∑ q, X[q, k] · Y[i, q]`. -/
theorem dotA_apply (X Y : FVec Ideal S2000000x3x3 .f32) (n : Fin 2000000) (k i : Fin 3) :
    Host.dotGeneral (F := Ideal) (φ₁ := .f32) (φ₂ := .f32) dot_S2000000x3x3_S2000000x3x3_S2000000x3x3_1_2_2_1_0_0 none X Y (ix3 n k i) = ∑ q : Fin 3, X (ix3 n q k) * Y (ix3 n i q) := by
  simp only [Host.dotGeneral]
  rw [Ideal.dotGeneral_apply, ← Equiv.sum_comp (contrEquiv1 dot_S2000000x3x3_S2000000x3x3_S2000000x3x3_1_2_2_1_0_0 3 rfl rfl).symm]
  refine Finset.sum_congr rfl fun q _ => ?_
  have hk := contrEquiv1_symm_val dot_S2000000x3x3_S2000000x3x3_S2000000x3x3_1_2_2_1_0_0 3 rfl rfl q
  have el : dot_S2000000x3x3_S2000000x3x3_S2000000x3x3_1_2_2_1_0_0.lhsIdx (ix3 n k i) ((contrEquiv1 dot_S2000000x3x3_S2000000x3x3_S2000000x3x3_1_2_2_1_0_0 3 rfl rfl).symm q) = ix3 n q k := funext fun a => Fin.ext (by
    match a with
    | ⟨0, _⟩ => exact lhsA_0 _ _
    | ⟨1, _⟩ => exact (lhsA_1 _ _).trans hk
    | ⟨2, _⟩ => exact lhsA_2 _ _)
  have er : dot_S2000000x3x3_S2000000x3x3_S2000000x3x3_1_2_2_1_0_0.rhsIdx (ix3 n k i) ((contrEquiv1 dot_S2000000x3x3_S2000000x3x3_S2000000x3x3_1_2_2_1_0_0 3 rfl rfl).symm q) = ix3 n i q := funext fun a => Fin.ext (by
    match a with
    | ⟨0, _⟩ => exact rhsA_0 _ _
    | ⟨1, _⟩ => exact rhsA_1 _ _
    | ⟨2, _⟩ => exact (rhsA_2 _ _).trans hk)
  rw [el, er]

/-- The second contraction sums the two operands' rows against each other: entry `(i, l)` is `∑ q, X[q, i] · Y[q, l]`. -/
theorem dotB_apply (X Y : FVec Ideal S2000000x3x3 .f32) (n : Fin 2000000) (i l : Fin 3) :
    Host.dotGeneral (F := Ideal) (φ₁ := .f32) (φ₂ := .f32) dot_S2000000x3x3_S2000000x3x3_S2000000x3x3_1_1_2_2_0_0 none X Y (ix3 n i l) = ∑ q : Fin 3, X (ix3 n q i) * Y (ix3 n q l) := by
  simp only [Host.dotGeneral]
  rw [Ideal.dotGeneral_apply, ← Equiv.sum_comp (contrEquiv1 dot_S2000000x3x3_S2000000x3x3_S2000000x3x3_1_1_2_2_0_0 3 rfl rfl).symm]
  refine Finset.sum_congr rfl fun q _ => ?_
  have hk := contrEquiv1_symm_val dot_S2000000x3x3_S2000000x3x3_S2000000x3x3_1_1_2_2_0_0 3 rfl rfl q
  have el : dot_S2000000x3x3_S2000000x3x3_S2000000x3x3_1_1_2_2_0_0.lhsIdx (ix3 n i l) ((contrEquiv1 dot_S2000000x3x3_S2000000x3x3_S2000000x3x3_1_1_2_2_0_0 3 rfl rfl).symm q) = ix3 n q i := funext fun a => Fin.ext (by
    match a with
    | ⟨0, _⟩ => exact lhsB_0 _ _
    | ⟨1, _⟩ => exact (lhsB_1 _ _).trans hk
    | ⟨2, _⟩ => exact lhsB_2 _ _)
  have er : dot_S2000000x3x3_S2000000x3x3_S2000000x3x3_1_1_2_2_0_0.rhsIdx (ix3 n i l) ((contrEquiv1 dot_S2000000x3x3_S2000000x3x3_S2000000x3x3_1_1_2_2_0_0 3 rfl rfl).symm q) = ix3 n q l := funext fun a => Fin.ext (by
    match a with
    | ⟨0, _⟩ => exact rhsB_0 _ _
    | ⟨1, _⟩ => exact (rhsB_1 _ _).trans hk
    | ⟨2, _⟩ => exact rhsB_2 _ _)
  rw [el, er]

end Cert.ReferenceIdeal.RefRead

end
-- ==== Proof.RefMatrix.lean ====
/-
  The reference's fixed-up rotation read at an index, at the extended reals.

  With finite angles every entry of the three elementary rotations is a real number: a cosine, a sine, a negated sine,
  zero or one. So are the entries of the two contractions, and the nine entries of the fixed-up triple product are the
  closed forms by ring identities over the reals.
-/
import proofs.«132078_j45844480918144_1_alg».proof.Proof.RefLayout

noncomputable section

namespace Cert.ReferenceIdeal.RefRead

open Cert.ReferenceIdeal Cert.ReferenceIdeal.Gen Cert.ReferenceIdeal.Stages Idealize.ShloMosaic Idealize.ShloMosaic.ValueIdx

/-- The elementary rotations over the reals, their first product (transposed, as the first contraction lays it out)
    and the triple product. -/
def RxR (x : ℝ) : Fin 3 → Fin 3 → ℝ := sel9 1 0 0 0 (Real.cos x) (-Real.sin x) 0 (Real.sin x) (Real.cos x)
def RyR (y : ℝ) : Fin 3 → Fin 3 → ℝ := sel9 (Real.cos y) 0 (Real.sin y) 0 1 0 (-Real.sin y) 0 (Real.cos y)
def RzR (z : ℝ) : Fin 3 → Fin 3 → ℝ := sel9 (Real.cos z) (-Real.sin z) 0 (Real.sin z) (Real.cos z) 0 0 0 1
def PR (x y : ℝ) (k i : Fin 3) : ℝ := ∑ q : Fin 3, RyR y q k * RxR x i q
def RR (x y z : ℝ) (i l : Fin 3) : ℝ := ∑ q : Fin 3, PR x y q i * RzR z q l

theorem hostNegf_ideal (x : EReal) : FloatOps.hostNegf (F := Ideal) (φ := .f32) x = -x := rfl

theorem M_apply (r : CN3 Ideal) (hr : ∀ i, ∃ x : ℝ, r i = (x : EReal)) (n : Fin 2000000) (a b : Fin 3) :
    M (F := Ideal) r (ix3 n a b) = Cert.Euler.rotEntry (r (ix2 n (0 : Fin 3))) (r (ix2 n (1 : Fin 3))) (r (ix2 n (2 : Fin 3))) a b := by
  obtain ⟨x, hx⟩ := hr (ix2 n (0 : Fin 3))
  obtain ⟨y, hy⟩ := hr (ix2 n (1 : Fin 3))
  obtain ⟨z, hz⟩ := hr (ix2 n (2 : Fin 3))
  -- the numbers the elementary rotations are made of, as real numbers
  have h1 : (ones (F := Ideal)) (ix1 n) = ((1 : ℝ) : EReal) := by
    rw [ones_apply]; exact Ideal.ofBits_one_f32
  have h0 : (zeros (F := Ideal)) (ix1 n) = ((0 : ℝ) : EReal) := by
    rw [zeros_apply]; exact Ideal.ofBits_zero_f32
  have hcx : Host.cos (ang0 r) (ix1 n) = ((Real.cos x : ℝ) : EReal) := by
    show Ideal.cos (ang0 r (ix1 n)) = _; rw [ang0_apply, hx]; rfl
  have hsx : Host.sin (ang0 r) (ix1 n) = ((Real.sin x : ℝ) : EReal) := by
    show Ideal.sin (ang0 r (ix1 n)) = _; rw [ang0_apply, hx]; rfl
  have hnx : Host.negf (Host.sin (ang0 r)) (ix1 n) = ((-Real.sin x : ℝ) : EReal) := by
    show -(Ideal.sin (ang0 r (ix1 n))) = _; rw [ang0_apply, hx]; rfl
  have hcy : Host.cos (ang1 r) (ix1 n) = ((Real.cos y : ℝ) : EReal) := by
    show Ideal.cos (ang1 r (ix1 n)) = _; rw [ang1_apply, hy]; rfl
  have hsy : Host.sin (ang1 r) (ix1 n) = ((Real.sin y : ℝ) : EReal) := by
    show Ideal.sin (ang1 r (ix1 n)) = _; rw [ang1_apply, hy]; rfl
  have hny : Host.negf (Host.sin (ang1 r)) (ix1 n) = ((-Real.sin y : ℝ) : EReal) := by
    show -(Ideal.sin (ang1 r (ix1 n))) = _; rw [ang1_apply, hy]; rfl
  have hcz : Host.cos (ang2 r) (ix1 n) = ((Real.cos z : ℝ) : EReal) := by
    show Ideal.cos (ang2 r (ix1 n)) = _; rw [ang2_apply, hz]; rfl
  have hsz : Host.sin (ang2 r) (ix1 n) = ((Real.sin z : ℝ) : EReal) := by
    show Ideal.sin (ang2 r (ix1 n)) = _; rw [ang2_apply, hz]; rfl
  have hnz : Host.negf (Host.sin (ang2 r)) (ix1 n) = ((-Real.sin z : ℝ) : EReal) := by
    show -(Ideal.sin (ang2 r (ix1 n))) = _; rw [ang2_apply, hz]; rfl
  -- the three elementary rotations, entry by entry
  have eRx : ∀ i j : Fin 3, Rx (F := Ideal) r (ix3 n i j)
      = ((RxR x i j : ℝ) : EReal) := by
    intro i j; unfold Rx; rw [mat9_sel]
    match i, j with
    | 0, 0 => exact h1 | 0, 1 => exact h0 | 0, 2 => exact h0
    | 1, 0 => exact h0 | 1, 1 => exact hcx | 1, 2 => exact hnx
    | 2, 0 => exact h0 | 2, 1 => exact hsx | 2, 2 => exact hcx
  have eRy : ∀ i j : Fin 3, Ry (F := Ideal) r (ix3 n i j)
      = ((RyR y i j : ℝ) : EReal) := by
    intro i j; unfold Ry; rw [mat9_sel]
    match i, j with
    | 0, 0 => exact hcy | 0, 1 => exact h0 | 0, 2 => exact hsy
    | 1, 0 => exact h0 | 1, 1 => exact h1 | 1, 2 => exact h0
    | 2, 0 => exact hny | 2, 1 => exact h0 | 2, 2 => exact hcy
  have eRz : ∀ i j : Fin 3, Rz (F := Ideal) r (ix3 n i j)
      = ((RzR z i j : ℝ) : EReal) := by
    intro i j; unfold Rz; rw [mat9_sel]
    match i, j with
    | 0, 0 => exact hcz | 0, 1 => exact hnz | 0, 2 => exact h0
    | 1, 0 => exact hsz | 1, 1 => exact hcz | 1, 2 => exact h0
    | 2, 0 => exact h0 | 2, 1 => exact h0 | 2, 2 => exact h1
  -- the first contraction and the triple product, entry by entry: sums of three products of real numbers
  have eP : ∀ k i : Fin 3, RyRx (F := Ideal) r (ix3 n k i) = ((PR x y k i : ℝ) : EReal) := by
    intro k i; unfold RyRx; rw [dotA_apply]
    simp only [eRy, eRx, PR, Fin.sum_univ_three, EReal.coe_add, EReal.coe_mul]
  have eR : ∀ i l : Fin 3, R (F := Ideal) r (ix3 n i l) = ((RR x y z i l : ℝ) : EReal) := by
    intro i l; unfold R; rw [dotB_apply]
    simp only [eP, eRz, RR, Fin.sum_univ_three, EReal.coe_add, EReal.coe_mul]
  rw [M_sel, hx, hy, hz]
  have ha : a = 0 ∨ a = 1 ∨ a = 2 := by fin_cases a <;> simp
  have hb : b = 0 ∨ b = 1 ∨ b = 2 := by fin_cases b <;> simp
  rcases ha with rfl | rfl | rfl <;> rcases hb with rfl | rfl | rfl <;>
  · simp only [Msel, eR, hostNegf_ideal, Cert.Euler.rotEntry, Ideal.cos_coe, Ideal.sin_coe]
    norm_cast
    simp only [RR, PR, RxR, RyR, RzR, sel9, Fin.sum_univ_three]
    congr 1
    ring

end Cert.ReferenceIdeal.RefRead

end
-- ==== Proof.RefTranslate.lean ====
/-
  The reference's scaled translation read at an index: the translation entry times the scale word of its column.
-/
import proofs.«132078_j45844480918144_1_alg».proof.Proof.RefStages
import proofs.«132078_j45844480918144_1_alg».proof.Proof.Spec
import Idealize.ShloMosaic.Lib.ValueIdx
import Idealize.ShloMosaic.Lib.Pipeline.Value

noncomputable section

namespace Cert.ReferenceIdeal.RefRead

open Cert.ReferenceIdeal Cert.ReferenceIdeal.Gen Cert.ReferenceIdeal.Stages Idealize.ShloMosaic Idealize.ShloMosaic.ValueIdx

/-- The scale array read at camera `n`, column `a`: the `a`-th word of the three-word table, whatever the camera.
    The table is first laid as one row of three, then that row is repeated down the cameras. -/
private theorem scale_apply {F : FTy → Type} [FloatOps F] (n : Fin 2000000) (a : Fin 3) :
    scale (F := F) (ix2 n a) = FloatOps.ofBits .f32 (lit0 a) := by
  unfold scale
  refine (broadcastInDim_apply _ _ _ (ix2 n a) (ix2 (0 : Fin 1) a) (fun b => ?_)).trans ?_
  · match b with
    | ⟨0, _⟩ => exact (if_pos rfl).symm
    | ⟨1, _⟩ => exact (if_neg (by decide +revert)).symm
  refine (broadcastInDim_apply _ _ _ (ix2 (0 : Fin 1) a) (ix1 a) (fun b => ?_)).trans ?_
  · match b with
    | ⟨0, _⟩ => exact (if_neg (by decide +revert)).symm
  exact congrArg (fun k => FloatOps.ofBits (F := F) .f32 (lit0 k)) (Fin.ext (Shape.rowMajor_val_one (ix1 a)))

theorem tn_apply (t : CN3 Ideal) (n : Fin 2000000) (a : Fin 3) :
    tn (F := Ideal) t (ix2 n a) = t (ix2 n a) * Ideal.ofBits .f32 (Cert.Euler.scaleWord a) := by
  unfold tn
  rw [mulf_apply, scale_apply]
  match a with
  | 0 => rfl
  | 1 => rfl
  | 2 => rfl

end Cert.ReferenceIdeal.RefRead

end
-- ==== Proof.RefRead.lean ====
/-
  The reference's result is the specification, when the angles are finite.
-/
import proofs.«132078_j45844480918144_1_alg».proof.Proof.RefScatter
import proofs.«132078_j45844480918144_1_alg».proof.Proof.RefMatrix
import proofs.«132078_j45844480918144_1_alg».proof.Proof.RefTranslate

noncomputable section

namespace Cert.ReferenceIdeal.RefRead

open Cert.ReferenceIdeal Cert.ReferenceIdeal.Gen Cert.ReferenceIdeal.Stages Idealize.ShloMosaic Idealize.ShloMosaic.ValueIdx

theorem refOut_eq (r t : CN3 Ideal) (c : CN44 Ideal) (hr : ∀ i, ∃ x : ℝ, r i = (x : EReal)) :
    refOut (F := Ideal) r t c = Cert.Euler.G r t c := by
  funext i
  obtain ⟨n, a, b, rfl⟩ : ∃ (n : Fin 2000000) (a b : Fin 4), i = ix3 n a b := ⟨i 0, i 1, i 2, eq_ix3 i⟩
  rw [refOut_apply, Cert.Euler.G_ix3]
  unfold Cert.Euler.Gat
  by_cases h1 : a.val < 3
  · rw [dif_pos h1, dif_pos h1]
    by_cases h2 : b.val < 3
    · rw [dif_pos h2, dif_pos h2]; exact M_apply r hr n _ _
    · rw [dif_neg h2, dif_neg h2]; exact tn_apply t n _
  · rw [dif_neg h1, dif_neg h1]

end Cert.ReferenceIdeal.RefRead

end
-- ==== Proof.Finite.lean ====
/-
  The precondition read at the angles: every entry of `r` is a real number.
-/
import proofs.«132078_j45844480918144_1_alg».proof.Defs
import proofs.«132078_j45844480918144_1_alg».proof.Proof.Gen.Pre_finite_inputs
import Idealize.ShloMosaic.Lib.ReduceAll
import Idealize.ShloMosaic.Lib.ValueIdx

noncomputable section

namespace Cert.Euler

open Idealize.ShloMosaic Idealize.ShloMosaic.TcCoe Idealize.SL.Sem

/-- The f32 pattern with all-ones exponent, zero fraction and clear sign denotes +∞. -/
private theorem inf_bits : Ideal.ofBits .f32 0x7F800000#32 = (⊤ : EReal) := by
  simp [Ideal.ofBits, Ideal.ieee]

/-- An extended real whose absolute value max x (−x) lies below +∞ is a real:
    at ⊥ and at ⊤ that maximum is ⊤. -/
private theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- One entry of an array of extended reals: if the comparison |X i| < Y i answers 1 and Y i is +∞,
    the entry is a real. -/
private theorem real_of_cmp {s : Shape} (X : FVec Ideal s .f32) (Y : FVec Ideal s .f32) (i : s.Idx)
    (hY : Y i = Ideal.ofBits .f32 0x7F800000#32)
    (hi : cmpf CmpFPredicate.olt (Host.absf X) Y i = 1#1) : ∃ r : ℝ, X i = (r : EReal) := by
  have hb : BitVec.ofBool (decide (max (X i) (-(X i)) < Y i)) = 1#1 := hi
  rw [hY, inf_bits] at hb
  refine real_of_abs_lt_top _ ?_
  by_contra hn
  rw [decide_eq_false hn] at hb
  exact absurd hb (by decide)

theorem finite_r (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S2000000x3.Idx) :
    ∃ x : ℝ, m ((c.tc : Thread Cert.KernelIdeal.nD Cert.KernelIdeal.τ).loc Cert.KernelIdeal.main_arg0) i = (x : EReal) := by
  -- the rank-0 result has one index
  haveI : Subsingleton Cert.Pre_finite_inputs.S_.Idx := ⟨fun a b => funext fun d => d.elim0⟩
  -- the predicate at that index: a conjunction of three reductions by `and`
  have h0 := congrFun (h c) ValueIdx.ix0
  dsimp only [Cert.Pre_finite_inputs.fn] at h0
  obtain ⟨h1, _⟩ := IntOp.andi_eq_one.1 h0
  obtain ⟨hr, _⟩ := IntOp.andi_eq_one.1 h1
  -- the first reduction is 1, so the comparison |r i| < +∞ answers 1 at every index
  have hi := Host.reduce_andi_all _ _ _ _ _ hr i
  exact real_of_cmp _ _ i rfl hi

end Cert.Euler

end
-- ==== Proof.lean ====
/-
  Euler angles to a camera pose, two million cameras at a time.

  The kernel writes the fixed-up rotation `fixup(Rx·Ry·Rz)` in closed form, nine products of sines and cosines per
  camera; the reference builds the three elementary rotations, multiplies them by two batched contractions and then
  re-signs and transposes the entries. Both put the scaled translation in the last column and keep the last row of the
  pose array. With finite angles the sines and cosines are real numbers, the zeros and ones of the elementary
  rotations drop out of the two contractions, and what is left is the closed form, entry by entry.
-/
import proofs.«132078_j45844480918144_1_alg».proof.Defs
import proofs.«132078_j45844480918144_1_alg».proof.Proof.Gen.Kernel
import proofs.«132078_j45844480918144_1_alg».proof.Proof.Gen.Kernel.Frame
import proofs.«132078_j45844480918144_1_alg».proof.Proof.Gen.KernelIdeal
import proofs.«132078_j45844480918144_1_alg».proof.Proof.Gen.KernelIdeal.Frame
import proofs.«132078_j45844480918144_1_alg».proof.Proof.Gen.ReferenceIdeal
import proofs.«132078_j45844480918144_1_alg».proof.Proof.Gen.Pre_finite_inputs
import proofs.«132078_j45844480918144_1_alg».proof.Proof.KernelValue
import proofs.«132078_j45844480918144_1_alg».proof.Proof.RefRun
import proofs.«132078_j45844480918144_1_alg».proof.Proof.RefRead
import proofs.«132078_j45844480918144_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end at the specification of the arguments: the kernel by its run, the reference by its run and the
    real-number identity, which the finiteness of the angles licenses. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefRead.refOut_eq _ _ _ (fun i => Cert.Euler.finite_r m hpre c i)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
